-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S16 : Shape := ⟨1, ![16]⟩
abbrev S1024x4096 : Shape := ⟨2, ![1024, 4096]⟩
abbrev S1024x32 : Shape := ⟨2, ![1024, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S16 : S_.BroadcastsInDim S16 (![] : Fin 0 → Fin S16.rank)
  reducesTo_S16_S_d0 : S16.ReducesTo [0] S_
  bcast_S_S1024x32 : S_.BroadcastsInDim S1024x32 (![] : Fin 0 → Fin S1024x32.rank)
  reducesTo_S1024x32_S_d0_1 : S1024x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg7 : IVec S1024x4096 32) (main_v47 : IVec S_ 1) (main_v49 : IVec S1024x4096 1) (main_c_19 : IVec S_ 32) : IVec S_ 1 :=
  let main_v50 : IVec S1024x4096 32 := broadcastInDim S1024x4096 ![] bcast_S_S1024x4096 main_c_19
  let main_v51 : IVec S1024x4096 1 := cmpi .slt main_arg7 main_v50
  let main_v52 : IVec S1024x4096 1 := andi main_v49 main_v51
  let main_c_20 : IVec S_ 1 := constantI S_ 1 1#1
  let main_v53 : IVec S_ 1 := (fun x v => Host.reduce IntOp.andi x v reducesTo_S1024x4096_S_d0_1 h_S_) main_v52 main_c_20
  let main_v54 : IVec S_ 1 := andi main_v47 main_v53
  main_v54

def fn_part2 {F : FTy → Type} [FloatOps F] (main_arg1 : IVec S4096x4096 32) (main_arg4 : IVec S1024x4096 32) (main_arg7 : IVec S1024x4096 32) (main_v33 : IVec S_ 1) : IVec S_ 1 :=
  let main_c_12 : IVec S_ 32 := constantI S_ 32 0#32
  let main_v34 : IVec S4096x4096 32 := broadcastInDim S4096x4096 ![] bcast_S_S4096x4096 main_c_12
  let main_v35 : IVec S4096x4096 1 := cmpi .sge main_arg1 main_v34
  let main_c_13 : IVec S_ 32 := constantI S_ 32 16#32
  let main_v36 : IVec S4096x4096 32 := broadcastInDim S4096x4096 ![] bcast_S_S4096x4096 main_c_13
  let main_v37 : IVec S4096x4096 1 := cmpi .slt main_arg1 main_v36
  let main_v38 : IVec S4096x4096 1 := andi main_v35 main_v37
  let main_c_14 : IVec S_ 1 := constantI S_ 1 1#1
  let main_v39 : IVec S_ 1 := (fun x v => Host.reduce IntOp.andi x v reducesTo_S4096x4096_S_d0_1 h_S_) main_v38 main_c_14
  let main_v40 : IVec S_ 1 := andi main_v33 main_v39
  let main_c_15 : IVec S_ 32 := constantI S_ 32 0#32
  let main_v41 : IVec S1024x4096 32 := broadcastInDim S1024x4096 ![] bcast_S_S1024x4096 main_c_15
  let main_v42 : IVec S1024x4096 1 := cmpi .sge main_arg4 main_v41
  let main_c_16 : IVec S_ 32 := constantI S_ 32 16#32
  let main_v43 : IVec S1024x4096 32 := broadcastInDim S1024x4096 ![] bcast_S_S1024x4096 main_c_16
  let main_v44 : IVec S1024x4096 1 := cmpi .slt main_arg4 main_v43
  let main_v45 : IVec S1024x4096 1 := andi main_v42 main_v44
  let main_c_17 : IVec S_ 1 := constantI S_ 1 1#1
  let main_v46 : IVec S_ 1 := (fun x v => Host.reduce IntOp.andi x v reducesTo_S1024x4096_S_d0_1 h_S_) main_v45 main_c_17
  let main_v47 : IVec S_ 1 := andi main_v40 main_v46
  let main_c_18 : IVec S_ 32 := constantI S_ 32 0#32
  let main_v48 : IVec S1024x4096 32 := broadcastInDim S1024x4096 ![] bcast_S_S1024x4096 main_c_18
  let main_v49 : IVec S1024x4096 1 := cmpi .sge main_arg7 main_v48
  let main_c_19 : IVec S_ 32 := constantI S_ 32 16#32
  fn_part3 (F := F) main_arg7 main_v47 main_v49 main_c_19

def fn_part1 {F : FTy → Type} [FloatOps F] (main_arg1 : IVec S4096x4096 32) (main_arg4 : IVec S1024x4096 32) (main_arg6 : FVec F S16 .f32) (main_arg7 : IVec S1024x4096 32) (main_arg8 : FVec F S1024x32 .f32) (main_arg9 : FVec F S16 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1024x32 .f32 := Host.absf main_arg8
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg4 main_arg7 main_v33

def fn {F : FTy → Type} [FloatOps F] (main_arg0 : FVec F S4x2048x4096 .f32) (main_arg1 : IVec S4096x4096 32) (main_arg2 : FVec F S4096x32 .f32) (main_arg3 : FVec F S16 .f32) (main_arg4 : IVec S1024x4096 32) (main_arg5 : FVec F S1024x32 .f32) (main_arg6 : FVec F S16 .f32) (main_arg7 : IVec S1024x4096 32) (main_arg8 : FVec F S1024x32 .f32) (main_arg9 : FVec F S16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1024x32 .f32 := Host.absf main_arg5
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg1 main_arg4 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S16 : Shape := ⟨1, ![16]⟩
abbrev S1024x4096 : Shape := ⟨2, ![1024, 4096]⟩
abbrev S1024x32 : Shape := ⟨2, ![1024, 32]⟩
abbrev S8192x4096 : Shape := ⟨2, ![8192, 4096]⟩
abbrev S1x16 : Shape := ⟨2, ![1, 16]⟩
abbrev S4096x16 : Shape := ⟨2, ![4096, 16]⟩
abbrev S64x16 : Shape := ⟨2, ![64, 16]⟩
abbrev S64x4096 : Shape := ⟨2, ![64, 4096]⟩
abbrev S64x32 : Shape := ⟨2, ![64, 32]⟩
abbrev S64x1 : Shape := ⟨2, ![64, 1]⟩
abbrev S64x128 : Shape := ⟨2, ![64, 128]⟩
abbrev S1024x16 : Shape := ⟨2, ![1024, 16]⟩
abbrev S6144x4096 : Shape := ⟨2, ![6144, 4096]⟩
abbrev S8192x6144 : Shape := ⟨2, ![8192, 6144]⟩
abbrev S1024x1024 : Shape := ⟨2, ![1024, 1024]⟩
abbrev S2048x1024 : Shape := ⟨2, ![2048, 1024]⟩
abbrev S1024x2048 : Shape := ⟨2, ![1024, 2048]⟩
abbrev S8192x1024 : Shape := ⟨2, ![8192, 1024]⟩
abbrev S4x2048x1024 : Shape := ⟨3, ![4, 2048, 1024]⟩

abbrev nBuf : Space → Nat
  | .hbm => 29
  | .vmem => 31
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S16, .f32⟩
  | .hbm, ⟨4, _⟩ => ⟨S1024x4096, .i32⟩
  | .hbm, ⟨5, _⟩ => ⟨S1024x32, .f32⟩
  | .hbm, ⟨6, _⟩ => ⟨S16, .f32⟩
  | .hbm, ⟨7, _⟩ => ⟨S1024x4096, .i32⟩
  | .hbm, ⟨8, _⟩ => ⟨S1024x32, .f32⟩
  | .hbm, ⟨9, _⟩ => ⟨S16, .f32⟩
  | .hbm, ⟨10, _⟩ => ⟨S8192x4096, .f32⟩
  | .hbm, ⟨11, _⟩ => ⟨S8192x4096, .bf16⟩
  | .hbm, ⟨12, _⟩ => ⟨S1x16, .f32⟩
  | .hbm, ⟨13, _⟩ => ⟨S4096x16, .f32⟩
  | .hbm, ⟨14, _⟩ => ⟨S4096x4096, .bf16⟩
  | .hbm, ⟨15, _⟩ => ⟨S1x16, .f32⟩
  | .hbm, ⟨16, _⟩ => ⟨S1024x16, .f32⟩
  | .hbm, ⟨17, _⟩ => ⟨S1024x4096, .bf16⟩
  | .hbm, ⟨18, _⟩ => ⟨S1x16, .f32⟩
  | .hbm, ⟨19, _⟩ => ⟨S1024x16, .f32⟩
  | .hbm, ⟨20, _⟩ => ⟨S1024x4096, .bf16⟩
  | .hbm, ⟨21, _⟩ => ⟨S6144x4096, .bf16⟩
  | .hbm, ⟨22, _⟩ => ⟨S8192x6144, .f32⟩
  | .hbm, ⟨23, _⟩ => ⟨S8192x4096, .f32⟩
  | .hbm, ⟨24, _⟩ => ⟨S4x2048x4096, .f32⟩
  | .hbm, ⟨25, _⟩ => ⟨S8192x1024, .f32⟩
  | .hbm, ⟨26, _⟩ => ⟨S4x2048x1024, .f32⟩
  | .hbm, ⟨27, _⟩ => ⟨S8192x1024, .f32⟩
  | .hbm, ⟨28, _⟩ => ⟨S4x2048x1024, .f32⟩
  | .local _ .vmem, ⟨0, _⟩ => ⟨S64x16, .f32⟩
  | .local _ .vmem, ⟨1, _⟩ => ⟨S64x16, .f32⟩
  | .local _ .vmem, ⟨2, _⟩ => ⟨S64x4096, .i32⟩
  | .local _ .vmem, ⟨3, _⟩ => ⟨S64x4096, .i32⟩
  | .local _ .vmem, ⟨4, _⟩ => ⟨S64x32, .f32⟩
  | .local _ .vmem, ⟨5, _⟩ => ⟨S64x32, .f32⟩
  | .local _ .vmem, ⟨6, _⟩ => ⟨S64x4096, .bf16⟩
  | .local _ .vmem, ⟨7, _⟩ => ⟨S64x4096, .bf16⟩
  | .local _ .vmem, ⟨8, _⟩ => ⟨S64x16, .f32⟩
  | .local _ .vmem, ⟨9, _⟩ => ⟨S64x16, .f32⟩
  | .local _ .vmem, ⟨10, _⟩ => ⟨S64x4096, .i32⟩
  | .local _ .vmem, ⟨11, _⟩ => ⟨S64x4096, .i32⟩
  | .local _ .vmem, ⟨12, _⟩ => ⟨S64x32, .f32⟩
  | .local _ .vmem, ⟨13, _⟩ => ⟨S64x32, .f32⟩
  | .local _ .vmem, ⟨14, _⟩ => ⟨S64x4096, .bf16⟩
  | .local _ .vmem, ⟨15, _⟩ => ⟨S64x4096, .bf16⟩
  | .local _ .vmem, ⟨16, _⟩ => ⟨S64x16, .f32⟩
  | .local _ .vmem, ⟨17, _⟩ => ⟨S64x16, .f32⟩
  | .local _ .vmem, ⟨18, _⟩ => ⟨S64x4096, .i32⟩
  | .local _ .vmem, ⟨19, _⟩ => ⟨S64x4096, .i32⟩
  | .local _ .vmem, ⟨20, _⟩ => ⟨S64x32, .f32⟩
  | .local _ .vmem, ⟨21, _⟩ => ⟨S64x32, .f32⟩
  | .local _ .vmem, ⟨22, _⟩ => ⟨S64x4096, .bf16⟩
  | .local _ .vmem, ⟨23, _⟩ => ⟨S64x4096, .bf16⟩
  | .local _ .vmem, ⟨24, _⟩ => ⟨S1024x1024, .bf16⟩
  | .local _ .vmem, ⟨25, _⟩ => ⟨S1024x1024, .bf16⟩
  | .local _ .vmem, ⟨26, _⟩ => ⟨S2048x1024, .bf16⟩
  | .local _ .vmem, ⟨27, _⟩ => ⟨S2048x1024, .bf16⟩
  | .local _ .vmem, ⟨28, _⟩ => ⟨S1024x2048, .f32⟩
  | .local _ .vmem, ⟨29, _⟩ => ⟨S1024x2048, .f32⟩
  | .local _ .vmem, ⟨30, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![8, 3, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

class Facts₀ : Prop where
  shapeCasts_S4x2048x4096_S8192x4096 : S4x2048x4096.ShapeCasts S8192x4096
  bitsLt_bf16_f32 : FTy.bits .bf16 < FTy.bits .f32
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  inb_S64x4096_S64x4096_0_0 : ∀ a, (![0, 0] : Fin 2 → Nat) a + S64x4096.size a ≤ S64x4096.size a
  h_S64x4096 : 0 < S64x4096.numel
  inb_S64x16_S64x1_0_1 : ∀ a, (![0, 1] : Fin 2 → Nat) a + S64x1.size a ≤ S64x16.size a
  h_S64x1 : 0 < S64x1.numel
  shapeCasts_S64x1_S64x1 : S64x1.ShapeCasts S64x1
  broadcasts_S64x1_S64x4096 : S64x1.Broadcasts S64x4096
  inb_S64x16_S64x1_0_0 : ∀ a, (![0, 0] : Fin 2 → Nat) a + S64x1.size a ≤ S64x16.size a
  inb_S64x16_S64x1_0_3 : ∀ a, (![0, 3] : Fin 2 → Nat) a + S64x1.size a ≤ S64x16.size a
  inb_S64x16_S64x1_0_2 : ∀ a, (![0, 2] : Fin 2 → Nat) a + S64x1.size a ≤ S64x16.size a
  inb_S64x16_S64x1_0_5 : ∀ a, (![0, 5] : Fin 2 → Nat) a + S64x1.size a ≤ S64x16.size a
  inb_S64x16_S64x1_0_4 : ∀ a, (![0, 4] : Fin 2 → Nat) a + S64x1.size a ≤ S64x16.size a
  inb_S64x16_S64x1_0_7 : ∀ a, (![0, 7] : Fin 2 → Nat) a + S64x1.size a ≤ S64x16.size a
  inb_S64x16_S64x1_0_6 : ∀ a, (![0, 6] : Fin 2 → Nat) a + S64x1.size a ≤ S64x16.size a
  inb_S64x16_S64x1_0_9 : ∀ a, (![0, 9] : Fin 2 → Nat) a + S64x1.size a ≤ S64x16.size a
  inb_S64x16_S64x1_0_8 : ∀ a, (![0, 8] : Fin 2 → Nat) a + S64x1.size a ≤ S64x16.size a
  inb_S64x16_S64x1_0_11 : ∀ a, (![0, 11] : Fin 2 → Nat) a + S64x1.size a ≤ S64x16.size a
  inb_S64x16_S64x1_0_10 : ∀ a, (![0, 10] : Fin 2 → Nat) a + S64x1.size a ≤ S64x16.size a
  inb_S64x16_S64x1_0_13 : ∀ a, (![0, 13] : Fin 2 → Nat) a + S64x1.size a ≤ S64x16.size a
  inb_S64x16_S64x1_0_12 : ∀ a, (![0, 12] : Fin 2 → Nat) a + S64x1.size a ≤ S64x16.size a
  inb_S64x16_S64x1_0_15 : ∀ a, (![0, 15] : Fin 2 → Nat) a + S64x1.size a ≤ S64x16.size a
  inb_S64x16_S64x1_0_14 : ∀ a, (![0, 14] : Fin 2 → Nat) a + S64x1.size a ≤ S64x16.size a
  slices_S64x4096_o0_0_S64x128 : S64x4096.Slices ![0, 0] S64x128
  inb_S64x32_S64x1_0_0 : ∀ a, (![0, 0] : Fin 2 → Nat) a + S64x1.size a ≤ S64x32.size a
  broadcasts_S64x1_S64x128 : S64x1.Broadcasts S64x128
  inb_S64x4096_S64x128_0_0 : ∀ a, (![0, 0] : Fin 2 → Nat) a + S64x128.size a ≤ S64x4096.size a
  h_S64x128 : 0 < S64x128.numel
  packedbf16_S64x4096_S64x128_0_0 : (Rect.unit (s := S64x4096) ![0, 0] S64x128.size inb_S64x4096_S64x128_0_0).PackedRows (EltTy.packing .bf16)
  slices_S64x4096_o0_128_S64x128 : S64x4096.Slices ![0, 128] S64x128
  inb_S64x32_S64x1_0_1 : ∀ a, (![0, 1] : Fin 2 → Nat) a + S64x1.size a ≤ S64x32.size a
  inb_S64x4096_S64x128_0_128 : ∀ a, (![0, 128] : Fin 2 → Nat) a + S64x128.size a ≤ S64x4096.size a
  packedbf16_S64x4096_S64x128_0_128 : (Rect.unit (s := S64x4096) ![0, 128] S64x128.size inb_S64x4096_S64x128_0_128).PackedRows (EltTy.packing .bf16)
  slices_S64x4096_o0_256_S64x128 : S64x4096.Slices ![0, 256] S64x128
  inb_S64x32_S64x1_0_2 : ∀ a, (![0, 2] : Fin 2 → Nat) a + S64x1.size a ≤ S64x32.size a
  inb_S64x4096_S64x128_0_256 : ∀ a, (![0, 256] : Fin 2 → Nat) a + S64x128.size a ≤ S64x4096.size a
  packedbf16_S64x4096_S64x128_0_256 : (Rect.unit (s := S64x4096) ![0, 256] S64x128.size inb_S64x4096_S64x128_0_256).PackedRows (EltTy.packing .bf16)
  slices_S64x4096_o0_384_S64x128 : S64x4096.Slices ![0, 384] S64x128
  inb_S64x32_S64x1_0_3 : ∀ a, (![0, 3] : Fin 2 → Nat) a + S64x1.size a ≤ S64x32.size a
  inb_S64x4096_S64x128_0_384 : ∀ a, (![0, 384] : Fin 2 → Nat) a + S64x128.size a ≤ S64x4096.size a
  packedbf16_S64x4096_S64x128_0_384 : (Rect.unit (s := S64x4096) ![0, 384] S64x128.size inb_S64x4096_S64x128_0_384).PackedRows (EltTy.packing .bf16)
  slices_S64x4096_o0_512_S64x128 : S64x4096.Slices ![0, 512] S64x128
  inb_S64x32_S64x1_0_4 : ∀ a, (![0, 4] : Fin 2 → Nat) a + S64x1.size a ≤ S64x32.size a
  inb_S64x4096_S64x128_0_512 : ∀ a, (![0, 512] : Fin 2 → Nat) a + S64x128.size a ≤ S64x4096.size a
  packedbf16_S64x4096_S64x128_0_512 : (Rect.unit (s := S64x4096) ![0, 512] S64x128.size inb_S64x4096_S64x128_0_512).PackedRows (EltTy.packing .bf16)
  slices_S64x4096_o0_640_S64x128 : S64x4096.Slices ![0, 640] S64x128
  inb_S64x32_S64x1_0_5 : ∀ a, (![0, 5] : Fin 2 → Nat) a + S64x1.size a ≤ S64x32.size a
  inb_S64x4096_S64x128_0_640 : ∀ a, (![0, 640] : Fin 2 → Nat) a + S64x128.size a ≤ S64x4096.size a
  packedbf16_S64x4096_S64x128_0_640 : (Rect.unit (s := S64x4096) ![0, 640] S64x128.size inb_S64x4096_S64x128_0_640).PackedRows (EltTy.packing .bf16)
  slices_S64x4096_o0_768_S64x128 : S64x4096.Slices ![0, 768] S64x128
  inb_S64x32_S64x1_0_6 : ∀ a, (![0, 6] : Fin 2 → Nat) a + S64x1.size a ≤ S64x32.size a
  inb_S64x4096_S64x128_0_768 : ∀ a, (![0, 768] : Fin 2 → Nat) a + S64x128.size a ≤ S64x4096.size a
  packedbf16_S64x4096_S64x128_0_768 : (Rect.unit (s := S64x4096) ![0, 768] S64x128.size inb_S64x4096_S64x128_0_768).PackedRows (EltTy.packing .bf16)
  slices_S64x4096_o0_896_S64x128 : S64x4096.Slices ![0, 896] S64x128
  inb_S64x32_S64x1_0_7 : ∀ a, (![0, 7] : Fin 2 → Nat) a + S64x1.size a ≤ S64x32.size a
  inb_S64x4096_S64x128_0_896 : ∀ a, (![0, 896] : Fin 2 → Nat) a + S64x128.size a ≤ S64x4096.size a
  packedbf16_S64x4096_S64x128_0_896 : (Rect.unit (s := S64x4096) ![0, 896] S64x128.size inb_S64x4096_S64x128_0_896).PackedRows (EltTy.packing .bf16)
  slices_S64x4096_o0_1024_S64x128 : S64x4096.Slices ![0, 1024] S64x128
  inb_S64x32_S64x1_0_8 : ∀ a, (![0, 8] : Fin 2 → Nat) a + S64x1.size a ≤ S64x32.size a
  inb_S64x4096_S64x128_0_1024 : ∀ a, (![0, 1024] : Fin 2 → Nat) a + S64x128.size a ≤ S64x4096.size a
  packedbf16_S64x4096_S64x128_0_1024 : (Rect.unit (s := S64x4096) ![0, 1024] S64x128.size inb_S64x4096_S64x128_0_1024).PackedRows (EltTy.packing .bf16)
  slices_S64x4096_o0_1152_S64x128 : S64x4096.Slices ![0, 1152] S64x128
  inb_S64x32_S64x1_0_9 : ∀ a, (![0, 9] : Fin 2 → Nat) a + S64x1.size a ≤ S64x32.size a
  inb_S64x4096_S64x128_0_1152 : ∀ a, (![0, 1152] : Fin 2 → Nat) a + S64x128.size a ≤ S64x4096.size a
  packedbf16_S64x4096_S64x128_0_1152 : (Rect.unit (s := S64x4096) ![0, 1152] S64x128.size inb_S64x4096_S64x128_0_1152).PackedRows (EltTy.packing .bf16)
  slices_S64x4096_o0_1280_S64x128 : S64x4096.Slices ![0, 1280] S64x128
  inb_S64x32_S64x1_0_10 : ∀ a, (![0, 10] : Fin 2 → Nat) a + S64x1.size a ≤ S64x32.size a
  inb_S64x4096_S64x128_0_1280 : ∀ a, (![0, 1280] : Fin 2 → Nat) a + S64x128.size a ≤ S64x4096.size a
  packedbf16_S64x4096_S64x128_0_1280 : (Rect.unit (s := S64x4096) ![0, 1280] S64x128.size inb_S64x4096_S64x128_0_1280).PackedRows (EltTy.packing .bf16)
  slices_S64x4096_o0_1408_S64x128 : S64x4096.Slices ![0, 1408] S64x128
  inb_S64x32_S64x1_0_11 : ∀ a, (![0, 11] : Fin 2 → Nat) a + S64x1.size a ≤ S64x32.size a
  inb_S64x4096_S64x128_0_1408 : ∀ a, (![0, 1408] : Fin 2 → Nat) a + S64x128.size a ≤ S64x4096.size a
  packedbf16_S64x4096_S64x128_0_1408 : (Rect.unit (s := S64x4096) ![0, 1408] S64x128.size inb_S64x4096_S64x128_0_1408).PackedRows (EltTy.packing .bf16)
  slices_S64x4096_o0_1536_S64x128 : S64x4096.Slices ![0, 1536] S64x128
  inb_S64x32_S64x1_0_12 : ∀ a, (![0, 12] : Fin 2 → Nat) a + S64x1.size a ≤ S64x32.size a
  inb_S64x4096_S64x128_0_1536 : ∀ a, (![0, 1536] : Fin 2 → Nat) a + S64x128.size a ≤ S64x4096.size a
  packedbf16_S64x4096_S64x128_0_1536 : (Rect.unit (s := S64x4096) ![0, 1536] S64x128.size inb_S64x4096_S64x128_0_1536).PackedRows (EltTy.packing .bf16)
  slices_S64x4096_o0_1664_S64x128 : S64x4096.Slices ![0, 1664] S64x128
  inb_S64x32_S64x1_0_13 : ∀ a, (![0, 13] : Fin 2 → Nat) a + S64x1.size a ≤ S64x32.size a
  inb_S64x4096_S64x128_0_1664 : ∀ a, (![0, 1664] : Fin 2 → Nat) a + S64x128.size a ≤ S64x4096.size a
  packedbf16_S64x4096_S64x128_0_1664 : (Rect.unit (s := S64x4096) ![0, 1664] S64x128.size inb_S64x4096_S64x128_0_1664).PackedRows (EltTy.packing .bf16)
  slices_S64x4096_o0_1792_S64x128 : S64x4096.Slices ![0, 1792] S64x128
  inb_S64x32_S64x1_0_14 : ∀ a, (![0, 14] : Fin 2 → Nat) a + S64x1.size a ≤ S64x32.size a
  inb_S64x4096_S64x128_0_1792 : ∀ a, (![0, 1792] : Fin 2 → Nat) a + S64x128.size a ≤ S64x4096.size a
  packedbf16_S64x4096_S64x128_0_1792 : (Rect.unit (s := S64x4096) ![0, 1792] S64x128.size inb_S64x4096_S64x128_0_1792).PackedRows (EltTy.packing .bf16)
  slices_S64x4096_o0_1920_S64x128 : S64x4096.Slices ![0, 1920] S64x128
  inb_S64x32_S64x1_0_15 : ∀ a, (![0, 15] : Fin 2 → Nat) a + S64x1.size a ≤ S64x32.size a
  inb_S64x4096_S64x128_0_1920 : ∀ a, (![0, 1920] : Fin 2 → Nat) a + S64x128.size a ≤ S64x4096.size a
  packedbf16_S64x4096_S64x128_0_1920 : (Rect.unit (s := S64x4096) ![0, 1920] S64x128.size inb_S64x4096_S64x128_0_1920).PackedRows (EltTy.packing .bf16)
  slices_S64x4096_o0_2048_S64x128 : S64x4096.Slices ![0, 2048] S64x128
  inb_S64x32_S64x1_0_16 : ∀ a, (![0, 16] : Fin 2 → Nat) a + S64x1.size a ≤ S64x32.size a
  inb_S64x4096_S64x128_0_2048 : ∀ a, (![0, 2048] : Fin 2 → Nat) a + S64x128.size a ≤ S64x4096.size a
  packedbf16_S64x4096_S64x128_0_2048 : (Rect.unit (s := S64x4096) ![0, 2048] S64x128.size inb_S64x4096_S64x128_0_2048).PackedRows (EltTy.packing .bf16)
  slices_S64x4096_o0_2176_S64x128 : S64x4096.Slices ![0, 2176] S64x128
  inb_S64x32_S64x1_0_17 : ∀ a, (![0, 17] : Fin 2 → Nat) a + S64x1.size a ≤ S64x32.size a
  inb_S64x4096_S64x128_0_2176 : ∀ a, (![0, 2176] : Fin 2 → Nat) a + S64x128.size a ≤ S64x4096.size a
  packedbf16_S64x4096_S64x128_0_2176 : (Rect.unit (s := S64x4096) ![0, 2176] S64x128.size inb_S64x4096_S64x128_0_2176).PackedRows (EltTy.packing .bf16)
  slices_S64x4096_o0_2304_S64x128 : S64x4096.Slices ![0, 2304] S64x128
  inb_S64x32_S64x1_0_18 : ∀ a, (![0, 18] : Fin 2 → Nat) a + S64x1.size a ≤ S64x32.size a
  inb_S64x4096_S64x128_0_2304 : ∀ a, (![0, 2304] : Fin 2 → Nat) a + S64x128.size a ≤ S64x4096.size a
  packedbf16_S64x4096_S64x128_0_2304 : (Rect.unit (s := S64x4096) ![0, 2304] S64x128.size inb_S64x4096_S64x128_0_2304).PackedRows (EltTy.packing .bf16)
  slices_S64x4096_o0_2432_S64x128 : S64x4096.Slices ![0, 2432] S64x128
  inb_S64x32_S64x1_0_19 : ∀ a, (![0, 19] : Fin 2 → Nat) a + S64x1.size a ≤ S64x32.size a
  inb_S64x4096_S64x128_0_2432 : ∀ a, (![0, 2432] : Fin 2 → Nat) a + S64x128.size a ≤ S64x4096.size a
  packedbf16_S64x4096_S64x128_0_2432 : (Rect.unit (s := S64x4096) ![0, 2432] S64x128.size inb_S64x4096_S64x128_0_2432).PackedRows (EltTy.packing .bf16)
  slices_S64x4096_o0_2560_S64x128 : S64x4096.Slices ![0, 2560] S64x128
  inb_S64x32_S64x1_0_20 : ∀ a, (![0, 20] : Fin 2 → Nat) a + S64x1.size a ≤ S64x32.size a
  inb_S64x4096_S64x128_0_2560 : ∀ a, (![0, 2560] : Fin 2 → Nat) a + S64x128.size a ≤ S64x4096.size a
  packedbf16_S64x4096_S64x128_0_2560 : (Rect.unit (s := S64x4096) ![0, 2560] S64x128.size inb_S64x4096_S64x128_0_2560).PackedRows (EltTy.packing .bf16)
  slices_S64x4096_o0_2688_S64x128 : S64x4096.Slices ![0, 2688] S64x128
  inb_S64x32_S64x1_0_21 : ∀ a, (![0, 21] : Fin 2 → Nat) a + S64x1.size a ≤ S64x32.size a
  inb_S64x4096_S64x128_0_2688 : ∀ a, (![0, 2688] : Fin 2 → Nat) a + S64x128.size a ≤ S64x4096.size a
  packedbf16_S64x4096_S64x128_0_2688 : (Rect.unit (s := S64x4096) ![0, 2688] S64x128.size inb_S64x4096_S64x128_0_2688).PackedRows (EltTy.packing .bf16)
  slices_S64x4096_o0_2816_S64x128 : S64x4096.Slices ![0, 2816] S64x128
  inb_S64x32_S64x1_0_22 : ∀ a, (![0, 22] : Fin 2 → Nat) a + S64x1.size a ≤ S64x32.size a
  inb_S64x4096_S64x128_0_2816 : ∀ a, (![0, 2816] : Fin 2 → Nat) a + S64x128.size a ≤ S64x4096.size a
  packedbf16_S64x4096_S64x128_0_2816 : (Rect.unit (s := S64x4096) ![0, 2816] S64x128.size inb_S64x4096_S64x128_0_2816).PackedRows (EltTy.packing .bf16)
  slices_S64x4096_o0_2944_S64x128 : S64x4096.Slices ![0, 2944] S64x128
  inb_S64x32_S64x1_0_23 : ∀ a, (![0, 23] : Fin 2 → Nat) a + S64x1.size a ≤ S64x32.size a
  inb_S64x4096_S64x128_0_2944 : ∀ a, (![0, 2944] : Fin 2 → Nat) a + S64x128.size a ≤ S64x4096.size a
  packedbf16_S64x4096_S64x128_0_2944 : (Rect.unit (s := S64x4096) ![0, 2944] S64x128.size inb_S64x4096_S64x128_0_2944).PackedRows (EltTy.packing .bf16)
  slices_S64x4096_o0_3072_S64x128 : S64x4096.Slices ![0, 3072] S64x128
  inb_S64x32_S64x1_0_24 : ∀ a, (![0, 24] : Fin 2 → Nat) a + S64x1.size a ≤ S64x32.size a
  inb_S64x4096_S64x128_0_3072 : ∀ a, (![0, 3072] : Fin 2 → Nat) a + S64x128.size a ≤ S64x4096.size a
  packedbf16_S64x4096_S64x128_0_3072 : (Rect.unit (s := S64x4096) ![0, 3072] S64x128.size inb_S64x4096_S64x128_0_3072).PackedRows (EltTy.packing .bf16)
  slices_S64x4096_o0_3200_S64x128 : S64x4096.Slices ![0, 3200] S64x128
  inb_S64x32_S64x1_0_25 : ∀ a, (![0, 25] : Fin 2 → Nat) a + S64x1.size a ≤ S64x32.size a
  inb_S64x4096_S64x128_0_3200 : ∀ a, (![0, 3200] : Fin 2 → Nat) a + S64x128.size a ≤ S64x4096.size a
  packedbf16_S64x4096_S64x128_0_3200 : (Rect.unit (s := S64x4096) ![0, 3200] S64x128.size inb_S64x4096_S64x128_0_3200).PackedRows (EltTy.packing .bf16)
  slices_S64x4096_o0_3328_S64x128 : S64x4096.Slices ![0, 3328] S64x128
  inb_S64x32_S64x1_0_26 : ∀ a, (![0, 26] : Fin 2 → Nat) a + S64x1.size a ≤ S64x32.size a
  inb_S64x4096_S64x128_0_3328 : ∀ a, (![0, 3328] : Fin 2 → Nat) a + S64x128.size a ≤ S64x4096.size a
  packedbf16_S64x4096_S64x128_0_3328 : (Rect.unit (s := S64x4096) ![0, 3328] S64x128.size inb_S64x4096_S64x128_0_3328).PackedRows (EltTy.packing .bf16)
  slices_S64x4096_o0_3456_S64x128 : S64x4096.Slices ![0, 3456] S64x128
  inb_S64x32_S64x1_0_27 : ∀ a, (![0, 27] : Fin 2 → Nat) a + S64x1.size a ≤ S64x32.size a
  inb_S64x4096_S64x128_0_3456 : ∀ a, (![0, 3456] : Fin 2 → Nat) a + S64x128.size a ≤ S64x4096.size a
  packedbf16_S64x4096_S64x128_0_3456 : (Rect.unit (s := S64x4096) ![0, 3456] S64x128.size inb_S64x4096_S64x128_0_3456).PackedRows (EltTy.packing .bf16)
  slices_S64x4096_o0_3584_S64x128 : S64x4096.Slices ![0, 3584] S64x128
  inb_S64x32_S64x1_0_28 : ∀ a, (![0, 28] : Fin 2 → Nat) a + S64x1.size a ≤ S64x32.size a
  inb_S64x4096_S64x128_0_3584 : ∀ a, (![0, 3584] : Fin 2 → Nat) a + S64x128.size a ≤ S64x4096.size a
  packedbf16_S64x4096_S64x128_0_3584 : (Rect.unit (s := S64x4096) ![0, 3584] S64x128.size inb_S64x4096_S64x128_0_3584).PackedRows (EltTy.packing .bf16)
  slices_S64x4096_o0_3712_S64x128 : S64x4096.Slices ![0, 3712] S64x128
  inb_S64x32_S64x1_0_29 : ∀ a, (![0, 29] : Fin 2 → Nat) a + S64x1.size a ≤ S64x32.size a
  inb_S64x4096_S64x128_0_3712 : ∀ a, (![0, 3712] : Fin 2 → Nat) a + S64x128.size a ≤ S64x4096.size a
  packedbf16_S64x4096_S64x128_0_3712 : (Rect.unit (s := S64x4096) ![0, 3712] S64x128.size inb_S64x4096_S64x128_0_3712).PackedRows (EltTy.packing .bf16)
  slices_S64x4096_o0_3840_S64x128 : S64x4096.Slices ![0, 3840] S64x128
  inb_S64x32_S64x1_0_30 : ∀ a, (![0, 30] : Fin 2 → Nat) a + S64x1.size a ≤ S64x32.size a
  inb_S64x4096_S64x128_0_3840 : ∀ a, (![0, 3840] : Fin 2 → Nat) a + S64x128.size a ≤ S64x4096.size a
  packedbf16_S64x4096_S64x128_0_3840 : (Rect.unit (s := S64x4096) ![0, 3840] S64x128.size inb_S64x4096_S64x128_0_3840).PackedRows (EltTy.packing .bf16)
  slices_S64x4096_o0_3968_S64x128 : S64x4096.Slices ![0, 3968] S64x128
  inb_S64x32_S64x1_0_31 : ∀ a, (![0, 31] : Fin 2 → Nat) a + S64x1.size a ≤ S64x32.size a
  inb_S64x4096_S64x128_0_3968 : ∀ a, (![0, 3968] : Fin 2 → Nat) a + S64x128.size a ≤ S64x4096.size a
  packedbf16_S64x4096_S64x128_0_3968 : (Rect.unit (s := S64x4096) ![0, 3968] S64x128.size inb_S64x4096_S64x128_0_3968).PackedRows (EltTy.packing .bf16)
  bcast_S1x16_S1024x16_0_1 : S1x16.BroadcastsInDim S1024x16 (![0, 1] : Fin 2 → Fin S1024x16.rank)
  concatenates_S4096x4096_S1024x4096_S1024x4096_S6144x4096_d0 : Shape.Concatenates [S4096x4096, S1024x4096, S1024x4096] S6144x4096 0
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S8192x6144_S8192x4096_0_0 : S8192x6144.Slices ![0, 0] S8192x4096
  shapeCasts_S8192x4096_S4x2048x4096 : S8192x4096.ShapeCasts S4x2048x4096
  slices_S8192x6144_S8192x1024_0_4096 : S8192x6144.Slices ![0, 4096] S8192x1024
  shapeCasts_S8192x1024_S4x2048x1024 : S8192x1024.ShapeCasts S4x2048x1024
  slices_S8192x6144_S8192x1024_0_5120 : S8192x6144.Slices ![0, 5120] S8192x1024
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16.size a ≤ S4096x16.size a
  hwx0_0 : ∀ i : grid0.Coords, EltTy.bits .f32 = 32 ∨ (Rect.block (s := S4096x16) S64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S4096x4096.size a
  hwx0_1 : ∀ i : grid0.Coords, EltTy.bits .i32 = 32 ∨ (Rect.block (s := S4096x4096) S64x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S4096x32.size a
  hwx0_2 : ∀ i : grid0.Coords, EltTy.bits .f32 = 32 ∨ (Rect.block (s := S4096x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S4096x4096.size a
  hwx0_3 : ∀ i : grid0.Coords, EltTy.bits .bf16 = 32 ∨ (Rect.block (s := S4096x4096) S64x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x16.size a ≤ S1024x16.size a
  hwx1_0 : ∀ i : grid1.Coords, EltTy.bits .f32 = 32 ∨ (Rect.block (s := S1024x16) S64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S1024x4096.size a
  hwx1_1 : ∀ i : grid1.Coords, EltTy.bits .i32 = 32 ∨ (Rect.block (s := S1024x4096) S64x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S1024x32.size a
  hwx1_2 : ∀ i : grid1.Coords, EltTy.bits .f32 = 32 ∨ (Rect.block (s := S1024x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S1024x4096.size a
  hwx1_3 : ∀ i : grid1.Coords, EltTy.bits .bf16 = 32 ∨ (Rect.block (s := S1024x4096) S64x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x16.size a ≤ S1024x16.size a
  hwx2_0 : ∀ i : grid2.Coords, EltTy.bits .f32 = 32 ∨ (Rect.block (s := S1024x16) S64x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x4096.size a ≤ S1024x4096.size a
  hwx2_1 : ∀ i : grid2.Coords, EltTy.bits .i32 = 32 ∨ (Rect.block (s := S1024x4096) S64x4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S1024x32.size a
  hwx2_2 : ∀ i : grid2.Coords, EltTy.bits .f32 = 32 ∨ (Rect.block (s := S1024x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x4096.size a ≤ S1024x4096.size a
  hwx2_3 : ∀ i : grid2.Coords, EltTy.bits .bf16 = 32 ∨ (Rect.block (s := S1024x4096) S64x4096.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .bf16 = 32 ∨ (Rect.block (s := S8192x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S6144x4096.size a
  hwx3_1 : ∀ i : grid3.Coords, EltTy.bits .bf16 = 32 ∨ (Rect.block (s := S6144x4096) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S8192x6144.size a
  hwx3_2 : ∀ i : grid3.Coords, EltTy.bits .f32 = 32 ∨ (Rect.block (s := S8192x6144) S1024x2048.size (cc3_transform_2 i) (hinb3_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v3) S64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S64x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S64x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S16 : Shape := ⟨1, ![16]⟩
abbrev S1024x4096 : Shape := ⟨2, ![1024, 4096]⟩
abbrev S1024x32 : Shape := ⟨2, ![1024, 32]⟩
abbrev S8192x4096 : Shape := ⟨2, ![8192, 4096]⟩
abbrev S_ : Shape := ⟨0, ![]⟩
abbrev S4096x4096x1 : Shape := ⟨3, ![4096, 4096, 1]⟩
abbrev S4096x32x128 : Shape := ⟨3, ![4096, 32, 128]⟩
abbrev S4096x32x1 : Shape := ⟨3, ![4096, 32, 1]⟩
abbrev S1024x4096x1 : Shape := ⟨3, ![1024, 4096, 1]⟩
abbrev S1024x32x128 : Shape := ⟨3, ![1024, 32, 128]⟩
abbrev S1024x32x1 : Shape := ⟨3, ![1024, 32, 1]⟩
abbrev S6144x4096 : Shape := ⟨2, ![6144, 4096]⟩
abbrev S8192x6144 : Shape := ⟨2, ![8192, 6144]⟩
abbrev S8192x1024 : Shape := ⟨2, ![8192, 1024]⟩
abbrev S4x2048x1024 : Shape := ⟨3, ![4, 2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S16, .f32⟩
  | .hbm, ⟨4, _⟩ => ⟨S1024x4096, .i32⟩
  | .hbm, ⟨5, _⟩ => ⟨S1024x32, .f32⟩
  | .hbm, ⟨6, _⟩ => ⟨S16, .f32⟩
  | .hbm, ⟨7, _⟩ => ⟨S1024x4096, .i32⟩
  | .hbm, ⟨8, _⟩ => ⟨S1024x32, .f32⟩
  | .hbm, ⟨9, _⟩ => ⟨S16, .f32⟩
  | .hbm, ⟨10, _⟩ => ⟨S8192x4096, .f32⟩
  | .hbm, ⟨11, _⟩ => ⟨S_, .i32⟩
  | .hbm, ⟨12, _⟩ => ⟨S4096x4096, .i32⟩
  | .hbm, ⟨13, _⟩ => ⟨S4096x4096, .i1⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096x1, .i32⟩
  | .hbm, ⟨19, _⟩ => ⟨S4096x4096, .f32⟩
  | .hbm, ⟨20, _⟩ => ⟨S4096x32x128, .f32⟩
  | .hbm, ⟨21, _⟩ => ⟨S4096x32x1, .f32⟩
  | .hbm, ⟨22, _⟩ => ⟨S4096x32x128, .f32⟩
  | .hbm, ⟨23, _⟩ => ⟨S4096x32x128, .f32⟩
  | .hbm, ⟨24, _⟩ => ⟨S4096x4096, .f32⟩
  | .hbm, ⟨25, _⟩ => ⟨S_, .i32⟩
  | .hbm, ⟨26, _⟩ => ⟨S1024x4096, .i32⟩
  | .hbm, ⟨27, _⟩ => ⟨S1024x4096, .i1⟩
  | .hbm, ⟨28, _⟩ => ⟨S_, .i32⟩
  | .hbm, ⟨29, _⟩ => ⟨S1024x4096, .i32⟩
  | .hbm, ⟨30, _⟩ => ⟨S1024x4096, .i32⟩
  | .hbm, ⟨31, _⟩ => ⟨S1024x4096, .i32⟩
  | .hbm, ⟨32, _⟩ => ⟨S1024x4096x1, .i32⟩
  | .hbm, ⟨33, _⟩ => ⟨S1024x4096, .f32⟩
  | .hbm, ⟨34, _⟩ => ⟨S1024x32x128, .f32⟩
  | .hbm, ⟨35, _⟩ => ⟨S1024x32x1, .f32⟩
  | .hbm, ⟨36, _⟩ => ⟨S1024x32x128, .f32⟩
  | .hbm, ⟨37, _⟩ => ⟨S1024x32x128, .f32⟩
  | .hbm, ⟨38, _⟩ => ⟨S1024x4096, .f32⟩
  | .hbm, ⟨39, _⟩ => ⟨S_, .i32⟩
  | .hbm, ⟨40, _⟩ => ⟨S1024x4096, .i32⟩
  | .hbm, ⟨41, _⟩ => ⟨S1024x4096, .i1⟩
  | .hbm, ⟨42, _⟩ => ⟨S_, .i32⟩
  | .hbm, ⟨43, _⟩ => ⟨S1024x4096, .i32⟩
  | .hbm, ⟨44, _⟩ => ⟨S1024x4096, .i32⟩
  | .hbm, ⟨45, _⟩ => ⟨S1024x4096, .i32⟩
  | .hbm, ⟨46, _⟩ => ⟨S1024x4096x1, .i32⟩
  | .hbm, ⟨47, _⟩ => ⟨S1024x4096, .f32⟩
  | .hbm, ⟨48, _⟩ => ⟨S1024x32x128, .f32⟩
  | .hbm, ⟨49, _⟩ => ⟨S1024x32x1, .f32⟩
  | .hbm, ⟨50, _⟩ => ⟨S1024x32x128, .f32⟩
  | .hbm, ⟨51, _⟩ => ⟨S1024x32x128, .f32⟩
  | .hbm, ⟨52, _⟩ => ⟨S1024x4096, .f32⟩
  | .hbm, ⟨53, _⟩ => ⟨S6144x4096, .f32⟩
  | .hbm, ⟨54, _⟩ => ⟨S8192x6144, .f32⟩
  | .hbm, ⟨55, _⟩ => ⟨S8192x4096, .f32⟩
  | .hbm, ⟨56, _⟩ => ⟨S4x2048x4096, .f32⟩
  | .hbm, ⟨57, _⟩ => ⟨S8192x1024, .f32⟩
  | .hbm, ⟨58, _⟩ => ⟨S4x2048x1024, .f32⟩
  | .hbm, ⟨59, _⟩ => ⟨S8192x1024, .f32⟩
  | .hbm, ⟨60, _⟩ => ⟨S4x2048x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S_S1024x4096 : S_.BroadcastsInDim S1024x4096 (![] : Fin 0 → Fin S1024x4096.rank)
  bcast_S1024x4096_S1024x4096x1_0_1 : S1024x4096.BroadcastsInDim S1024x4096x1 (![0, 1] : Fin 2 → Fin S1024x4096x1.rank)
  shapeCasts_S1024x4096_S1024x32x128 : S1024x4096.ShapeCasts S1024x32x128
  bcast_S1024x32_S1024x32x1_0_1 : S1024x32.BroadcastsInDim S1024x32x1 (![0, 1] : Fin 2 → Fin S1024x32x1.rank)
  bcast_S1024x32x1_S1024x32x128_0_1_2 : S1024x32x1.BroadcastsInDim S1024x32x128 (![0, 1, 2] : Fin 3 → Fin S1024x32x128.rank)
  shapeCasts_S1024x32x128_S1024x4096 : S1024x32x128.ShapeCasts S1024x4096
  concatenates_S4096x4096_S1024x4096_S1024x4096_S6144x4096_d0 : Shape.Concatenates [S4096x4096, S1024x4096, S1024x4096] S6144x4096 0
  slices_S8192x6144_S8192x4096_0_0 : S8192x6144.Slices ![0, 0] S8192x4096
  shapeCasts_S8192x4096_S4x2048x4096 : S8192x4096.ShapeCasts S4x2048x4096
  slices_S8192x6144_S8192x1024_0_4096 : S8192x6144.Slices ![0, 4096] S8192x1024
  shapeCasts_S8192x1024_S4x2048x1024 : S8192x1024.ShapeCasts S4x2048x1024
  slices_S8192x6144_S8192x1024_0_5120 : S8192x6144.Slices ![0, 5120] S8192x1024
  gather_S16_S4096x4096x1_S4096x4096_n_0_n_n_0_2_1_wf : GatherDims.WF S16 S4096x4096x1 S4096x4096 [] [0] [] [0] [] 2 ![1]
  gather_S16_S1024x4096x1_S1024x4096_n_0_n_n_0_2_1_wf : GatherDims.WF S16 S1024x4096x1 S1024x4096 [] [0] [] [0] [] 2 ![1]
  dot_S8192x4096_S6144x4096_S8192x6144_1_1_0_0_n_n_wf : DotDims.WF S8192x4096 S6144x4096 S8192x6144 [1] [1] [0] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def gather_S16_S1024x4096x1_S1024x4096_n_0_n_n_0_2_1 : GatherDims S16 S1024x4096x1 S1024x4096 where
  offsetDims := []
  collapsedSliceDims := [0]
  operandBatchingDims := []
  startIndicesBatchingDims := []
  startIndexMap := [0]
  indexVectorDim := 2
  sliceSizes := ![1]
  wf := gather_S16_S1024x4096x1_S1024x4096_n_0_n_n_0_2_1_wf
def dot_S8192x4096_S6144x4096_S8192x6144_1_1_0_0_n_n : DotDims S8192x4096 S6144x4096 S8192x6144 where
  lhsContracting := [1]
  rhsContracting := [1]
  lhsNonContracting := [0]
  rhsNonContracting := [0]
  lhsBatch := []
  rhsBatch := []
  wf := dot_S8192x4096_S6144x4096_S8192x6144_1_1_0_0_n_n_wf

class Facts : Prop extends Facts₀ where

variable [Facts]
-- ==== Proof.BDq0Run.lean ====
/-
  The dequantisation kernel of the first weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Dq0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc0__dequant_kernel i arg1 harg1 arg2 harg2 arg3 harg3 arg4 harg4) K } := by
  refine ⟨?_, fun E K => ?run⟩
  case run =>
    simp only [cc0__dequant_kernel_eq_skeleton]; unfold cc0__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Dq0

end
-- ==== Proof.BDq0.lean ====
/-
  The first dequantisation call as one region of the program: its proof data and body obligation.

  The call's grid has one axis of 64 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import proofs.«431283_j678604833227_3_alg».proof.Proof.BDq0Run
import Idealize.ShloMosaic.Lib.Pipeline.FrameBody
import Idealize.ShloMosaic.Lib.Ring
import Idealize.ShloMosaic.Lib.Tactic

set_option maxRecDepth 16384

noncomputable section

namespace Cert.Kernel.Dq0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc0_stg3_0 : Memref sig .tc .vmem S64x4096 .bf16).view

/-- The found pieces tile the output block, so they cover it. -/
theorem cover (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg0.N) : Vec F S64x4096 .bf16 :=
  outOf c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk V c 0 t) (iblk V c 1 t) (iblk V c 2 t)

/-- The region's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 1600000 in
/-- The body at any point: the inputs' buffers hold their blocks, so the whole-body run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid0.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.Kernel.Dq0

end
-- ==== Proof.BDq1Run.lean ====
/-
  The dequantisation kernel of the second weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Dq1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc1__dequant_kernel i arg1 harg1 arg2 harg2 arg3 harg3 arg4 harg4) K } := by
  refine ⟨?_, fun E K => ?run⟩
  case run =>
    simp only [cc1__dequant_kernel_eq_skeleton]; unfold cc1__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Dq1

end
-- ==== Proof.BDq1.lean ====
/-
  The second dequantisation call as one region of the program: its proof data and body obligation.

  The call's grid has one axis of 16 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import proofs.«431283_j678604833227_3_alg».proof.Proof.BDq1Run
import Idealize.ShloMosaic.Lib.Pipeline.FrameBody
import Idealize.ShloMosaic.Lib.Ring
import Idealize.ShloMosaic.Lib.Tactic

set_option maxRecDepth 16384

noncomputable section

namespace Cert.Kernel.Dq1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc1_stg3_0 : Memref sig .tc .vmem S64x4096 .bf16).view

/-- The found pieces tile the output block, so they cover it. -/
theorem cover (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg1.N) : Vec F S64x4096 .bf16 :=
  outOf c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk V c 0 t) (iblk V c 1 t) (iblk V c 2 t)

/-- The region's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out V c t
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 1600000 in
/-- The body at any point: the inputs' buffers hold their blocks, so the whole-body run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.Kernel.Dq1

end
-- ==== Proof.BDq2Run.lean ====
/-
  The dequantisation kernel of the third weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Dq2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc2__dequant_kernel i arg1 harg1 arg2 harg2 arg3 harg3 arg4 harg4) K } := by
  refine ⟨?_, fun E K => ?run⟩
  case run =>
    simp only [cc2__dequant_kernel_eq_skeleton]; unfold cc2__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Dq2

end
-- ==== Proof.BDq2.lean ====
/-
  The third dequantisation call as one region of the program: its proof data and body obligation.

  The call's grid has one axis of 16 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import proofs.«431283_j678604833227_3_alg».proof.Proof.BDq2Run
import Idealize.ShloMosaic.Lib.Pipeline.FrameBody
import Idealize.ShloMosaic.Lib.Ring
import Idealize.ShloMosaic.Lib.Tactic

set_option maxRecDepth 16384

noncomputable section

namespace Cert.Kernel.Dq2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc2_stg3_0 : Memref sig .tc .vmem S64x4096 .bf16).view

/-- The found pieces tile the output block, so they cover it. -/
theorem cover (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg2.N) : Vec F S64x4096 .bf16 :=
  outOf c (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk V c 0 t) (iblk V c 1 t) (iblk V c 2 t)

/-- The region's proof data on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out V c t
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out V c t := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 1600000 in
/-- The body at any point: the inputs' buffers hold their blocks, so the whole-body run applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid2.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Region

end Cert.Kernel.Dq2

end
-- ==== Proof.BMm3Run.lean ====
/-
  The matrix-product kernel, run once on whole staging buffers, in each of its three control cases.

  The grid is (row block, column block, k); the body keeps a 1024 x 2048 accumulator in a scratch buffer that
  lives across grid points. At k = 0 it first clears the accumulator; at every point it adds the product of
  the point's 1024 x 1024 block of the left operand with the transpose of its 2048 x 1024 block of the right
  operand; at k = 3 it copies the accumulator into the output block. So a point is in one of three cases:
  first (clear, add), middle (add), last (add, copy out). In the first two the output buffer is not touched.
-/
import proofs.«431283_j678604833227_3_alg».proof.Proof.Gen.Kernel.Launch
import proofs.«431283_j678604833227_3_alg».proof.Proof.Gen.Kernel.Skeleton
import proofs.«431283_j678604833227_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Mm3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The branch on "k = 0", as the body computes it from the grid coordinates. -/
abbrev condFirst (i : grid3.Coords) : Prop :=
  (Scalar.cmpi .ne (Scalar.extui (Scalar.cmpi .eq (BitVec.ofNat 32 (i 2).val) 0#32)) 0#32) = 1#1
/-- The branch on "k = 3". -/
abbrev condLast (i : grid3.Coords) : Prop := k3_cond2 i = 1#1

set_option maxHeartbeats 2000000 in
/-- First point of a group of four: the accumulator (at anything) is cleared and the point's product added; the
    output buffer is handed back as found. -/
noncomputable def runFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1
            ∗ owns (c : Thread nD τ) arg5 fullShare xi ∗ (∃ d, owns (c : Thread nD τ) arg6 fullShare d)
            ∗ (iprop(owns (c : Thread nD τ) arg3 fullShare x0 ∗ owns (c : Thread nD τ) arg4 fullShare x1
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, fun xi E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle point: the point's product is added to the accumulator, which holds `xs`; the output buffer is
    handed back as found. -/
noncomputable def runMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1
            ∗ owns (c : Thread nD τ) arg5 fullShare xi ∗ owns (c : Thread nD τ) arg6 fullShare xs
            ∗ (iprop(owns (c : Thread nD τ) arg3 fullShare x0 ∗ owns (c : Thread nD τ) arg4 fullShare x1
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, fun xi E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2
    obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last point of a group: the product is added to the accumulator (holding `xs`) and the sum copied into the
    output buffer (at anything before). -/
noncomputable def runLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1
    obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Mm3

end
-- ==== Proof.BMm3.lean ====
/-
  The matrix-product call as one region of the program: what its accumulator and its output buffer hold point by
  point, the region's proof data, and the body obligation.

  The grid is (row block, column block, k) with k running fastest, so grid point t has k = t mod 4 and the points
  4 g, 4 g + 1, 4 g + 2, 4 g + 3 form the group that computes output block g. Within a group the accumulator is
  cleared and receives the first product at k = 0, receives one more product at k = 1 and at k = 2, and at k = 3
  receives the last product and is copied into the output's staging buffer, which the pipeline then writes back.
  Both operands are fetched at every point, so the body always finds the point's own blocks. The output's staging
  buffer is neither stored into nor written back at k = 0, 1, 2: there the body hands it back as it found it.

  The accumulator lives across grid points, so the region's invariant names its contents: before the first point
  it is the plain invariant (the accumulator at anything), after point n it holds the accumulator at the contents
  computed for n. The other scoped buffers of the core and its generator register pass through unread.
-/
import proofs.«431283_j678604833227_3_alg».proof.Proof.BMm3Run

set_option maxRecDepth 16384

noncomputable section

namespace Cert.Kernel.Mm3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- "k = 0" holds exactly at the points divisible by four. -/
theorem hcondFirst : ∀ t : Fin cfg3.N, condFirst (grid3.coords t) ↔ t.val % 4 = 0 :=
  (by decide +kernel : ∀ t : Fin grid3.N, condFirst (grid3.coords t) ↔ t.val % 4 = 0)

/-- "k = 3" holds exactly at the points that are 3 modulo four. -/
theorem hcondLast : ∀ t : Fin cfg3.N, condLast (grid3.coords t) ↔ t.val % 4 = 3 :=
  (by decide +kernel : ∀ t : Fin grid3.N, condLast (grid3.coords t) ↔ t.val % 4 = 3)

/-! ## Where the windows are idle -/

/-- The two operand windows are never idle. -/
theorem liveAt_0 : ∀ t : Fin cfg3.N, cfg3.idle 0 (grid3.coords t) = false := by decide +kernel
theorem liveAt_1 : ∀ t : Fin cfg3.N, cfg3.idle 1 (grid3.coords t) = false := by decide +kernel
/-- Away from k = 3 the output window is idle (the body does not store into its buffer) -/
theorem idleAt_2 : ∀ t : Fin cfg3.N, ¬condLast (grid3.coords t) → cfg3.idle 2 (grid3.coords t) = true := by decide +kernel
/-- and its block is not written back; -/
theorem noFlush_2 : ∀ t : Fin cfg3.N, ¬condLast (grid3.coords t) → (cfg3.win 2).flush t = false := by decide +kernel
/-- at k = 3 it is live. -/
theorem liveAt_2 : ∀ t : Fin cfg3.N, condLast (grid3.coords t) → cfg3.idle 2 (grid3.coords t) = false := by decide +kernel

/-! ## The buffers the body is called with -/

/-- Each window's current staging buffer at point `t`, and its wholeness. -/
abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024x2048 .f32 := win3_2.stage (cfg3.slots t 2)
abbrev hs2 (t : Fin cfg3.N) : (ms2 t).IsWhole := hstage3_2 ((cfg3.slots t 2).cast nbuf3_2)
/-- The accumulator: a whole scoped buffer of the call's own. -/
abbrev scM : Memref sig .tc .vmem S1024x2048 .f32 := Memref.whole cc3_scratch0
/-- The view through which the accumulator's contents are stated, -/
abbrev VS : View sig .tc .vmem S1024x2048 .f32 := scM.view
/-- and one staging buffer of the output window, through which the output block's contents are stated (which buffer
    does not matter: the pieces cover the block). -/
abbrev VO : View sig .tc .vmem S1024x2048 .f32 := (Memref.whole cc3_stg2_0 : Memref sig .tc .vmem S1024x2048 .f32).view

/-- The plain region invariant with the accumulator split off as a buffer owned at some contents. -/
theorem PhiA_eq (c : Dev nD) :
    (Pipeline.ΦA spec3 c : sProp 𝕄)
      = iprop(iprop(iprop(∃ d, owns (c : Thread nD τ) scM fullShare d) ∗ Pipeline.scopedRestBut spec3 c [cc3_scratch0]) ∗ (∃ r, prngReg c r)) := by
  unfold Pipeline.ΦA; rw [scopedRest3_split]; simp only [scM, owns_whole]; try rfl

/-! ## What one run of the body leaves, case by case -/

/-- The stores of a first point into the accumulator (the clearing store, then the sum) cover it. -/
theorem scoverFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) (y : S1024x2048.Idx) :
    ∃ pc ∈ (runFirst c i arg3 harg3 arg4 harg4 arg5 harg5 arg6 harg6 hc1 hc2 x0 x1).1, y ∈ pc.1.set :=
  View.cover_of_tiledL (runFirst c i arg3 harg3 arg4 harg4 arg5 harg5 arg6 harg6 hc1 hc2 x0 x1).1 S1024x2048.size (by sl_kernel_rfl) y

/-- What a first point leaves in the accumulator: its stores read back. -/
def soutFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) : Vec F S1024x2048 .f32 :=
  VS.read (Elt F) (VS.writes (Elt F) VS.junk (runFirst c i arg3 harg3 arg4 harg4 arg5 harg5 arg6 harg6 hc1 hc2 x0 x1).1)

/-- The store of a middle point into the accumulator covers it. -/
theorem scoverMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) (y : S1024x2048.Idx) :
    ∃ pc ∈ (runMid c i arg3 harg3 arg4 harg4 arg5 harg5 arg6 harg6 hc1 hc2 x0 x1 xs).1, y ∈ pc.1.set :=
  View.cover_of_tiledL (runMid c i arg3 harg3 arg4 harg4 arg5 harg5 arg6 harg6 hc1 hc2 x0 x1 xs).1 S1024x2048.size (by sl_kernel_rfl) y

/-- What a middle point leaves in the accumulator, which held `xs`. -/
def soutMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) : Vec F S1024x2048 .f32 :=
  VS.read (Elt F) (VS.writes (Elt F) VS.junk (runMid c i arg3 harg3 arg4 harg4 arg5 harg5 arg6 harg6 hc1 hc2 x0 x1 xs).1)

/-- The store of a last point into the output's buffer covers the block, -/
theorem coverLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) (y : S1024x2048.Idx) :
    ∃ pc ∈ (runLast c i arg3 harg3 arg4 harg4 arg5 harg5 arg6 harg6 hc1 hc2 x0 x1 xs).1, y ∈ pc.1.set :=
  View.cover_of_tiledL (runLast c i arg3 harg3 arg4 harg4 arg5 harg5 arg6 harg6 hc1 hc2 x0 x1 xs).1 S1024x2048.size (by sl_kernel_rfl) y

/-- and its store into the accumulator covers the accumulator. -/
theorem scoverLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) (y : S1024x2048.Idx) :
    ∃ pc ∈ (runLast c i arg3 harg3 arg4 harg4 arg5 harg5 arg6 harg6 hc1 hc2 x0 x1 xs).2.1, y ∈ pc.1.set :=
  View.cover_of_tiledL (runLast c i arg3 harg3 arg4 harg4 arg5 harg5 arg6 harg6 hc1 hc2 x0 x1 xs).2.1 S1024x2048.size (by sl_kernel_rfl) y

/-- What a last point leaves in the output's buffer, -/
def outOfLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) : Vec F S1024x2048 .f32 :=
  VO.read (Elt F) (VO.writes (Elt F) VO.junk (runLast c i arg3 harg3 arg4 harg4 arg5 harg5 arg6 harg6 hc1 hc2 x0 x1 xs).1)

/-- and in the accumulator, which held `xs`. -/
def soutLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) : Vec F S1024x2048 .f32 :=
  VS.read (Elt F) (VS.writes (Elt F) VS.junk (runLast c i arg3 harg3 arg4 harg4 arg5 harg5 arg6 harg6 hc1 hc2 x0 x1 xs).2.1)

/-- The output component at a point that does not store the output block: arbitrary contents, which nothing
    consults (the block is neither written back there nor read at the next point). -/
def outIdle : Vec F S1024x2048 .f32 := VO.read (Elt F) VO.junk

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The same at a grid point, on the buffers and blocks of that point -/

/-- The accumulator after a point with k = 0: the product of the point's two blocks (over a cleared accumulator). -/
def accFirst (c : Dev nD) (t : Fin cfg3.N) (h : t.val % 4 = 0) : Vec F S1024x2048 .f32 :=
  soutFirst c (grid3.coords t) (ms0 t) (hs0 t) (ms1 t) (hs1 t) (ms2 t) (hs2 t) scM (Memref.isWhole_whole _)
    ((hcondFirst t).mpr h) (fun hl => absurd ((hcondLast t).mp hl) (by omega)) (iblk V c 0 t) (iblk V c 1 t)

/-- The accumulator after a point with k = 1 or 2, over what the point before left in it. -/
def accMid (c : Dev nD) (t : Fin cfg3.N) (h0 : ¬t.val % 4 = 0) (h3 : ¬t.val % 4 = 3) (xs : Vec F S1024x2048 .f32) : Vec F S1024x2048 .f32 :=
  soutMid c (grid3.coords t) (ms0 t) (hs0 t) (ms1 t) (hs1 t) (ms2 t) (hs2 t) scM (Memref.isWhole_whole _)
    (fun hf => h0 ((hcondFirst t).mp hf)) (fun hl => h3 ((hcondLast t).mp hl)) (iblk V c 0 t) (iblk V c 1 t) xs

/-- The accumulator after a point with k = 3, over what the point before left in it, -/
def accLast (c : Dev nD) (t : Fin cfg3.N) (h3 : t.val % 4 = 3) (xs : Vec F S1024x2048 .f32) : Vec F S1024x2048 .f32 :=
  soutLast c (grid3.coords t) (ms0 t) (hs0 t) (ms1 t) (hs1 t) (ms2 t) (hs2 t) scM (Memref.isWhole_whole _)
    (fun hf => absurd ((hcondFirst t).mp hf) (by omega)) ((hcondLast t).mpr h3) (iblk V c 0 t) (iblk V c 1 t) xs

/-- and the output block that point stores. -/
def outLast (c : Dev nD) (t : Fin cfg3.N) (h3 : t.val % 4 = 3) (xs : Vec F S1024x2048 .f32) : Vec F S1024x2048 .f32 :=
  outOfLast c (grid3.coords t) (ms0 t) (hs0 t) (ms1 t) (hs1 t) (ms2 t) (hs2 t) scM (Memref.isWhole_whole _)
    (fun hf => absurd ((hcondFirst t).mp hf) (by omega)) ((hcondLast t).mpr h3) (iblk V c 0 t) (iblk V c 1 t) xs

/-! ## Point by point -/

/-- What the output's staging buffer (first component) and the accumulator (second component) hold after the body at
    position `n`. A point with k = 0 starts afresh; a point with k = 1 or 2 adds to what the point before left in
    the accumulator; a point with k = 3 adds likewise and stores the sum as the output block. Where the output block is
    not stored its component is the placeholder. -/
def outsAt (c : Dev nD) : (n : ℕ) → n < cfg3.N → Vec F S1024x2048 .f32 × Vec F S1024x2048 .f32
  | 0, hn => (outIdle, accFirst V c ⟨0, hn⟩ (Nat.zero_mod _))
  | n + 1, hn =>
    if h0 : (n + 1) % 4 = 0 then
      (outIdle, accFirst V c ⟨n + 1, hn⟩ h0)
    else
      if h3 : (n + 1) % 4 = 3 then
        (outLast V c ⟨n + 1, hn⟩ h3 (outsAt c n (Nat.lt_of_succ_lt hn)).2, accLast V c ⟨n + 1, hn⟩ h3 (outsAt c n (Nat.lt_of_succ_lt hn)).2)
      else
        (outIdle, accMid V c ⟨n + 1, hn⟩ h0 h3 (outsAt c n (Nat.lt_of_succ_lt hn)).2)

/-- At a point with k = 0. -/
theorem outsAt_first (c : Dev nD) (t : Fin cfg3.N) (h : t.val % 4 = 0) :
    outsAt V c t.val t.isLt = (outIdle, accFirst V c t h) := by
  obtain ⟨n, hn⟩ := t
  cases n with
  | zero => exact rfl
  | succ n => exact (dif_pos h).trans rfl

/-- At a point with k = 1 or 2: over the accumulator the point before left. -/
theorem outsAt_mid (c : Dev nD) (t : Fin cfg3.N) (h0 : ¬t.val % 4 = 0) (h3 : ¬t.val % 4 = 3) :
    outsAt V c t.val t.isLt
      = (outIdle, accMid V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- At a point with k = 3: over the accumulator the point before left. -/
theorem outsAt_last (c : Dev nD) (t : Fin cfg3.N) (h3 : t.val % 4 = 3) :
    outsAt V c t.val t.isLt
      = (outLast V c t h3 (outsAt V c (t.val - 1) (Nat.lt_of_le_of_lt (Nat.sub_le _ _) t.isLt)).2,
         accLast V c t h3 (outsAt V c (t.val - 1) (Nat.lt_of_le_of_lt (Nat.sub_le _ _) t.isLt)).2) := by
  obtain ⟨n, hn⟩ := t
  cases n with
  | zero => exact absurd h3 (show ¬(0 % 4 = 3) from by decide)
  | succ n =>
    have h3' : (n + 1) % 4 = 3 := h3
    exact (dif_neg (by omega)).trans ((dif_pos h3).trans rfl)

/-! ## The invariant -/

/-- The region invariant before position `n`: before the first point the plain one (the accumulator at anything);
    afterwards the accumulator at what the point before left in it, the core's other scoped buffers at anything, and
    the generator register at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut spec3 c [cc3_scratch0]) ∗ (∃ r, prngReg c r)) := by
  cases n with
  | zero => exact absurd rfl hz
  | succ n => rfl

/-! ## The proof data -/

/-- The region's proof data on core `c`: the arrays as the region finds them; after the body each operand's buffer at
    its block and the output's at the first component of `outsAt`; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

/-- Each operand's current staging buffer holds its block at every point. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; k = t mod 4 says which case the point is in, so that
    case's run applies. The invariant hands the body the accumulator — at anything before the first point, else at what the
    point before left — and takes it back at this point's contents (the stores cover it). Away from k = 3 the output's
    buffer goes through untouched; at k = 3 it comes back at the stored block. The core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  by_cases h0 : t.val % 4 = 0
  · -- k = 0
    have hc1 : condFirst (grid3.coords t) := (hcondFirst t).mpr h0
    have hc2 : ¬condLast (grid3.coords t) := fun hl => absurd ((hcondLast t).mp hl) (by omega)
    rw [Dat.leavesExact_idle (dat V c) 2 t (idleAt_2 t hc2) (noFlush_2 t hc2)]
    rw [outsAt_first V c t h0]
    unfold accFirst soutFirst; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩⟩
      iapply ((runFirst c (grid3.coords t) _ _ _ _ _ _ _ _ hc1 hc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverFirst c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid3.coords t) _ _ _ _ _ _ _ _ hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverFirst c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    have hc1 : ¬condFirst (grid3.coords t) := fun hf => h0 ((hcondFirst t).mp hf)
    by_cases h3 : t.val % 4 = 3
    · -- k = 3
      have hc2 : condLast (grid3.coords t) := (hcondLast t).mpr h3
      rw [show (dat V c).leavesExact 2 t = owns (c : Thread nD τ) (ms2 t) fullShare ((dat V c).after 2 t) from by
        unfold Dat.leavesExact; rw [liveAt_2 t hc2], after_2]
      rw [outsAt_last V c t h3]
      unfold outLast accLast outOfLast soutLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid3.coords t) _ _ _ _ _ _ _ _ hc1 hc2 (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scoverLast c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- k = 1 or 2
      have hc2 : ¬condLast (grid3.coords t) := fun hl => h3 ((hcondLast t).mp hl)
      rw [Dat.leavesExact_idle (dat V c) 2 t (idleAt_2 t hc2) (noFlush_2 t hc2)]
      rw [outsAt_mid V c t h0 h3]
      unfold accMid soutMid; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMid c (grid3.coords t) _ _ _ _ _ _ _ _ hc1 hc2 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverMid c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W3, bigSep_W3]
  exact sound_body V c t

/-! ## Into and out of the region -/

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives the plain one back: the accumulator's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- In particular after the last point. -/
theorem hout (c : Dev nD) : (dat V c).Φ (Fin.last cfg3.N) ⊢ Pipeline.ΦA spec3 c :=
  Phi_out V c _ (by rw [Fin.val_last]; have : cfg3.N = 96 := N_3; omega)

end Region

end Cert.Kernel.Mm3

end
-- ==== Proof.BKRun.lean ====
/-
  The whole program as a run of segments, from the launch memory to the return.

  The program is five stretches of host operations with four kernel calls between them: three dequantisation calls,
  a concatenation of their results, and one matrix product. The core's buffer contents are followed from boundary to
  boundary: a host stretch rewrites the buffers its operations write and leaves the rest; a call leaves each of its
  windows' arrays at what its write-backs made of it (an input array as it was entered) and leaves every other
  unscoped buffer alone. Ten boundaries result, the first the launch memory, the last what the program returns with.
  No host operation writes an argument array and no call has one as an output, so read at an argument the last
  boundary's contents walk back to the launch memory.
-/
import proofs.«431283_j678604833227_3_alg».proof.Proof.BDq0
import proofs.«431283_j678604833227_3_alg».proof.Proof.BDq1
import proofs.«431283_j678604833227_3_alg».proof.Proof.BDq2
import proofs.«431283_j678604833227_3_alg».proof.Proof.BMm3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each host stretch writes -/

/-- A single result buffer lies in the listed buffers when its reference is listed. -/
theorem single_sub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map.mpr ⟨y, h, rfl⟩))

/-- The first stretch writes the reshaped and converted activations and the first codebook's two broadcasts. -/
theorem hostOps0_writes : (hostOps0 : List (HloOp τ sig (Elt F))).Forall fun op =>
    op.writes ⊆ (([main_v0, main_v1, main_v2, main_v3] : List (Ref sig .tc)).map (Proc.devRef (τ := τ) .tc)).toFinset :=
  ⟨single_sub (by decide), single_sub (by decide), single_sub (by decide), single_sub (by decide)⟩
/-- The second writes the second codebook's two broadcasts, -/
theorem hostOps1_writes : (hostOps1 : List (HloOp τ sig (Elt F))).Forall fun op =>
    op.writes ⊆ (([main_v5, main_v6] : List (Ref sig .tc)).map (Proc.devRef (τ := τ) .tc)).toFinset :=
  ⟨single_sub (by decide), single_sub (by decide)⟩
/-- the third the third codebook's. -/
theorem hostOps2_writes : (hostOps2 : List (HloOp τ sig (Elt F))).Forall fun op =>
    op.writes ⊆ (([main_v8, main_v9] : List (Ref sig .tc)).map (Proc.devRef (τ := τ) .tc)).toFinset :=
  ⟨single_sub (by decide), single_sub (by decide)⟩
/-- The fourth writes the concatenated weights. -/
theorem hostOps3_writes : (hostOps3 : List (HloOp τ sig (Elt F))).Forall fun op =>
    op.writes ⊆ (([main_v11] : List (Ref sig .tc)).map (Proc.devRef (τ := τ) .tc)).toFinset :=
  single_sub (by decide)
/-- The last writes the three slices of the product and their reshapes. -/
theorem hostOps4_writes : (hostOps4 : List (HloOp τ sig (Elt F))).Forall fun op =>
    op.writes ⊆ (([main_v13, main_v14, main_v15, main_v16, main_v17, main_v18] : List (Ref sig .tc)).map (Proc.devRef (τ := τ) .tc)).toFinset :=
  ⟨single_sub (by decide), single_sub (by decide), single_sub (by decide), single_sub (by decide), single_sub (by decide), single_sub (by decide)⟩

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: what the first dequantisation call is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer host stretch 0 does not write is as before it. -/
theorem W1_keep (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_writes_sub hostOps0 _ hostOps0_writes hb
/-- When the first dequantisation call returns: each of its arrays at what the write-backs made of it, every other buffer as entered. -/
def W2 (c : Dev nD) : Valuation τ sig (Elt F) :=
  Pipeline.withArrays spec0 c (W1 m ρ c) fun w => (Dq0.dat (V1 m ρ) c).arrAt w cfg0.N
theorem W2_arr (c : Dev nD) (w : Fin cfg0.W) :
    W2 m ρ c (Proc.devRef .tc (Pipeline.arrRef spec0 w)) = (Dq0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the call as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Dq0.dat (V1 m ρ) c).arrAt_in w hw _).trans (Dq0.A_eq (V1 m ρ) c w))
/-- The same, read at the TensorCore's references. -/
abbrev V2 : (c : Dev nD) → (b : Ref sig .tc) → Buf (Elt F) ((c : Thread nD τ).loc b) := fun c b => W2 m ρ c b
/-- The two facts by which the call's arrays go back among the unscoped buffers: each array holds what the call left, every other buffer what it held. -/
theorem hF0 (c : Dev nD) (w : Fin cfg0.W) : (Dq0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what the second dequantisation call is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer host stretch 1 does not write is as before it. -/
theorem W3_keep (c : Dev nD) (b : Ref sig .tc) (hb : b ∉ ([main_v5, main_v6] : List (Ref sig .tc))) :
    W3 m ρ c (Proc.devRef .tc b) = W2 m ρ c (Proc.devRef .tc b) :=
  StableHlo.after_of_writes_sub hostOps1 _ hostOps1_writes hb
/-- When the second dequantisation call returns: each of its arrays at what the write-backs made of it, every other buffer as entered. -/
def W4 (c : Dev nD) : Valuation τ sig (Elt F) :=
  Pipeline.withArrays spec1 c (W3 m ρ c) fun w => (Dq1.dat (V3 m ρ) c).arrAt w cfg1.N
theorem W4_arr (c : Dev nD) (w : Fin cfg1.W) :
    W4 m ρ c (Proc.devRef .tc (Pipeline.arrRef spec1 w)) = (Dq1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the call as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Dq1.dat (V3 m ρ) c).arrAt_in w hw _).trans (Dq1.A_eq (V3 m ρ) c w))
/-- The same, read at the TensorCore's references. -/
abbrev V4 : (c : Dev nD) → (b : Ref sig .tc) → Buf (Elt F) ((c : Thread nD τ).loc b) := fun c b => W4 m ρ c b
/-- The two facts by which the call's arrays go back among the unscoped buffers: each array holds what the call left, every other buffer what it held. -/
theorem hF1 (c : Dev nD) (w : Fin cfg1.W) : (Dq1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what the third dequantisation call is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer host stretch 2 does not write is as before it. -/
theorem W5_keep (c : Dev nD) (b : Ref sig .tc) (hb : b ∉ ([main_v8, main_v9] : List (Ref sig .tc))) :
    W5 m ρ c (Proc.devRef .tc b) = W4 m ρ c (Proc.devRef .tc b) :=
  StableHlo.after_of_writes_sub hostOps2 _ hostOps2_writes hb
/-- When the third dequantisation call returns: each of its arrays at what the write-backs made of it, every other buffer as entered. -/
def W6 (c : Dev nD) : Valuation τ sig (Elt F) :=
  Pipeline.withArrays spec2 c (W5 m ρ c) fun w => (Dq2.dat (V5 m ρ) c).arrAt w cfg2.N
theorem W6_arr (c : Dev nD) (w : Fin cfg2.W) :
    W6 m ρ c (Proc.devRef .tc (Pipeline.arrRef spec2 w)) = (Dq2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the call as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((Dq2.dat (V5 m ρ) c).arrAt_in w hw _).trans (Dq2.A_eq (V5 m ρ) c w))
/-- The same, read at the TensorCore's references. -/
abbrev V6 : (c : Dev nD) → (b : Ref sig .tc) → Buf (Elt F) ((c : Thread nD τ).loc b) := fun c b => W6 m ρ c b
/-- The two facts by which the call's arrays go back among the unscoped buffers: each array holds what the call left, every other buffer what it held. -/
theorem hF2 (c : Dev nD) (w : Fin cfg2.W) : (Dq2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what the matrix product is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer host stretch 3 does not write is as before it. -/
theorem W7_keep (c : Dev nD) (b : Ref sig .tc) (hb : b ∉ ([main_v11] : List (Ref sig .tc))) :
    W7 m ρ c (Proc.devRef .tc b) = W6 m ρ c (Proc.devRef .tc b) :=
  StableHlo.after_of_writes_sub hostOps3 _ hostOps3_writes hb
/-- When the matrix product returns: each of its arrays at what the write-backs made of it, every other buffer as entered. -/
def W8 (c : Dev nD) : Valuation τ sig (Elt F) :=
  Pipeline.withArrays spec3 c (W7 m ρ c) fun w => (Mm3.dat (V7 m ρ) c).arrAt w cfg3.N
theorem W8_arr (c : Dev nD) (w : Fin cfg3.W) :
    W8 m ρ c (Proc.devRef .tc (Pipeline.arrRef spec3 w)) = (Mm3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the call as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((Mm3.dat (V7 m ρ) c).arrAt_in w hw _).trans (Mm3.A_eq (V7 m ρ) c w))
/-- The same, read at the TensorCore's references. -/
abbrev V8 : (c : Dev nD) → (b : Ref sig .tc) → Buf (Elt F) ((c : Thread nD τ).loc b) := fun c b => W8 m ρ c b
/-- The two facts by which the call's arrays go back among the unscoped buffers: each array holds what the call left, every other buffer what it held. -/
theorem hF3 (c : Dev nD) (w : Fin cfg3.W) : (Mm3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program returns with. -/
abbrev W9 : Dev nD → Valuation τ sig (Elt F) := fun c => StableHlo.after hostOps4 (W8 m ρ c)
theorem W9_keep (c : Dev nD) (b : Ref sig .tc) (hb : b ∉ ([main_v13, main_v14, main_v15, main_v16, main_v17, main_v18] : List (Ref sig .tc))) :
    W9 m ρ c (Proc.devRef .tc b) = W8 m ρ c (Proc.devRef .tc b) :=
  StableHlo.after_of_writes_sub hostOps4 _ hostOps4_writes hb

/-! ## The arguments end as launched

No host operation writes an argument and no call has one as an output: a call either has it as an input window's array,
which it leaves as entered, or does not touch it. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_in m ρ c 1 rfl
    _ = W0 m ρ c (Proc.devRef .tc main_arg1) := W1_keep m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 2 rfl
    _ = W0 m ρ c (Proc.devRef .tc main_arg2) := W1_keep m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_in m ρ c 1 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 2 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_in m ρ c 1 rfl
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_in m ρ c 2 rfl
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

/-! ## The proof data family and the thread state -/

/-- No call has a prefetched table, so there is nothing to admit. -/
abbrev adm : (p : Fin 4) → (pcfgs (F := F) p).Adm := fun p => (cfgs p).toPCfg_adm
/-- Each call's proof data, read at the contents the call is entered from. -/
def pdats : (p : Fin 4) → (c : Dev nD) → Dat τ (Elt F) Unit ℕ (UR sig nD τ) ℕ (Pipeline.pin (pcfgs (F := F)) adm p) c
  | ⟨0, _⟩ => fun c => Dq0.dat (V1 m ρ) c
  | ⟨1, _⟩ => fun c => Dq1.dat (V3 m ρ) c
  | ⟨2, _⟩ => fun c => Dq2.dat (V5 m ρ) c
  | ⟨3, _⟩ => fun c => Mm3.dat (V7 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core carries beside its buffers across every boundary: its generator register at some state, and owing nothing. -/
abbrev R (c : Dev nD) : sProp 𝕄 := iprop((∃ r, prngReg c r) ∗ ∃ W, owes (c : Thread nD τ) (0 : CellTallies nD τ sig Unit) W)
/-- A host stretch as a segment, entered with every unscoped buffer at the contents `W`: it leaves them at those contents
    run through its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := ⟨rfl, rfl, rfl, rfl⟩
theorem hostOps1_fresh : (hostOps1 : List (HloOp τ sig (Elt F))).Forall fun op => op.fresh = ∅ := ⟨rfl, rfl⟩
theorem hostOps2_fresh : (hostOps2 : List (HloOp τ sig (Elt F))).Forall fun op => op.fresh = ∅ := ⟨rfl, rfl⟩
theorem hostOps3_fresh : (hostOps3 : List (HloOp τ sig (Elt F))).Forall fun op => op.fresh = ∅ := rfl
theorem hostOps4_fresh : (hostOps4 : List (HloOp τ sig (Elt F))).Forall fun op => op.fresh = ∅ := ⟨rfl, rfl, rfl, rfl, rfl, rfl⟩

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## Into and out of the plain invariant

The plain region invariant is the scoped buffers no window stages together with the generator register; a call with no table and no
semaphore of its own enters it from exactly those and gives exactly those back. -/

theorem ΦA_in {gr Wn : Nat} (win : Fin Wn → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp
theorem ΦA_out {gr Wn : Nat} (win : Fin Wn → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-! ## The calls as segments -/

set_option backward.isDefEq.respectTransparency.types false in
/-- The first dequantisation call as a segment: entered with every unscoped buffer at boundary 1's contents, left with them at
    boundary 2's. Its arrays are taken out of the unscoped buffers at entry and put back at what the call left; the generator
    register goes into the invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dq0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec0 c _
  hout c := by rw [Pipeline.ownSems0_none]; exact ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second dequantisation call as a segment: entered with every unscoped buffer at boundary 3's contents, left with them at
    boundary 4's. Its arrays are taken out of the unscoped buffers at entry and put back at what the call left; the generator
    register goes into the invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dq1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec1 c _
  hout c := by rw [Pipeline.ownSems0_none]; exact ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third dequantisation call as a segment: entered with every unscoped buffer at boundary 5's contents, left with them at
    boundary 6's. Its arrays are taken out of the unscoped buffers at entry and put back at what the call left; the generator
    register goes into the invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Dq2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec2 c _
  hout c := by rw [Pipeline.ownSems0_none]; exact ΦA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product as a segment: entered with every unscoped buffer at boundary 7's contents, left with them at
    boundary 8's. Its arrays are taken out of the unscoped buffers at entry and put back at what the call left; the generator
    register goes into the invariant and comes back; nothing is owed and the kernel has no semaphore of its own. Its invariant carries the accumulator, so it is entered and left through the plain one. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Mm3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec3 c _).trans (Mm3.hin (V7 m ρ) c)
  hout c := by rw [Pipeline.ownSems0_none]; exact (Mm3.hout (V7 m ρ) c).trans (ΦA_out spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The nine segments in the program's order: a host segment per stretch, entered from its boundary's contents, and a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program is the run of those segments. -/
theorem main_run (c : Dev nD) : main (F := F) c = Pipeline.Seg.run (segs m ρ) := (main_chain c).trans (by chain_rfl)

/-- The last host segment leaves the last thread state beside the core owing nothing. -/
theorem last_link (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- From any launch memory with every counter at zero the program terminates on every core without fault, and in every final
    state each unscoped buffer of a core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame claim: the program terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (run_all m ρ).mono fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c)⟩

end Cert.Kernel.KRun

end
-- ==== Proof.Dq0Run.lean ====
/-
  The dequantisation kernel of the first weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Dq0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc0__dequant_kernel i arg1 harg1 arg2 harg2 arg3 harg3 arg4 harg4) K } := by
  refine ⟨?_, fun E K => ?run⟩
  case run =>
    simp only [cc0__dequant_kernel_eq_skeleton]; unfold cc0__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Dq0

end
-- ==== Proof.Dq0.lean ====
/-
  The first dequantisation call as one region of the program: its proof data and body obligation.

  The call's grid has one axis of 64 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import proofs.«431283_j678604833227_3_alg».proof.Proof.Dq0Run
import Idealize.ShloMosaic.Lib.Pipeline.FrameBody
import Idealize.ShloMosaic.Lib.Ring
import Idealize.ShloMosaic.Lib.Tactic

set_option maxRecDepth 16384

noncomputable section

namespace Cert.KernelIdeal.Dq0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc0_stg3_0 : Memref sig .tc .vmem S64x4096 .bf16).view

/-- The found pieces tile the output block, so they cover it. -/
theorem cover (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg0.N) : Vec F S64x4096 .bf16 :=
  outOf c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk V c 0 t) (iblk V c 1 t) (iblk V c 2 t)

/-- The region's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 1600000 in
/-- The body at any point: the inputs' buffers hold their blocks, so the whole-body run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid0.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.KernelIdeal.Dq0

end
-- ==== Proof.Dq1Run.lean ====
/-
  The dequantisation kernel of the second weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Dq1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc1__dequant_kernel i arg1 harg1 arg2 harg2 arg3 harg3 arg4 harg4) K } := by
  refine ⟨?_, fun E K => ?run⟩
  case run =>
    simp only [cc1__dequant_kernel_eq_skeleton]; unfold cc1__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Dq1

end
-- ==== Proof.Dq1.lean ====
/-
  The second dequantisation call as one region of the program: its proof data and body obligation.

  The call's grid has one axis of 16 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import proofs.«431283_j678604833227_3_alg».proof.Proof.Dq1Run
import Idealize.ShloMosaic.Lib.Pipeline.FrameBody
import Idealize.ShloMosaic.Lib.Ring
import Idealize.ShloMosaic.Lib.Tactic

set_option maxRecDepth 16384

noncomputable section

namespace Cert.KernelIdeal.Dq1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc1_stg3_0 : Memref sig .tc .vmem S64x4096 .bf16).view

/-- The found pieces tile the output block, so they cover it. -/
theorem cover (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg1.N) : Vec F S64x4096 .bf16 :=
  outOf c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk V c 0 t) (iblk V c 1 t) (iblk V c 2 t)

/-- The region's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out V c t
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 1600000 in
/-- The body at any point: the inputs' buffers hold their blocks, so the whole-body run applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.KernelIdeal.Dq1

end
-- ==== Proof.Dq2Run.lean ====
/-
  The dequantisation kernel of the third weight matrix, run once on whole staging buffers.

  The body reads a 64 x 16 block of the (row-broadcast) codebook, a 64 x 4096 block of integer codes and a
  64 x 32 block of group scales, and writes the 64 x 4096 output block by thirty-two stores, one per group of
  128 columns. Run symbolically, the three inputs come back unchanged and the output buffer ends as the list of
  the pieces the stores wrote, last store first; that list is the witness this run finds.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Dq2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers holding `x0` (codebook block), `x1` (codes block), `x2` (scales block): it runs to
    its continuation with the inputs as they were and the output buffer overwritten by the found pieces. -/
noncomputable def kernelRun (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) :
    { L : List (View.Piece (Elt F) S64x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc2__dequant_kernel i arg1 harg1 arg2 harg2 arg3 harg3 arg4 harg4) K } := by
  refine ⟨?_, fun E K => ?run⟩
  case run =>
    simp only [cc2__dequant_kernel_eq_skeleton]; unfold cc2__dequant_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Dq2

end
-- ==== Proof.Dq2.lean ====
/-
  The third dequantisation call as one region of the program: its proof data and body obligation.

  The call's grid has one axis of 16 points; point t works on rows 64 t .. 64 t + 63 of the weight matrix. Three
  windows are inputs (the row-broadcast codebook, the codes, the scales) and each is fetched at every point, so
  the body always finds the point's own block of each; the fourth is the output, stored whole by the body and
  written back at every point. After the body the output's staging buffer holds the pieces the whole-body run
  found, read back (they tile the block). Nothing else is touched, so the region's invariant is the plain one.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import proofs.«431283_j678604833227_3_alg».proof.Proof.Dq2Run
import Idealize.ShloMosaic.Lib.Pipeline.FrameBody
import Idealize.ShloMosaic.Lib.Ring
import Idealize.ShloMosaic.Lib.Tactic

set_option maxRecDepth 16384

noncomputable section

namespace Cert.KernelIdeal.Dq2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S64x4096 .bf16 := (Memref.whole cc2_stg3_0 : Memref sig .tc .vmem S64x4096 .bf16).view

/-- The found pieces tile the output block, so they cover it. -/
theorem cover (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) (y : S64x4096.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S64x128.size (by sl_kernel_rfl) y

/-- What the body leaves in the output's staging buffer: its pieces read back. -/
def outOf (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec F S64x16 .f32) (x1 : Vec F S64x4096 .i32) (x2 : Vec F S64x32 .f32) : Vec F S64x4096 .bf16 :=
  VO.read (Elt F) (VO.writes (Elt F) VO.junk (kernelRun c i arg1 harg1 arg2 harg2 arg3 harg3 arg4 harg4 x0 x1 x2).1)

/-- The output block point `t` produces, from the point's input blocks. -/
def out (c : Dev nD) (t : Fin cfg2.N) : Vec F S64x4096 .bf16 :=
  outOf c (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk V c 0 t) (iblk V c 1 t) (iblk V c 2 t)

/-- The region's proof data on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out V c t
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out V c t := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 1600000 in
/-- The body at any point: the inputs' buffers hold their blocks, so the whole-body run applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  unfold out outOf
  iintro ⟨HΦ, Ho, ⟨%d0, H0⟩, ⟨%d1, H1⟩, ⟨%d2, H2⟩, ⟨%d3, H3⟩⟩
  iapply ((kernelRun c (grid2.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Region

end Cert.KernelIdeal.Dq2

end
-- ==== Proof.Mm3Run.lean ====
/-
  The matrix-product kernel, run once on whole staging buffers, in each of its three control cases.

  The grid is (row block, column block, k); the body keeps a 1024 x 2048 accumulator in a scratch buffer that
  lives across grid points. At k = 0 it first clears the accumulator; at every point it adds the product of
  the point's 1024 x 1024 block of the left operand with the transpose of its 2048 x 1024 block of the right
  operand; at k = 3 it copies the accumulator into the output block. So a point is in one of three cases:
  first (clear, add), middle (add), last (add, copy out). In the first two the output buffer is not touched.
-/
import proofs.«431283_j678604833227_3_alg».proof.Proof.Gen.KernelIdeal.Launch
import proofs.«431283_j678604833227_3_alg».proof.Proof.Gen.KernelIdeal.Skeleton
import proofs.«431283_j678604833227_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Mm3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch on "k = 0", as the body computes it from the grid coordinates. -/
abbrev condFirst (i : grid3.Coords) : Prop :=
  (Scalar.cmpi .ne (Scalar.extui (Scalar.cmpi .eq (BitVec.ofNat 32 (i 2).val) 0#32)) 0#32) = 1#1
/-- The branch on "k = 3". -/
abbrev condLast (i : grid3.Coords) : Prop := k3_cond2 i = 1#1

set_option maxHeartbeats 2000000 in
/-- First point of a group of four: the accumulator (at anything) is cleared and the point's product added; the
    output buffer is handed back as found. -/
noncomputable def runFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1
            ∗ owns (c : Thread nD τ) arg5 fullShare xi ∗ (∃ d, owns (c : Thread nD τ) arg6 fullShare d)
            ∗ (iprop(owns (c : Thread nD τ) arg3 fullShare x0 ∗ owns (c : Thread nD τ) arg4 fullShare x1
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, fun xi E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle point: the point's product is added to the accumulator, which holds `xs`; the output buffer is
    handed back as found. -/
noncomputable def runMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1
            ∗ owns (c : Thread nD τ) arg5 fullShare xi ∗ owns (c : Thread nD τ) arg6 fullShare xs
            ∗ (iprop(owns (c : Thread nD τ) arg3 fullShare x0 ∗ owns (c : Thread nD τ) arg4 fullShare x1
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, fun xi E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2
    obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last point of a group: the product is added to the accumulator (holding `xs`) and the sum copied into the
    output buffer (at anything before). -/
noncomputable def runLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1
    obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Mm3

end
-- ==== Proof.Mm3.lean ====
/-
  The matrix-product call as one region of the program: what its accumulator and its output buffer hold point by
  point, the region's proof data, and the body obligation.

  The grid is (row block, column block, k) with k running fastest, so grid point t has k = t mod 4 and the points
  4 g, 4 g + 1, 4 g + 2, 4 g + 3 form the group that computes output block g. Within a group the accumulator is
  cleared and receives the first product at k = 0, receives one more product at k = 1 and at k = 2, and at k = 3
  receives the last product and is copied into the output's staging buffer, which the pipeline then writes back.
  Both operands are fetched at every point, so the body always finds the point's own blocks. The output's staging
  buffer is neither stored into nor written back at k = 0, 1, 2: there the body hands it back as it found it.

  The accumulator lives across grid points, so the region's invariant names its contents: before the first point
  it is the plain invariant (the accumulator at anything), after point n it holds the accumulator at the contents
  computed for n. The other scoped buffers of the core and its generator register pass through unread.
-/
import proofs.«431283_j678604833227_3_alg».proof.Proof.Mm3Run

set_option maxRecDepth 16384

noncomputable section

namespace Cert.KernelIdeal.Mm3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- "k = 0" holds exactly at the points divisible by four. -/
theorem hcondFirst : ∀ t : Fin cfg3.N, condFirst (grid3.coords t) ↔ t.val % 4 = 0 :=
  (by decide +kernel : ∀ t : Fin grid3.N, condFirst (grid3.coords t) ↔ t.val % 4 = 0)

/-- "k = 3" holds exactly at the points that are 3 modulo four. -/
theorem hcondLast : ∀ t : Fin cfg3.N, condLast (grid3.coords t) ↔ t.val % 4 = 3 :=
  (by decide +kernel : ∀ t : Fin grid3.N, condLast (grid3.coords t) ↔ t.val % 4 = 3)

/-! ## Where the windows are idle -/

/-- The two operand windows are never idle. -/
theorem liveAt_0 : ∀ t : Fin cfg3.N, cfg3.idle 0 (grid3.coords t) = false := by decide +kernel
theorem liveAt_1 : ∀ t : Fin cfg3.N, cfg3.idle 1 (grid3.coords t) = false := by decide +kernel
/-- Away from k = 3 the output window is idle (the body does not store into its buffer) -/
theorem idleAt_2 : ∀ t : Fin cfg3.N, ¬condLast (grid3.coords t) → cfg3.idle 2 (grid3.coords t) = true := by decide +kernel
/-- and its block is not written back; -/
theorem noFlush_2 : ∀ t : Fin cfg3.N, ¬condLast (grid3.coords t) → (cfg3.win 2).flush t = false := by decide +kernel
/-- at k = 3 it is live. -/
theorem liveAt_2 : ∀ t : Fin cfg3.N, condLast (grid3.coords t) → cfg3.idle 2 (grid3.coords t) = false := by decide +kernel

/-! ## The buffers the body is called with -/

/-- Each window's current staging buffer at point `t`, and its wholeness. -/
abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024x2048 .f32 := win3_2.stage (cfg3.slots t 2)
abbrev hs2 (t : Fin cfg3.N) : (ms2 t).IsWhole := hstage3_2 ((cfg3.slots t 2).cast nbuf3_2)
/-- The accumulator: a whole scoped buffer of the call's own. -/
abbrev scM : Memref sig .tc .vmem S1024x2048 .f32 := Memref.whole cc3_scratch0
/-- The view through which the accumulator's contents are stated, -/
abbrev VS : View sig .tc .vmem S1024x2048 .f32 := scM.view
/-- and one staging buffer of the output window, through which the output block's contents are stated (which buffer
    does not matter: the pieces cover the block). -/
abbrev VO : View sig .tc .vmem S1024x2048 .f32 := (Memref.whole cc3_stg2_0 : Memref sig .tc .vmem S1024x2048 .f32).view

/-- The plain region invariant with the accumulator split off as a buffer owned at some contents. -/
theorem PhiA_eq (c : Dev nD) :
    (Pipeline.ΦA spec3 c : sProp 𝕄)
      = iprop(iprop(iprop(∃ d, owns (c : Thread nD τ) scM fullShare d) ∗ Pipeline.scopedRestBut spec3 c [cc3_scratch0]) ∗ (∃ r, prngReg c r)) := by
  unfold Pipeline.ΦA; rw [scopedRest3_split]; simp only [scM, owns_whole]; try rfl

/-! ## What one run of the body leaves, case by case -/

/-- The stores of a first point into the accumulator (the clearing store, then the sum) cover it. -/
theorem scoverFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) (y : S1024x2048.Idx) :
    ∃ pc ∈ (runFirst c i arg3 harg3 arg4 harg4 arg5 harg5 arg6 harg6 hc1 hc2 x0 x1).1, y ∈ pc.1.set :=
  View.cover_of_tiledL (runFirst c i arg3 harg3 arg4 harg4 arg5 harg5 arg6 harg6 hc1 hc2 x0 x1).1 S1024x2048.size (by sl_kernel_rfl) y

/-- What a first point leaves in the accumulator: its stores read back. -/
def soutFirst (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i)
    (x0 : Vec F S1024x1024 .bf16) (x1 : Vec F S2048x1024 .bf16) : Vec F S1024x2048 .f32 :=
  VS.read (Elt F) (VS.writes (Elt F) VS.junk (runFirst c i arg3 harg3 arg4 harg4 arg5 harg5 arg6 harg6 hc1 hc2 x0 x1).1)

/-- The store of a middle point into the accumulator covers it. -/
theorem scoverMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) (y : S1024x2048.Idx) :
    ∃ pc ∈ (runMid c i arg3 harg3 arg4 harg4 arg5 harg5 arg6 harg6 hc1 hc2 x0 x1 xs).1, y ∈ pc.1.set :=
  View.cover_of_tiledL (runMid c i arg3 harg3 arg4 harg4 arg5 harg5 arg6 harg6 hc1 hc2 x0 x1 xs).1 S1024x2048.size (by sl_kernel_rfl) y

/-- What a middle point leaves in the accumulator, which held `xs`. -/
def soutMid (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i)
    (x0 : Vec F S1024x1024 .bf16) (x1 : Vec F S2048x1024 .bf16) (xs : Vec F S1024x2048 .f32) : Vec F S1024x2048 .f32 :=
  VS.read (Elt F) (VS.writes (Elt F) VS.junk (runMid c i arg3 harg3 arg4 harg4 arg5 harg5 arg6 harg6 hc1 hc2 x0 x1 xs).1)

/-- The store of a last point into the output's buffer covers the block, -/
theorem coverLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) (y : S1024x2048.Idx) :
    ∃ pc ∈ (runLast c i arg3 harg3 arg4 harg4 arg5 harg5 arg6 harg6 hc1 hc2 x0 x1 xs).1, y ∈ pc.1.set :=
  View.cover_of_tiledL (runLast c i arg3 harg3 arg4 harg4 arg5 harg5 arg6 harg6 hc1 hc2 x0 x1 xs).1 S1024x2048.size (by sl_kernel_rfl) y

/-- and its store into the accumulator covers the accumulator. -/
theorem scoverLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) (y : S1024x2048.Idx) :
    ∃ pc ∈ (runLast c i arg3 harg3 arg4 harg4 arg5 harg5 arg6 harg6 hc1 hc2 x0 x1 xs).2.1, y ∈ pc.1.set :=
  View.cover_of_tiledL (runLast c i arg3 harg3 arg4 harg4 arg5 harg5 arg6 harg6 hc1 hc2 x0 x1 xs).2.1 S1024x2048.size (by sl_kernel_rfl) y

/-- What a last point leaves in the output's buffer, -/
def outOfLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) : Vec F S1024x2048 .f32 :=
  VO.read (Elt F) (VO.writes (Elt F) VO.junk (runLast c i arg3 harg3 arg4 harg4 arg5 harg5 arg6 harg6 hc1 hc2 x0 x1 xs).1)

/-- and in the accumulator, which held `xs`. -/
def soutLast (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i)
    (x0 : Vec F S1024x1024 .bf16) (x1 : Vec F S2048x1024 .bf16) (xs : Vec F S1024x2048 .f32) : Vec F S1024x2048 .f32 :=
  VS.read (Elt F) (VS.writes (Elt F) VS.junk (runLast c i arg3 harg3 arg4 harg4 arg5 harg5 arg6 harg6 hc1 hc2 x0 x1 xs).2.1)

/-- The output component at a point that does not store the output block: arbitrary contents, which nothing
    consults (the block is neither written back there nor read at the next point). -/
def outIdle : Vec F S1024x2048 .f32 := VO.read (Elt F) VO.junk

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The same at a grid point, on the buffers and blocks of that point -/

/-- The accumulator after a point with k = 0: the product of the point's two blocks (over a cleared accumulator). -/
def accFirst (c : Dev nD) (t : Fin cfg3.N) (h : t.val % 4 = 0) : Vec F S1024x2048 .f32 :=
  soutFirst c (grid3.coords t) (ms0 t) (hs0 t) (ms1 t) (hs1 t) (ms2 t) (hs2 t) scM (Memref.isWhole_whole _)
    ((hcondFirst t).mpr h) (fun hl => absurd ((hcondLast t).mp hl) (by omega)) (iblk V c 0 t) (iblk V c 1 t)

/-- The accumulator after a point with k = 1 or 2, over what the point before left in it. -/
def accMid (c : Dev nD) (t : Fin cfg3.N) (h0 : ¬t.val % 4 = 0) (h3 : ¬t.val % 4 = 3) (xs : Vec F S1024x2048 .f32) : Vec F S1024x2048 .f32 :=
  soutMid c (grid3.coords t) (ms0 t) (hs0 t) (ms1 t) (hs1 t) (ms2 t) (hs2 t) scM (Memref.isWhole_whole _)
    (fun hf => h0 ((hcondFirst t).mp hf)) (fun hl => h3 ((hcondLast t).mp hl)) (iblk V c 0 t) (iblk V c 1 t) xs

/-- The accumulator after a point with k = 3, over what the point before left in it, -/
def accLast (c : Dev nD) (t : Fin cfg3.N) (h3 : t.val % 4 = 3) (xs : Vec F S1024x2048 .f32) : Vec F S1024x2048 .f32 :=
  soutLast c (grid3.coords t) (ms0 t) (hs0 t) (ms1 t) (hs1 t) (ms2 t) (hs2 t) scM (Memref.isWhole_whole _)
    (fun hf => absurd ((hcondFirst t).mp hf) (by omega)) ((hcondLast t).mpr h3) (iblk V c 0 t) (iblk V c 1 t) xs

/-- and the output block that point stores. -/
def outLast (c : Dev nD) (t : Fin cfg3.N) (h3 : t.val % 4 = 3) (xs : Vec F S1024x2048 .f32) : Vec F S1024x2048 .f32 :=
  outOfLast c (grid3.coords t) (ms0 t) (hs0 t) (ms1 t) (hs1 t) (ms2 t) (hs2 t) scM (Memref.isWhole_whole _)
    (fun hf => absurd ((hcondFirst t).mp hf) (by omega)) ((hcondLast t).mpr h3) (iblk V c 0 t) (iblk V c 1 t) xs

/-! ## Point by point -/

/-- What the output's staging buffer (first component) and the accumulator (second component) hold after the body at
    position `n`. A point with k = 0 starts afresh; a point with k = 1 or 2 adds to what the point before left in
    the accumulator; a point with k = 3 adds likewise and stores the sum as the output block. Where the output block is
    not stored its component is the placeholder. -/
def outsAt (c : Dev nD) : (n : ℕ) → n < cfg3.N → Vec F S1024x2048 .f32 × Vec F S1024x2048 .f32
  | 0, hn => (outIdle, accFirst V c ⟨0, hn⟩ (Nat.zero_mod _))
  | n + 1, hn =>
    if h0 : (n + 1) % 4 = 0 then
      (outIdle, accFirst V c ⟨n + 1, hn⟩ h0)
    else
      if h3 : (n + 1) % 4 = 3 then
        (outLast V c ⟨n + 1, hn⟩ h3 (outsAt c n (Nat.lt_of_succ_lt hn)).2, accLast V c ⟨n + 1, hn⟩ h3 (outsAt c n (Nat.lt_of_succ_lt hn)).2)
      else
        (outIdle, accMid V c ⟨n + 1, hn⟩ h0 h3 (outsAt c n (Nat.lt_of_succ_lt hn)).2)

/-- At a point with k = 0. -/
theorem outsAt_first (c : Dev nD) (t : Fin cfg3.N) (h : t.val % 4 = 0) :
    outsAt V c t.val t.isLt = (outIdle, accFirst V c t h) := by
  obtain ⟨n, hn⟩ := t
  cases n with
  | zero => exact rfl
  | succ n => exact (dif_pos h).trans rfl

/-- At a point with k = 1 or 2: over the accumulator the point before left. -/
theorem outsAt_mid (c : Dev nD) (t : Fin cfg3.N) (h0 : ¬t.val % 4 = 0) (h3 : ¬t.val % 4 = 3) :
    outsAt V c t.val t.isLt
      = (outIdle, accMid V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- At a point with k = 3: over the accumulator the point before left. -/
theorem outsAt_last (c : Dev nD) (t : Fin cfg3.N) (h3 : t.val % 4 = 3) :
    outsAt V c t.val t.isLt
      = (outLast V c t h3 (outsAt V c (t.val - 1) (Nat.lt_of_le_of_lt (Nat.sub_le _ _) t.isLt)).2,
         accLast V c t h3 (outsAt V c (t.val - 1) (Nat.lt_of_le_of_lt (Nat.sub_le _ _) t.isLt)).2) := by
  obtain ⟨n, hn⟩ := t
  cases n with
  | zero => exact absurd h3 (show ¬(0 % 4 = 3) from by decide)
  | succ n =>
    have h3' : (n + 1) % 4 = 3 := h3
    exact (dif_neg (by omega)).trans ((dif_pos h3).trans rfl)

/-! ## The invariant -/

/-- The region invariant before position `n`: before the first point the plain one (the accumulator at anything);
    afterwards the accumulator at what the point before left in it, the core's other scoped buffers at anything, and
    the generator register at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut spec3 c [cc3_scratch0]) ∗ (∃ r, prngReg c r)) := by
  cases n with
  | zero => exact absurd rfl hz
  | succ n => rfl

/-! ## The proof data -/

/-- The region's proof data on core `c`: the arrays as the region finds them; after the body each operand's buffer at
    its block and the output's at the first component of `outsAt`; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

/-- Each operand's current staging buffer holds its block at every point. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; k = t mod 4 says which case the point is in, so that
    case's run applies. The invariant hands the body the accumulator — at anything before the first point, else at what the
    point before left — and takes it back at this point's contents (the stores cover it). Away from k = 3 the output's
    buffer goes through untouched; at k = 3 it comes back at the stored block. The core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  by_cases h0 : t.val % 4 = 0
  · -- k = 0
    have hc1 : condFirst (grid3.coords t) := (hcondFirst t).mpr h0
    have hc2 : ¬condLast (grid3.coords t) := fun hl => absurd ((hcondLast t).mp hl) (by omega)
    rw [Dat.leavesExact_idle (dat V c) 2 t (idleAt_2 t hc2) (noFlush_2 t hc2)]
    rw [outsAt_first V c t h0]
    unfold accFirst soutFirst; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩⟩
      iapply ((runFirst c (grid3.coords t) _ _ _ _ _ _ _ _ hc1 hc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverFirst c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid3.coords t) _ _ _ _ _ _ _ _ hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverFirst c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    have hc1 : ¬condFirst (grid3.coords t) := fun hf => h0 ((hcondFirst t).mp hf)
    by_cases h3 : t.val % 4 = 3
    · -- k = 3
      have hc2 : condLast (grid3.coords t) := (hcondLast t).mpr h3
      rw [show (dat V c).leavesExact 2 t = owns (c : Thread nD τ) (ms2 t) fullShare ((dat V c).after 2 t) from by
        unfold Dat.leavesExact; rw [liveAt_2 t hc2], after_2]
      rw [outsAt_last V c t h3]
      unfold outLast accLast outOfLast soutLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid3.coords t) _ _ _ _ _ _ _ _ hc1 hc2 (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scoverLast c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- k = 1 or 2
      have hc2 : ¬condLast (grid3.coords t) := fun hl => h3 ((hcondLast t).mp hl)
      rw [Dat.leavesExact_idle (dat V c) 2 t (idleAt_2 t hc2) (noFlush_2 t hc2)]
      rw [outsAt_mid V c t h0 h3]
      unfold accMid soutMid; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMid c (grid3.coords t) _ _ _ _ _ _ _ _ hc1 hc2 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scoverMid c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W3, bigSep_W3]
  exact sound_body V c t

/-! ## Into and out of the region -/

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives the plain one back: the accumulator's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- In particular after the last point. -/
theorem hout (c : Dev nD) : (dat V c).Φ (Fin.last cfg3.N) ⊢ Pipeline.ΦA spec3 c :=
  Phi_out V c _ (by rw [Fin.val_last]; have : cfg3.N = 96 := N_3; omega)

end Region

end Cert.KernelIdeal.Mm3

end
-- ==== Proof.KRun.lean ====
/-
  The whole program as a run of segments, from the launch memory to the return.

  The program is five stretches of host operations with four kernel calls between them: three dequantisation calls,
  a concatenation of their results, and one matrix product. The core's buffer contents are followed from boundary to
  boundary: a host stretch rewrites the buffers its operations write and leaves the rest; a call leaves each of its
  windows' arrays at what its write-backs made of it (an input array as it was entered) and leaves every other
  unscoped buffer alone. Ten boundaries result, the first the launch memory, the last what the program returns with.
  No host operation writes an argument array and no call has one as an output, so read at an argument the last
  boundary's contents walk back to the launch memory.
-/
import proofs.«431283_j678604833227_3_alg».proof.Proof.Dq0
import proofs.«431283_j678604833227_3_alg».proof.Proof.Dq1
import proofs.«431283_j678604833227_3_alg».proof.Proof.Dq2
import proofs.«431283_j678604833227_3_alg».proof.Proof.Mm3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each host stretch writes -/

/-- A single result buffer lies in the listed buffers when its reference is listed. -/
theorem single_sub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map.mpr ⟨y, h, rfl⟩))

/-- The first stretch writes the reshaped and converted activations and the first codebook's two broadcasts. -/
theorem hostOps0_writes : (hostOps0 : List (HloOp τ sig (Elt F))).Forall fun op =>
    op.writes ⊆ (([main_v0, main_v1, main_v2, main_v3] : List (Ref sig .tc)).map (Proc.devRef (τ := τ) .tc)).toFinset :=
  ⟨single_sub (by decide), single_sub (by decide), single_sub (by decide), single_sub (by decide)⟩
/-- The second writes the second codebook's two broadcasts, -/
theorem hostOps1_writes : (hostOps1 : List (HloOp τ sig (Elt F))).Forall fun op =>
    op.writes ⊆ (([main_v5, main_v6] : List (Ref sig .tc)).map (Proc.devRef (τ := τ) .tc)).toFinset :=
  ⟨single_sub (by decide), single_sub (by decide)⟩
/-- the third the third codebook's. -/
theorem hostOps2_writes : (hostOps2 : List (HloOp τ sig (Elt F))).Forall fun op =>
    op.writes ⊆ (([main_v8, main_v9] : List (Ref sig .tc)).map (Proc.devRef (τ := τ) .tc)).toFinset :=
  ⟨single_sub (by decide), single_sub (by decide)⟩
/-- The fourth writes the concatenated weights. -/
theorem hostOps3_writes : (hostOps3 : List (HloOp τ sig (Elt F))).Forall fun op =>
    op.writes ⊆ (([main_v11] : List (Ref sig .tc)).map (Proc.devRef (τ := τ) .tc)).toFinset :=
  single_sub (by decide)
/-- The last writes the three slices of the product and their reshapes. -/
theorem hostOps4_writes : (hostOps4 : List (HloOp τ sig (Elt F))).Forall fun op =>
    op.writes ⊆ (([main_v13, main_v14, main_v15, main_v16, main_v17, main_v18] : List (Ref sig .tc)).map (Proc.devRef (τ := τ) .tc)).toFinset :=
  ⟨single_sub (by decide), single_sub (by decide), single_sub (by decide), single_sub (by decide), single_sub (by decide), single_sub (by decide)⟩

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: what the first dequantisation call is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer host stretch 0 does not write is as before it. -/
theorem W1_keep (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_writes_sub hostOps0 _ hostOps0_writes hb
/-- When the first dequantisation call returns: each of its arrays at what the write-backs made of it, every other buffer as entered. -/
def W2 (c : Dev nD) : Valuation τ sig (Elt F) :=
  Pipeline.withArrays spec0 c (W1 m ρ c) fun w => (Dq0.dat (V1 m ρ) c).arrAt w cfg0.N
theorem W2_arr (c : Dev nD) (w : Fin cfg0.W) :
    W2 m ρ c (Proc.devRef .tc (Pipeline.arrRef spec0 w)) = (Dq0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the call as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Dq0.dat (V1 m ρ) c).arrAt_in w hw _).trans (Dq0.A_eq (V1 m ρ) c w))
/-- The same, read at the TensorCore's references. -/
abbrev V2 : (c : Dev nD) → (b : Ref sig .tc) → Buf (Elt F) ((c : Thread nD τ).loc b) := fun c b => W2 m ρ c b
/-- The two facts by which the call's arrays go back among the unscoped buffers: each array holds what the call left, every other buffer what it held. -/
theorem hF0 (c : Dev nD) (w : Fin cfg0.W) : (Dq0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what the second dequantisation call is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer host stretch 1 does not write is as before it. -/
theorem W3_keep (c : Dev nD) (b : Ref sig .tc) (hb : b ∉ ([main_v5, main_v6] : List (Ref sig .tc))) :
    W3 m ρ c (Proc.devRef .tc b) = W2 m ρ c (Proc.devRef .tc b) :=
  StableHlo.after_of_writes_sub hostOps1 _ hostOps1_writes hb
/-- When the second dequantisation call returns: each of its arrays at what the write-backs made of it, every other buffer as entered. -/
def W4 (c : Dev nD) : Valuation τ sig (Elt F) :=
  Pipeline.withArrays spec1 c (W3 m ρ c) fun w => (Dq1.dat (V3 m ρ) c).arrAt w cfg1.N
theorem W4_arr (c : Dev nD) (w : Fin cfg1.W) :
    W4 m ρ c (Proc.devRef .tc (Pipeline.arrRef spec1 w)) = (Dq1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the call as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Dq1.dat (V3 m ρ) c).arrAt_in w hw _).trans (Dq1.A_eq (V3 m ρ) c w))
/-- The same, read at the TensorCore's references. -/
abbrev V4 : (c : Dev nD) → (b : Ref sig .tc) → Buf (Elt F) ((c : Thread nD τ).loc b) := fun c b => W4 m ρ c b
/-- The two facts by which the call's arrays go back among the unscoped buffers: each array holds what the call left, every other buffer what it held. -/
theorem hF1 (c : Dev nD) (w : Fin cfg1.W) : (Dq1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what the third dequantisation call is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer host stretch 2 does not write is as before it. -/
theorem W5_keep (c : Dev nD) (b : Ref sig .tc) (hb : b ∉ ([main_v8, main_v9] : List (Ref sig .tc))) :
    W5 m ρ c (Proc.devRef .tc b) = W4 m ρ c (Proc.devRef .tc b) :=
  StableHlo.after_of_writes_sub hostOps2 _ hostOps2_writes hb
/-- When the third dequantisation call returns: each of its arrays at what the write-backs made of it, every other buffer as entered. -/
def W6 (c : Dev nD) : Valuation τ sig (Elt F) :=
  Pipeline.withArrays spec2 c (W5 m ρ c) fun w => (Dq2.dat (V5 m ρ) c).arrAt w cfg2.N
theorem W6_arr (c : Dev nD) (w : Fin cfg2.W) :
    W6 m ρ c (Proc.devRef .tc (Pipeline.arrRef spec2 w)) = (Dq2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the call as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((Dq2.dat (V5 m ρ) c).arrAt_in w hw _).trans (Dq2.A_eq (V5 m ρ) c w))
/-- The same, read at the TensorCore's references. -/
abbrev V6 : (c : Dev nD) → (b : Ref sig .tc) → Buf (Elt F) ((c : Thread nD τ).loc b) := fun c b => W6 m ρ c b
/-- The two facts by which the call's arrays go back among the unscoped buffers: each array holds what the call left, every other buffer what it held. -/
theorem hF2 (c : Dev nD) (w : Fin cfg2.W) : (Dq2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what the matrix product is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer host stretch 3 does not write is as before it. -/
theorem W7_keep (c : Dev nD) (b : Ref sig .tc) (hb : b ∉ ([main_v11] : List (Ref sig .tc))) :
    W7 m ρ c (Proc.devRef .tc b) = W6 m ρ c (Proc.devRef .tc b) :=
  StableHlo.after_of_writes_sub hostOps3 _ hostOps3_writes hb
/-- When the matrix product returns: each of its arrays at what the write-backs made of it, every other buffer as entered. -/
def W8 (c : Dev nD) : Valuation τ sig (Elt F) :=
  Pipeline.withArrays spec3 c (W7 m ρ c) fun w => (Mm3.dat (V7 m ρ) c).arrAt w cfg3.N
theorem W8_arr (c : Dev nD) (w : Fin cfg3.W) :
    W8 m ρ c (Proc.devRef .tc (Pipeline.arrRef spec3 w)) = (Mm3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the call as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((Mm3.dat (V7 m ρ) c).arrAt_in w hw _).trans (Mm3.A_eq (V7 m ρ) c w))
/-- The same, read at the TensorCore's references. -/
abbrev V8 : (c : Dev nD) → (b : Ref sig .tc) → Buf (Elt F) ((c : Thread nD τ).loc b) := fun c b => W8 m ρ c b
/-- The two facts by which the call's arrays go back among the unscoped buffers: each array holds what the call left, every other buffer what it held. -/
theorem hF3 (c : Dev nD) (w : Fin cfg3.W) : (Mm3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program returns with. -/
abbrev W9 : Dev nD → Valuation τ sig (Elt F) := fun c => StableHlo.after hostOps4 (W8 m ρ c)
theorem W9_keep (c : Dev nD) (b : Ref sig .tc) (hb : b ∉ ([main_v13, main_v14, main_v15, main_v16, main_v17, main_v18] : List (Ref sig .tc))) :
    W9 m ρ c (Proc.devRef .tc b) = W8 m ρ c (Proc.devRef .tc b) :=
  StableHlo.after_of_writes_sub hostOps4 _ hostOps4_writes hb

/-! ## The arguments end as launched

No host operation writes an argument and no call has one as an output: a call either has it as an input window's array,
which it leaves as entered, or does not touch it. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_in m ρ c 1 rfl
    _ = W0 m ρ c (Proc.devRef .tc main_arg1) := W1_keep m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 2 rfl
    _ = W0 m ρ c (Proc.devRef .tc main_arg2) := W1_keep m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_in m ρ c 1 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 2 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_in m ρ c 1 rfl
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_in m ρ c 2 rfl
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

/-! ## The proof data family and the thread state -/

/-- No call has a prefetched table, so there is nothing to admit. -/
abbrev adm : (p : Fin 4) → (pcfgs (F := F) p).Adm := fun p => (cfgs p).toPCfg_adm
/-- Each call's proof data, read at the contents the call is entered from. -/
def pdats : (p : Fin 4) → (c : Dev nD) → Dat τ (Elt F) Unit ℕ (UR sig nD τ) ℕ (Pipeline.pin (pcfgs (F := F)) adm p) c
  | ⟨0, _⟩ => fun c => Dq0.dat (V1 m ρ) c
  | ⟨1, _⟩ => fun c => Dq1.dat (V3 m ρ) c
  | ⟨2, _⟩ => fun c => Dq2.dat (V5 m ρ) c
  | ⟨3, _⟩ => fun c => Mm3.dat (V7 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core carries beside its buffers across every boundary: its generator register at some state, and owing nothing. -/
abbrev R (c : Dev nD) : sProp 𝕄 := iprop((∃ r, prngReg c r) ∗ ∃ W, owes (c : Thread nD τ) (0 : CellTallies nD τ sig Unit) W)
/-- A host stretch as a segment, entered with every unscoped buffer at the contents `W`: it leaves them at those contents
    run through its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := ⟨rfl, rfl, rfl, rfl⟩
theorem hostOps1_fresh : (hostOps1 : List (HloOp τ sig (Elt F))).Forall fun op => op.fresh = ∅ := ⟨rfl, rfl⟩
theorem hostOps2_fresh : (hostOps2 : List (HloOp τ sig (Elt F))).Forall fun op => op.fresh = ∅ := ⟨rfl, rfl⟩
theorem hostOps3_fresh : (hostOps3 : List (HloOp τ sig (Elt F))).Forall fun op => op.fresh = ∅ := rfl
theorem hostOps4_fresh : (hostOps4 : List (HloOp τ sig (Elt F))).Forall fun op => op.fresh = ∅ := ⟨rfl, rfl, rfl, rfl, rfl, rfl⟩

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## Into and out of the plain invariant

The plain region invariant is the scoped buffers no window stages together with the generator register; a call with no table and no
semaphore of its own enters it from exactly those and gives exactly those back. -/

theorem ΦA_in {gr Wn : Nat} (win : Fin Wn → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp
theorem ΦA_out {gr Wn : Nat} (win : Fin Wn → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-! ## The calls as segments -/

set_option backward.isDefEq.respectTransparency.types false in
/-- The first dequantisation call as a segment: entered with every unscoped buffer at boundary 1's contents, left with them at
    boundary 2's. Its arrays are taken out of the unscoped buffers at entry and put back at what the call left; the generator
    register goes into the invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dq0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec0 c _
  hout c := by rw [Pipeline.ownSems0_none]; exact ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second dequantisation call as a segment: entered with every unscoped buffer at boundary 3's contents, left with them at
    boundary 4's. Its arrays are taken out of the unscoped buffers at entry and put back at what the call left; the generator
    register goes into the invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dq1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec1 c _
  hout c := by rw [Pipeline.ownSems0_none]; exact ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third dequantisation call as a segment: entered with every unscoped buffer at boundary 5's contents, left with them at
    boundary 6's. Its arrays are taken out of the unscoped buffers at entry and put back at what the call left; the generator
    register goes into the invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Dq2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := ΦA_in spec2 c _
  hout c := by rw [Pipeline.ownSems0_none]; exact ΦA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product as a segment: entered with every unscoped buffer at boundary 7's contents, left with them at
    boundary 8's. Its arrays are taken out of the unscoped buffers at entry and put back at what the call left; the generator
    register goes into the invariant and comes back; nothing is owed and the kernel has no semaphore of its own. Its invariant carries the accumulator, so it is entered and left through the plain one. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Mm3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec3 c _).trans (Mm3.hin (V7 m ρ) c)
  hout c := by rw [Pipeline.ownSems0_none]; exact (Mm3.hout (V7 m ρ) c).trans (ΦA_out spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The nine segments in the program's order: a host segment per stretch, entered from its boundary's contents, and a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program is the run of those segments. -/
theorem main_run (c : Dev nD) : main (F := F) c = Pipeline.Seg.run (segs m ρ) := (main_chain c).trans (by chain_rfl)

/-- The last host segment leaves the last thread state beside the core owing nothing. -/
theorem last_link (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- From any launch memory with every counter at zero the program terminates on every core without fault, and in every final
    state each unscoped buffer of a core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame claim: the program terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (run_all m ρ).mono fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c)⟩

end Cert.KernelIdeal.KRun

end
-- ==== Proof.HostVals.lean ====
import proofs.«431283_j678604833227_3_alg».proof.Proof.Gen.KernelIdeal.Launch
import proofs.«431283_j678604833227_3_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal

/-!
# What the host stretches of the idealized kernel program write

Each host stretch of `@main` is a short line of layout operations (reshape, a change of float format,
broadcast, concatenation, slice). Over the extended reals a change of float format is the identity, so every
entry of an array a stretch writes is ONE entry of an array the stretch reads. This module names that entry,
for an arbitrary valuation `W` of the buffers at the stretch's start:

* the activations flattened from `[4, 2048, 4096]` to `[8192, 4096]`: row `t` is batch `t / 2048`,
  position `t % 2048`;
* a codebook of 16 values copied into every row of a `[rows, 16]` array: entry `(o, v)` is codebook entry `v`;
* the three dequantised weight matrices stacked on top of each other into `[6144, 4096]`: rows
  `0 … 4095`, `4096 … 5119`, `5120 … 6143` are the first, second and third matrix;
* the product `[8192, 6144]` cut into column bands `0 … 4095`, `4096 … 5119`, `5120 … 6143` and each band
  unflattened to `[4, 2048, ·]`: entry `(b, s, o)` is row `2048 b + s` of the band's column `o`;

and that a buffer a stretch does not write keeps its contents.
-/

noncomputable section

namespace Cert.KernelIdeal.HostVals

open Cert.KernelIdeal Cert.KernelIdeal.Gen Idealize.ShloMosaic Idealize.ShloMosaic.ValueIdx Idealize.ShloMosaic.StableHlo

/-! ## Stretch 0: the activations flattened, the first codebook copied down the rows -/

/-- Row `t` of the flattened activations is batch `t / 2048`, position `t % 2048`; the change of float
    format that follows is the identity over the extended reals. -/
theorem xflat (W : Valuation τ sig (Elt Ideal)) (t : Fin 8192) (d : Fin 4096) :
    (StableHlo.after (hostOps0 (F := Ideal)) W (Proc.devRef .tc main_v1) : S8192x4096.Idx → EReal) (ix2 t d)
      = (W (Proc.devRef .tc main_arg0) : S4x2048x4096.Idx → EReal)
          (ix3 (⟨t.val / 2048, by have := t.isLt; omega⟩ : Fin 4) (⟨t.val % 2048, Nat.mod_lt _ (by decide)⟩ : Fin 2048) d) := by
  have e : (StableHlo.after (hostOps0 (F := Ideal)) W (Proc.devRef .tc main_v1) : S8192x4096.Idx → EReal)
      = shapeCast S8192x4096 (W (Proc.devRef .tc main_arg0) : S4x2048x4096.Idx → EReal) shapeCasts_S4x2048x4096_S8192x4096 := by
    dsimp only [hostOps0]; after_results <;> rfl
  rw [e]
  -- `(t / 2048, t % 2048, d)` and `(t, d)` have the same row-major position
  exact shapeCast_apply (s := S4x2048x4096) (t := S8192x4096) _ _ _ _ (by
    rw [Shape.rowMajor_val_three, Shape.rowMajor_val_two]
    show (t.val / 2048 * 2048 + t.val % 2048) * 4096 + d.val = t.val * 4096 + d.val
    omega)

/-- Entry `(o, v)` of the codebook copied down 4096 rows is codebook entry `v`: the vector is first made a
    one-row matrix, then that row is repeated. -/
theorem cbrows0 (W : Valuation τ sig (Elt Ideal)) (o : Fin 4096) (v : Fin 16) :
    (StableHlo.after (hostOps0 (F := Ideal)) W (Proc.devRef .tc main_v3) : S4096x16.Idx → EReal) (ix2 o v)
      = (W (Proc.devRef .tc main_arg3) : S16.Idx → EReal) (ix1 v) := by
  have e : (StableHlo.after (hostOps0 (F := Ideal)) W (Proc.devRef .tc main_v3) : S4096x16.Idx → EReal)
      = broadcastInDim S4096x16 ![0, 1] bcast_S1x16_S4096x16_0_1
          (broadcastInDim S1x16 ![1] bcast_S16_S1x16_1 (W (Proc.devRef .tc main_arg3) : S16.Idx → EReal)) := by
    dsimp only [hostOps0]; after_results <;> rfl
  rw [e]
  -- the row axis of the one-row matrix has extent 1, so it is read at 0; the column axis is read at `v`
  refine (broadcastInDim_apply (s := S1x16) (t := S4096x16) _ _ _ (ix2 o v) (ix2 (0 : Fin 1) v) (fun a => match a with
    | ⟨0, _⟩ => rfl
    | ⟨1, _⟩ => rfl)).trans ?_
  exact broadcastInDim_apply (s := S16) (t := S1x16) _ _ _ (ix2 (0 : Fin 1) v) (ix1 v) (fun a => match a with
    | ⟨0, _⟩ => rfl)

/-! ## Stretches 1 and 2: the second and third codebooks copied down the rows -/

/-- Entry `(o, v)` of the codebook copied down 1024 rows is codebook entry `v`: the vector is first made a
    one-row matrix, then that row is repeated. -/
theorem cbrows1 (W : Valuation τ sig (Elt Ideal)) (o : Fin 1024) (v : Fin 16) :
    (StableHlo.after (hostOps1 (F := Ideal)) W (Proc.devRef .tc main_v6) : S1024x16.Idx → EReal) (ix2 o v)
      = (W (Proc.devRef .tc main_arg6) : S16.Idx → EReal) (ix1 v) := by
  have e : (StableHlo.after (hostOps1 (F := Ideal)) W (Proc.devRef .tc main_v6) : S1024x16.Idx → EReal)
      = broadcastInDim S1024x16 ![0, 1] bcast_S1x16_S1024x16_0_1
          (broadcastInDim S1x16 ![1] bcast_S16_S1x16_1 (W (Proc.devRef .tc main_arg6) : S16.Idx → EReal)) := by
    dsimp only [hostOps1]; after_results <;> rfl
  rw [e]
  -- the row axis of the one-row matrix has extent 1, so it is read at 0; the column axis is read at `v`
  refine (broadcastInDim_apply (s := S1x16) (t := S1024x16) _ _ _ (ix2 o v) (ix2 (0 : Fin 1) v) (fun a => match a with
    | ⟨0, _⟩ => rfl
    | ⟨1, _⟩ => rfl)).trans ?_
  exact broadcastInDim_apply (s := S16) (t := S1x16) _ _ _ (ix2 (0 : Fin 1) v) (ix1 v) (fun a => match a with
    | ⟨0, _⟩ => rfl)

/-- Entry `(o, v)` of the codebook copied down 1024 rows is codebook entry `v`: the vector is first made a
    one-row matrix, then that row is repeated. -/
theorem cbrows2 (W : Valuation τ sig (Elt Ideal)) (o : Fin 1024) (v : Fin 16) :
    (StableHlo.after (hostOps2 (F := Ideal)) W (Proc.devRef .tc main_v9) : S1024x16.Idx → EReal) (ix2 o v)
      = (W (Proc.devRef .tc main_arg9) : S16.Idx → EReal) (ix1 v) := by
  have e : (StableHlo.after (hostOps2 (F := Ideal)) W (Proc.devRef .tc main_v9) : S1024x16.Idx → EReal)
      = broadcastInDim S1024x16 ![0, 1] bcast_S1x16_S1024x16_0_1
          (broadcastInDim S1x16 ![1] bcast_S16_S1x16_1 (W (Proc.devRef .tc main_arg9) : S16.Idx → EReal)) := by
    dsimp only [hostOps2]; after_results <;> rfl
  rw [e]
  -- the row axis of the one-row matrix has extent 1, so it is read at 0; the column axis is read at `v`
  refine (broadcastInDim_apply (s := S1x16) (t := S1024x16) _ _ _ (ix2 o v) (ix2 (0 : Fin 1) v) (fun a => match a with
    | ⟨0, _⟩ => rfl
    | ⟨1, _⟩ => rfl)).trans ?_
  exact broadcastInDim_apply (s := S16) (t := S1x16) _ _ _ (ix2 (0 : Fin 1) v) (ix1 v) (fun a => match a with
    | ⟨0, _⟩ => rfl)

/-! ## Stretch 3: the three dequantised matrices stacked along the rows -/

/-- What stretch 3 writes is the three matrices stacked along axis 0. -/
theorem stacked (W : Valuation τ sig (Elt Ideal)) :
    (StableHlo.after (hostOps3 (F := Ideal)) W (Proc.devRef .tc main_v11) : S6144x4096.Idx → EReal)
      = concatenate S6144x4096 0 [⟨S4096x4096, (W (Proc.devRef .tc main_v4) : S4096x4096.Idx → EReal)⟩,
      ⟨S1024x4096, (W (Proc.devRef .tc main_v7) : S1024x4096.Idx → EReal)⟩,
      ⟨S1024x4096, (W (Proc.devRef .tc main_v10) : S1024x4096.Idx → EReal)⟩]
          concatenates_S4096x4096_S1024x4096_S1024x4096_S6144x4096_d0 := by
  dsimp only [hostOps3]; after_results <;> rfl

/-- Rows `0 … 4095` of the stack are the first matrix. -/
theorem cat_q (W : Valuation τ sig (Elt Ideal)) (o : Fin 4096) (d : Fin 4096) :
    (StableHlo.after (hostOps3 (F := Ideal)) W (Proc.devRef .tc main_v11) : S6144x4096.Idx → EReal)
        (ix2 (⟨o.val, by have := o.isLt; omega⟩ : Fin 6144) d)
      = (W (Proc.devRef .tc main_v4) : S4096x4096.Idx → EReal) (ix2 o d) := by
  rw [stacked W]
  -- piece 0 starts after 0 rows; off the stacking axis the coordinates agree
  exact concatenate_apply_piece (t := S6144x4096) (0 : Fin 2)
    [⟨S4096x4096, (W (Proc.devRef .tc main_v4) : S4096x4096.Idx → EReal)⟩,
      ⟨S1024x4096, (W (Proc.devRef .tc main_v7) : S1024x4096.Idx → EReal)⟩,
      ⟨S1024x4096, (W (Proc.devRef .tc main_v10) : S1024x4096.Idx → EReal)⟩]
    concatenates_S4096x4096_S1024x4096_S1024x4096_S6144x4096_d0 _
    0 (by show (0 : Nat) < 3; omega) S4096x4096 _ rfl rfl 0 rfl (ix2 o d)
    (fun b hb => match b, hb with
      | ⟨0, _⟩, hb => absurd rfl hb
      | ⟨1, _⟩, _ => rfl)
    (by show 0 + o.val = o.val; omega)

/-- Rows `4096 … 5119` of the stack are the second matrix. -/
theorem cat_k (W : Valuation τ sig (Elt Ideal)) (o : Fin 1024) (d : Fin 4096) :
    (StableHlo.after (hostOps3 (F := Ideal)) W (Proc.devRef .tc main_v11) : S6144x4096.Idx → EReal)
        (ix2 (⟨4096 + o.val, by have := o.isLt; omega⟩ : Fin 6144) d)
      = (W (Proc.devRef .tc main_v7) : S1024x4096.Idx → EReal) (ix2 o d) := by
  rw [stacked W]
  -- piece 1 starts after 4096 rows; off the stacking axis the coordinates agree
  exact concatenate_apply_piece (t := S6144x4096) (0 : Fin 2)
    [⟨S4096x4096, (W (Proc.devRef .tc main_v4) : S4096x4096.Idx → EReal)⟩,
      ⟨S1024x4096, (W (Proc.devRef .tc main_v7) : S1024x4096.Idx → EReal)⟩,
      ⟨S1024x4096, (W (Proc.devRef .tc main_v10) : S1024x4096.Idx → EReal)⟩]
    concatenates_S4096x4096_S1024x4096_S1024x4096_S6144x4096_d0 _
    1 (by show (1 : Nat) < 3; omega) S1024x4096 _ rfl rfl 4096 rfl (ix2 o d)
    (fun b hb => match b, hb with
      | ⟨0, _⟩, hb => absurd rfl hb
      | ⟨1, _⟩, _ => rfl)
    (by show 4096 + o.val = 4096 + o.val; omega)

/-- Rows `5120 … 6143` of the stack are the third matrix. -/
theorem cat_v (W : Valuation τ sig (Elt Ideal)) (o : Fin 1024) (d : Fin 4096) :
    (StableHlo.after (hostOps3 (F := Ideal)) W (Proc.devRef .tc main_v11) : S6144x4096.Idx → EReal)
        (ix2 (⟨5120 + o.val, by have := o.isLt; omega⟩ : Fin 6144) d)
      = (W (Proc.devRef .tc main_v10) : S1024x4096.Idx → EReal) (ix2 o d) := by
  rw [stacked W]
  -- piece 2 starts after 5120 rows; off the stacking axis the coordinates agree
  exact concatenate_apply_piece (t := S6144x4096) (0 : Fin 2)
    [⟨S4096x4096, (W (Proc.devRef .tc main_v4) : S4096x4096.Idx → EReal)⟩,
      ⟨S1024x4096, (W (Proc.devRef .tc main_v7) : S1024x4096.Idx → EReal)⟩,
      ⟨S1024x4096, (W (Proc.devRef .tc main_v10) : S1024x4096.Idx → EReal)⟩]
    concatenates_S4096x4096_S1024x4096_S1024x4096_S6144x4096_d0 _
    2 (by show (2 : Nat) < 3; omega) S1024x4096 _ rfl rfl 5120 rfl (ix2 o d)
    (fun b hb => match b, hb with
      | ⟨0, _⟩, hb => absurd rfl hb
      | ⟨1, _⟩, _ => rfl)
    (by show 5120 + o.val = 5120 + o.val; omega)

/-! ## Stretch 4: the product cut into three column bands, each unflattened -/

/-- Entry `(b, s, o)` of the first result is row `2048 b + s`, column `o` of the product. -/
theorem res_q (W : Valuation τ sig (Elt Ideal)) (b : Fin 4) (s : Fin 2048) (o : Fin 4096) :
    (StableHlo.after (hostOps4 (F := Ideal)) W (Proc.devRef .tc main_v14) : S4x2048x4096.Idx → EReal) (ix3 b s o)
      = (W (Proc.devRef .tc main_v12) : S8192x6144.Idx → EReal)
          (ix2 (⟨2048 * b.val + s.val, by have := b.isLt; have := s.isLt; omega⟩ : Fin 8192)
               (⟨o.val, by have := o.isLt; omega⟩ : Fin 6144)) := by
  have e : (StableHlo.after (hostOps4 (F := Ideal)) W (Proc.devRef .tc main_v14) : S4x2048x4096.Idx → EReal)
      = shapeCast S4x2048x4096 (extractStridedSlice S8192x4096 ![0, 0] (W (Proc.devRef .tc main_v12) : S8192x6144.Idx → EReal)
          slices_S8192x6144_S8192x4096_0_0) shapeCasts_S8192x4096_S4x2048x4096 := by
    dsimp only [hostOps4]; after_results <;> rfl
  rw [e]
  have hb := b.isLt; have hs := s.isLt; have ho := o.isLt
  -- unflattening: `(b, s, o)` and `(2048 b + s, o)` have the same row-major position
  refine (shapeCast_apply (s := S8192x4096) (t := S4x2048x4096) _ _ (ix3 b s o)
    (ix2 (⟨2048 * b.val + s.val, by omega⟩ : Fin 8192) o) (by
      rw [Shape.rowMajor_val_two, Shape.rowMajor_val_three]
      show (2048 * b.val + s.val) * 4096 + o.val = (b.val * 2048 + s.val) * 4096 + o.val
      omega)).trans ?_
  -- the band starts at column 0
  exact extractStridedSlice_apply (s := S8192x6144) (t := S8192x4096) _ _ _ _ _ (fun a => match a with
    | ⟨0, _⟩ => by show 2048 * b.val + s.val = 0 + (2048 * b.val + s.val); omega
    | ⟨1, _⟩ => by show o.val = 0 + o.val; omega)

/-- Entry `(b, s, o)` of the second result is row `2048 b + s`, column `4096 + o` of the product. -/
theorem res_k (W : Valuation τ sig (Elt Ideal)) (b : Fin 4) (s : Fin 2048) (o : Fin 1024) :
    (StableHlo.after (hostOps4 (F := Ideal)) W (Proc.devRef .tc main_v16) : S4x2048x1024.Idx → EReal) (ix3 b s o)
      = (W (Proc.devRef .tc main_v12) : S8192x6144.Idx → EReal)
          (ix2 (⟨2048 * b.val + s.val, by have := b.isLt; have := s.isLt; omega⟩ : Fin 8192)
               (⟨4096 + o.val, by have := o.isLt; omega⟩ : Fin 6144)) := by
  have e : (StableHlo.after (hostOps4 (F := Ideal)) W (Proc.devRef .tc main_v16) : S4x2048x1024.Idx → EReal)
      = shapeCast S4x2048x1024 (extractStridedSlice S8192x1024 ![0, 4096] (W (Proc.devRef .tc main_v12) : S8192x6144.Idx → EReal)
          slices_S8192x6144_S8192x1024_0_4096) shapeCasts_S8192x1024_S4x2048x1024 := by
    dsimp only [hostOps4]; after_results <;> rfl
  rw [e]
  have hb := b.isLt; have hs := s.isLt; have ho := o.isLt
  -- unflattening: `(b, s, o)` and `(2048 b + s, o)` have the same row-major position
  refine (shapeCast_apply (s := S8192x1024) (t := S4x2048x1024) _ _ (ix3 b s o)
    (ix2 (⟨2048 * b.val + s.val, by omega⟩ : Fin 8192) o) (by
      rw [Shape.rowMajor_val_two, Shape.rowMajor_val_three]
      show (2048 * b.val + s.val) * 1024 + o.val = (b.val * 2048 + s.val) * 1024 + o.val
      omega)).trans ?_
  -- the band starts at column 4096
  exact extractStridedSlice_apply (s := S8192x6144) (t := S8192x1024) _ _ _ _ _ (fun a => match a with
    | ⟨0, _⟩ => by show 2048 * b.val + s.val = 0 + (2048 * b.val + s.val); omega
    | ⟨1, _⟩ => by show 4096 + o.val = 4096 + o.val; omega)

/-- Entry `(b, s, o)` of the third result is row `2048 b + s`, column `5120 + o` of the product. -/
theorem res_v (W : Valuation τ sig (Elt Ideal)) (b : Fin 4) (s : Fin 2048) (o : Fin 1024) :
    (StableHlo.after (hostOps4 (F := Ideal)) W (Proc.devRef .tc main_v18) : S4x2048x1024.Idx → EReal) (ix3 b s o)
      = (W (Proc.devRef .tc main_v12) : S8192x6144.Idx → EReal)
          (ix2 (⟨2048 * b.val + s.val, by have := b.isLt; have := s.isLt; omega⟩ : Fin 8192)
               (⟨5120 + o.val, by have := o.isLt; omega⟩ : Fin 6144)) := by
  have e : (StableHlo.after (hostOps4 (F := Ideal)) W (Proc.devRef .tc main_v18) : S4x2048x1024.Idx → EReal)
      = shapeCast S4x2048x1024 (extractStridedSlice S8192x1024 ![0, 5120] (W (Proc.devRef .tc main_v12) : S8192x6144.Idx → EReal)
          slices_S8192x6144_S8192x1024_0_5120) shapeCasts_S8192x1024_S4x2048x1024 := by
    dsimp only [hostOps4]; after_results <;> rfl
  rw [e]
  have hb := b.isLt; have hs := s.isLt; have ho := o.isLt
  -- unflattening: `(b, s, o)` and `(2048 b + s, o)` have the same row-major position
  refine (shapeCast_apply (s := S8192x1024) (t := S4x2048x1024) _ _ (ix3 b s o)
    (ix2 (⟨2048 * b.val + s.val, by omega⟩ : Fin 8192) o) (by
      rw [Shape.rowMajor_val_two, Shape.rowMajor_val_three]
      show (2048 * b.val + s.val) * 1024 + o.val = (b.val * 2048 + s.val) * 1024 + o.val
      omega)).trans ?_
  -- the band starts at column 5120
  exact extractStridedSlice_apply (s := S8192x6144) (t := S8192x1024) _ _ _ _ _ (fun a => match a with
    | ⟨0, _⟩ => by show 2048 * b.val + s.val = 0 + (2048 * b.val + s.val); omega
    | ⟨1, _⟩ => by show 5120 + o.val = 5120 + o.val; omega)

/-! ## What a stretch does not write -/

/-- A buffer stretch 0 does not write keeps its contents. -/
theorem keep0 {F : FTy → Type} [FloatOps F] (W : Valuation τ sig (Elt F)) (r : Ref sig .tc) (h : r ∉ hostOps0_W) :
    StableHlo.after (hostOps0 (F := F)) W (Proc.devRef .tc r) = W (Proc.devRef .tc r) :=
  StableHlo.after_of_writes_sub hostOps0 _ hostOps0_writes h

/-- A buffer stretch 1 does not write keeps its contents. -/
theorem keep1 {F : FTy → Type} [FloatOps F] (W : Valuation τ sig (Elt F)) (r : Ref sig .tc) (h : r ∉ hostOps1_W) :
    StableHlo.after (hostOps1 (F := F)) W (Proc.devRef .tc r) = W (Proc.devRef .tc r) :=
  StableHlo.after_of_writes_sub hostOps1 _ hostOps1_writes h

/-- A buffer stretch 2 does not write keeps its contents. -/
theorem keep2 {F : FTy → Type} [FloatOps F] (W : Valuation τ sig (Elt F)) (r : Ref sig .tc) (h : r ∉ hostOps2_W) :
    StableHlo.after (hostOps2 (F := F)) W (Proc.devRef .tc r) = W (Proc.devRef .tc r) :=
  StableHlo.after_of_writes_sub hostOps2 _ hostOps2_writes h

/-- A buffer stretch 3 does not write keeps its contents. -/
theorem keep3 {F : FTy → Type} [FloatOps F] (W : Valuation τ sig (Elt F)) (r : Ref sig .tc) (h : r ∉ hostOps3_W) :
    StableHlo.after (hostOps3 (F := F)) W (Proc.devRef .tc r) = W (Proc.devRef .tc r) :=
  StableHlo.after_of_writes_sub hostOps3 _ hostOps3_writes h

/-- A buffer stretch 4 does not write keeps its contents. -/
theorem keep4 {F : FTy → Type} [FloatOps F] (W : Valuation τ sig (Elt F)) (r : Ref sig .tc) (h : r ∉ hostOps4_W) :
    StableHlo.after (hostOps4 (F := F)) W (Proc.devRef .tc r) = W (Proc.devRef .tc r) :=
  StableHlo.after_of_writes_sub hostOps4 _ hostOps4_writes h

end Cert.KernelIdeal.HostVals
-- ==== Proof.KValueA.lean ====
/-
  The idealized kernel program's buffers at the boundaries between its calls, read back to the arguments.

  No call changes a buffer that is not its output, and a host stretch changes only what it writes. So, walking back
  from the boundary where a buffer is read to the one where it was written: the flattened activations the matrix
  product reads are x reshaped to 8192 rows; the codebook each dequantisation call reads has the codebook in every
  row; the codes and scales it reads are the arguments themselves.
-/
import proofs.«431283_j678604833227_3_alg».proof.Proof.KRun
import proofs.«431283_j678604833227_3_alg».proof.Proof.HostVals
import Idealize.ShloMosaic.PureOps.Ideal
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KRun

variable (m : (ℓ : Loc nD τ sig) → Buf (Elt Ideal) ℓ) (ρ : Dev nD → PrngReg)

/-- The argument arrays, at their literal types. -/
abbrev aX (c : Dev nD) : S4x2048x4096.Idx → EReal := m ((c : Thread nD τ).loc main_arg0)
abbrev aQc (c : Dev nD) : S4096x4096.Idx → BitVec 32 := m ((c : Thread nD τ).loc main_arg1)
abbrev aQs (c : Dev nD) : S4096x32.Idx → EReal := m ((c : Thread nD τ).loc main_arg2)
abbrev aQb (c : Dev nD) : S16.Idx → EReal := m ((c : Thread nD τ).loc main_arg3)
abbrev aKc (c : Dev nD) : S1024x4096.Idx → BitVec 32 := m ((c : Thread nD τ).loc main_arg4)
abbrev aKs (c : Dev nD) : S1024x32.Idx → EReal := m ((c : Thread nD τ).loc main_arg5)
abbrev aKb (c : Dev nD) : S16.Idx → EReal := m ((c : Thread nD τ).loc main_arg6)
abbrev aVc (c : Dev nD) : S1024x4096.Idx → BitVec 32 := m ((c : Thread nD τ).loc main_arg7)
abbrev aVs (c : Dev nD) : S1024x32.Idx → EReal := m ((c : Thread nD τ).loc main_arg8)
abbrev aVb (c : Dev nD) : S16.Idx → EReal := m ((c : Thread nD τ).loc main_arg9)

/-- Row `2048 b + s` of the flattened activations the matrix product is entered with is x(b, s, ·). -/
theorem x_at (c : Dev nD) (b : Fin 4) (s : Fin 2048) (d : Fin 4096) :
    (V7 m ρ c main_v1 : S8192x4096.Idx → EReal) (ix2 (⟨2048 * b.val + s.val, by have := b.isLt; have := s.isLt; omega⟩ : Fin 8192) d)
      = aX m c (ix3 b s d) := by
  have h : V7 m ρ c main_v1 = W1 m ρ c (Proc.devRef .tc main_v1) :=
    (W7_keep m ρ c main_v1 (by decide)).trans <| (W6_of_ne m ρ c main_v1 (by decide)).trans <|
    (W5_keep m ρ c main_v1 (by decide)).trans <| (W4_of_ne m ρ c main_v1 (by decide)).trans <|
    (W3_keep m ρ c main_v1 (by decide)).trans (W2_of_ne m ρ c main_v1 (by decide))
  refine (congrFun h _).trans ((HostVals.xflat (W0 m ρ c) _ d).trans ?_)
  show aX m c _ = aX m c _
  congr 1
  funext a
  match a with
  | ⟨0, _⟩ => exact Fin.ext (by show (2048 * b.val + s.val) / 2048 = b.val; have := s.isLt; omega)
  | ⟨1, _⟩ => exact Fin.ext (by show (2048 * b.val + s.val) % 2048 = s.val; have := s.isLt; omega)
  | ⟨2, _⟩ => rfl

/-- The first dequantisation call is entered with the codebook in every row, and with the codes and scales themselves. -/
theorem q_cb (c : Dev nD) (o : Fin 4096) (v : Fin 16) :
    (V1 m ρ c main_v3 : S4096x16.Idx → EReal) (ix2 o v) = aQb m c (ix1 v) :=
  HostVals.cbrows0 (W0 m ρ c) o v
theorem q_codes (c : Dev nD) : (V1 m ρ c main_arg1 : S4096x4096.Idx → BitVec 32) = aQc m c :=
  W1_keep m ρ c main_arg1 (by decide)
theorem q_scales (c : Dev nD) : (V1 m ρ c main_arg2 : S4096x32.Idx → EReal) = aQs m c :=
  W1_keep m ρ c main_arg2 (by decide)

/-- The second call likewise. -/
theorem k_cb (c : Dev nD) (o : Fin 1024) (v : Fin 16) :
    (V3 m ρ c main_v6 : S1024x16.Idx → EReal) (ix2 o v) = aKb m c (ix1 v) := by
  refine (HostVals.cbrows1 (W2 m ρ c) o v).trans ?_
  exact congrFun ((W2_of_ne m ρ c main_arg6 (by decide)).trans (W1_keep m ρ c main_arg6 (by decide))) _
theorem k_codes (c : Dev nD) : (V3 m ρ c main_arg4 : S1024x4096.Idx → BitVec 32) = aKc m c :=
  (W3_keep m ρ c main_arg4 (by decide)).trans <| (W2_of_ne m ρ c main_arg4 (by decide)).trans (W1_keep m ρ c main_arg4 (by decide))
theorem k_scales (c : Dev nD) : (V3 m ρ c main_arg5 : S1024x32.Idx → EReal) = aKs m c :=
  (W3_keep m ρ c main_arg5 (by decide)).trans <| (W2_of_ne m ρ c main_arg5 (by decide)).trans (W1_keep m ρ c main_arg5 (by decide))

/-- The third call likewise. -/
theorem v_cb (c : Dev nD) (o : Fin 1024) (v : Fin 16) :
    (V5 m ρ c main_v9 : S1024x16.Idx → EReal) (ix2 o v) = aVb m c (ix1 v) := by
  refine (HostVals.cbrows2 (W4 m ρ c) o v).trans ?_
  exact congrFun ((W4_of_ne m ρ c main_arg9 (by decide)).trans <| (W3_keep m ρ c main_arg9 (by decide)).trans <|
    (W2_of_ne m ρ c main_arg9 (by decide)).trans (W1_keep m ρ c main_arg9 (by decide))) _
theorem v_codes (c : Dev nD) : (V5 m ρ c main_arg7 : S1024x4096.Idx → BitVec 32) = aVc m c :=
  (W5_keep m ρ c main_arg7 (by decide)).trans <| (W4_of_ne m ρ c main_arg7 (by decide)).trans <|
  (W3_keep m ρ c main_arg7 (by decide)).trans <| (W2_of_ne m ρ c main_arg7 (by decide)).trans (W1_keep m ρ c main_arg7 (by decide))
theorem v_scales (c : Dev nD) : (V5 m ρ c main_arg8 : S1024x32.Idx → EReal) = aVs m c :=
  (W5_keep m ρ c main_arg8 (by decide)).trans <| (W4_of_ne m ρ c main_arg8 (by decide)).trans <|
  (W3_keep m ρ c main_arg8 (by decide)).trans <| (W2_of_ne m ρ c main_arg8 (by decide)).trans (W1_keep m ρ c main_arg8 (by decide))

/-- What the first call left in its output is what the concatenate reads (no later call or stretch before it writes it);
    likewise the second's and the third's. -/
theorem q_out_kept (c : Dev nD) : W6 m ρ c (Proc.devRef .tc main_v4) = W2 m ρ c (Proc.devRef .tc main_v4) :=
  (W6_of_ne m ρ c main_v4 (by decide)).trans <| (W5_keep m ρ c main_v4 (by decide)).trans <|
  (W4_of_ne m ρ c main_v4 (by decide)).trans (W3_keep m ρ c main_v4 (by decide))
theorem k_out_kept (c : Dev nD) : W6 m ρ c (Proc.devRef .tc main_v7) = W4 m ρ c (Proc.devRef .tc main_v7) :=
  (W6_of_ne m ρ c main_v7 (by decide)).trans (W5_keep m ρ c main_v7 (by decide))

end Cert.KernelIdeal.KValue

end
-- ==== Proof.Spec.lean ====
/-
  What the program computes, as functions of its arguments over the extended reals.

  A weight matrix is stored as integer codes into a sixteen-entry codebook, with one scale per row and per
  group of 128 consecutive columns: the weight at (o, d) is codebook[code(o, d)] * scale(o, d / 128). A code
  selects the entry numbered by its low four bits. Each of the three outputs is x times the transpose of
  its weight matrix: out(b, s, o) = sum over d of x(b, s, d) * weight(o, d).

  Also here: a sum over 4096 terms is the sum of its four consecutive quarters, added to zero one quarter
  at a time (only associativity of + on the extended reals is used, so no finiteness is needed).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SX : Shape := ⟨3, ![4, 2048, 4096]⟩
abbrev SCb : Shape := ⟨1, ![16]⟩
abbrev SCq : Shape := ⟨2, ![4096, 4096]⟩
abbrev SSq : Shape := ⟨2, ![4096, 32]⟩
abbrev SCk : Shape := ⟨2, ![1024, 4096]⟩
abbrev SSk : Shape := ⟨2, ![1024, 32]⟩

/-- The codebook entry a code selects: the one numbered by the code's low four bits. -/
def entry (cb : SCb.Idx → EReal) (code : BitVec 32) : EReal :=
  cb (ix1 (⟨code.toNat % 16, Nat.mod_lt _ (by decide)⟩ : Fin 16))

/-- The group of 128 columns a column lies in. -/
def grp (d : Fin 4096) : Fin 32 := ⟨d.val / 128, by have := d.isLt; omega⟩

/-- The dequantised weight at row `o`, column `d` (4096 rows). -/
def wq (cb : SCb.Idx → EReal) (codes : SCq.Idx → BitVec 32) (sc : SSq.Idx → EReal) (o : Fin 4096) (d : Fin 4096) : EReal :=
  entry cb (codes (ix2 o d)) * sc (ix2 o (grp d))

/-- The dequantised weight at row `o`, column `d` (1024 rows). -/
def wk (cb : SCb.Idx → EReal) (codes : SCk.Idx → BitVec 32) (sc : SSk.Idx → EReal) (o : Fin 1024) (d : Fin 4096) : EReal :=
  entry cb (codes (ix2 o d)) * sc (ix2 o (grp d))

/-- The first projection at batch `b`, position `s`, output feature `o`. -/
def outQ (x : SX.Idx → EReal) (cb : SCb.Idx → EReal) (codes : SCq.Idx → BitVec 32) (sc : SSq.Idx → EReal)
    (b : Fin 4) (s : Fin 2048) (o : Fin 4096) : EReal :=
  ∑ d : Fin 4096, x (ix3 b s d) * wq cb codes sc o d

/-- The second and third projections (1024 output features each). -/
def outK (x : SX.Idx → EReal) (cb : SCb.Idx → EReal) (codes : SCk.Idx → BitVec 32) (sc : SSk.Idx → EReal)
    (b : Fin 4) (s : Fin 2048) (o : Fin 1024) : EReal :=
  ∑ d : Fin 4096, x (ix3 b s d) * wk cb codes sc o d

/-- Every code of an array lies in the codebook's range, read as a signed integer. -/
def InRange {S : Shape} (codes : S.Idx → BitVec 32) : Prop := ∀ j, 0 ≤ (codes j).toInt ∧ (codes j).toInt < 16

/-- The `q`-th quarter of the columns: column `1024 q + j`. -/
def qcol (q : Fin 4) (j : Fin 1024) : Fin 4096 := ⟨1024 * q.val + j.val, by have := q.isLt; have := j.isLt; omega⟩

/-- A sum over the 4096 columns is zero plus its four quarters, added in order. -/
theorem sum_quarters (f : Fin 4096 → EReal) :
    ∑ d : Fin 4096, f d
      = (((0 + ∑ j : Fin 1024, f (qcol 0 j)) + ∑ j : Fin 1024, f (qcol 1 j)) + ∑ j : Fin 1024, f (qcol 2 j))
          + ∑ j : Fin 1024, f (qcol 3 j) := by
  -- the columns are the pairs (quarter, position in the quarter)
  have e : ∑ d : Fin 4096, f d = ∑ q : Fin 4, ∑ j : Fin 1024, f (qcol q j) := by
    rw [← Fintype.sum_prod_type']
    refine (Fintype.sum_equiv (finProdFinEquiv (m := 4) (n := 1024)) (fun p => f (qcol p.1 p.2)) f ?_).symm
    intro p
    refine congrArg f (Fin.ext ?_)
    simp only [qcol, finProdFinEquiv_apply_val]
    omega
  rw [e, Fin.sum_univ_four, zero_add]

end Cert.Spec

end
-- ==== Proof.Dq0Block.lean ====
/-
  What the dequantisation body leaves in its output block, entry by entry, over the extended reals.

  At row r and column c of the 64 x 4096 block the body has selected, by a four-level binary tree on the low four
  bits of the code at (r, c), one of the sixteen codebook entries of row r, and multiplied it by the scale of
  row r and of the group of 128 columns that c lies in; the final change of float format is the identity on
  the extended reals. So the entry is codebook(r, code(r, c) mod 16) * scale(r, c / 128).

  The proof has four parts. (1) On a 32-bit word w, the test (w and 2^k) != 0 is bit k of the number of w, so the
  tree of selects on bits 0 to 3 over sixteen values picks value number (w mod 16). (2) A column broadcast along the
  rows, a column loaded from a whole buffer, and a band of 128 columns cut from the block, each read at an entry.
  (3) The selected weight at (r, c) is therefore codebook(r, code(r, c) mod 16), and the slab stored at column
  offset 128 g has at (r, j) the entry weight(r, 128 g + j) * scale(r, g). (4) The thirty-two slabs are blocks of
  one function of the output index, and they tile the output block, so the block read back is that function.
-/
import proofs.«431283_j678604833227_3_alg».proof.Proof.Dq0
import proofs.«431283_j678604833227_3_alg».proof.Proof.Spec
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Dq0

open Idealize.ShloMosaic Idealize.ShloMosaic.TcCoe Idealize.ShloMosaic.ValueIdx Idealize.ShloMosaic.Tactic
open Idealize.SL Idealize.SL.Sem
open Cert.KernelIdeal Cert.KernelIdeal.Gen

/-! ## The four bit tests of a code select the entry numbered by its low four bits -/

section Bits

/-- Masking a word with a power of two and comparing with zero tests that bit of the word's number. -/
theorem test_bit (w m : BitVec 32) (k : ℕ) (hm : m = BitVec.twoPow 32 k) (hne : BitVec.twoPow 32 k ≠ 0#32) :
    IntOp.cmpi .ne (IntOp.andi w m) 0#32 = BitVec.ofBool (w.toNat.testBit k) := by
  subst hm
  unfold IntOp.cmpi IntOp.andi
  rw [BitVec.and_twoPow, BitVec.testBit_toNat]
  cases w.getLsbD k
  · rfl
  · exact congrArg BitVec.ofBool (bne_iff_ne.mpr hne)

/-- A select on a one-bit word that encodes a truth value is the choice by that truth value. -/
theorem select_ofBool {α : Type} (b : Bool) (A B : α) : Scalar.select (BitVec.ofBool b) A B = if b then A else B := by
  cases b
  · exact if_neg (by decide)
  · exact if_pos rfl

/-- The select on bit k of a word, by the quotient and remainder of the word's number. -/
theorem select_bit {α : Type} (w m : BitVec 32) (k d : ℕ) (hm : m = BitVec.twoPow 32 k) (hne : BitVec.twoPow 32 k ≠ 0#32)
    (hd : d = 2 ^ k) (A B : α) :
    Scalar.select (IntOp.cmpi .ne (IntOp.andi w m) 0#32) A B = if w.toNat / d % 2 = 1 then A else B := by
  subst hd
  rw [test_bit w m k hm hne, select_ofBool, Nat.testBit_eq_decide_div_mod_eq]
  by_cases h : w.toNat / 2 ^ k % 2 = 1
  · rw [if_pos h, decide_eq_true h]; rfl
  · rw [if_neg h, decide_eq_false h]; rfl

/-- The four-level tree of selects on bits 0, 1, 2, 3 of a word, over sixteen values, picks the value numbered by the
    word's number modulo 16. -/
theorem tree16 {α : Type} (w : BitVec 32) (e : Fin 16 → α) :
    Scalar.select (IntOp.cmpi .ne (IntOp.andi w 8#32) 0#32)
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨15, by decide⟩) (e ⟨14, by decide⟩))
          (Scalar.select (IntOp.cmpi .ne (IntOp.andi w 1#32) 0#32) (e ⟨13, by decide⟩) (e ⟨12, by decide⟩)))
        (Scalar.select (IntOp.cmpi .ne (IntOp.andi w 2#32) 0#32)
          (Scalar.select (IntOp.cmpi .ne (IntOp.andi w 1#32) 0#32) (e ⟨11, by decide⟩) (e ⟨10, by decide⟩))
          (Scalar.select (IntOp.cmpi .ne (IntOp.andi w 1#32) 0#32) (e ⟨9, by decide⟩) (e ⟨8, by decide⟩))))
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨7, by decide⟩) (e ⟨6, by decide⟩))
          (Scalar.select (IntOp.cmpi .ne (IntOp.andi w 1#32) 0#32) (e ⟨5, by decide⟩) (e ⟨4, by decide⟩)))
        (Scalar.select (IntOp.cmpi .ne (IntOp.andi w 2#32) 0#32)
          (Scalar.select (IntOp.cmpi .ne (IntOp.andi w 1#32) 0#32) (e ⟨3, by decide⟩) (e ⟨2, by decide⟩))
          (Scalar.select (IntOp.cmpi .ne (IntOp.andi w 1#32) 0#32) (e ⟨1, by decide⟩) (e ⟨0, by decide⟩))))
      = e ⟨w.toNat % 16, Nat.mod_lt _ (by decide)⟩ := by
  simp only [select_bit w 1#32 0 1 (by decide) (by decide) (by decide), select_bit w 2#32 1 2 (by decide) (by decide) (by decide),
    select_bit w 4#32 2 4 (by decide) (by decide) (by decide), select_bit w 8#32 3 8 (by decide) (by decide) (by decide)]
  split_ifs <;> exact congrArg e (Fin.ext (by dsimp only; omega))

end Bits

/-! ## Layout operations of the body read at an entry -/

section Layout

variable {α : Type}

/-- A column of n entries broadcast along the rows to n by m reads, at (a, j), the column's entry of row a. -/
theorem broadcastTo_a1_ab_apply {n m : ℕ} (v : (⟨2, ![n, 1]⟩ : Shape).Idx → α)
    (h : (⟨2, ![n, 1]⟩ : Shape).Broadcasts ⟨2, ![n, m]⟩) (a : Fin n) (j : Fin m) :
    broadcastTo ⟨2, ![n, m]⟩ v h (ix2 a j) = v (ix2 a (0 : Fin 1)) := by
  refine broadcastTo_apply v h (ix2 a j) (ix2 a (0 : Fin 1)) fun ax => ?_
  match ax with
  | ⟨0, _⟩ =>
    show a.val = if n = 1 then 0 else a.val
    split
    · have := a.isLt; omega
    · rfl
  | ⟨1, _⟩ => rfl

/-- The rectangle of all n rows and the one column k lies inside an n by m matrix. -/
theorem inb_col {n m : ℕ} (k : ℕ) (hk : k < m) :
    ∀ ax, (![0, k] : Fin 2 → ℕ) ax + (![n, 1] : Fin 2 → ℕ) ax ≤ (⟨2, ![n, m]⟩ : Shape).size ax :=
  Rect.inb₂ (by show 0 + n ≤ n; omega) (by show k + 1 ≤ m; omega)

/-- Column k of a matrix, read through the rectangle of its rows and that column, has at row a the matrix's entry (a, k). -/
theorem ld_col_apply {n m : ℕ} (X : (⟨2, ![n, m]⟩ : Shape).Idx → α) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    X ((Rect.unit (s := ⟨2, ![n, m]⟩) ![0, k] ![n, 1] inb).idx (ix2 a u)) = X (ix2 a (⟨k, hk⟩ : Fin m)) := by
  refine congrArg X (funext fun ax => Fin.ext ?_)
  match ax with
  | ⟨0, _⟩ => show 0 + 1 * a.val = a.val; omega
  | ⟨1, _⟩ => show k + 1 * u.val = k; have := u.isLt; omega

end Layout

/-- The zero offsets of a rank-two access, as the constant function. -/
theorem offsets_zero2 : (![0, 0] : Fin 2 → ℕ) = fun _ => 0 := funext fun a => by fin_cases a <;> rfl

/-- A whole buffer holding X, loaded in full, reads X. -/
theorem load_whole {S : Shape} {e : EltTy} (arg : Memref sig .tc .vmem S e) (harg : arg.IsWhole) (X : Vec Ideal S e)
    {off : Fin S.rank → ℕ} (hoff : off = fun _ => 0) (inb : ∀ a, off a + S.size a ≤ S.size a) :
    View.readAt (Elt Ideal) arg.view (Rect.unit off S.size inb).toLoadRect (harg.unread X) = X := by
  rw [View.readAt_eq_ld, harg.read_unread]
  exact View.ld_unit_zero hoff inb X

/-- A whole n by m buffer holding X, loaded at the rectangle of column k, reads at row a the entry X (a, k). -/
theorem load_col {n m : ℕ} {e : EltTy} (arg : Memref sig .tc .vmem ⟨2, ![n, m]⟩ e) (harg : arg.IsWhole)
    (X : Vec Ideal ⟨2, ![n, m]⟩ e) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    View.readAt (Elt Ideal) arg.view (Rect.unit (s := ⟨2, ![n, m]⟩) ![0, k] ![n, 1] inb).toLoadRect (harg.unread X) (ix2 a u)
      = X (ix2 a (⟨k, hk⟩ : Fin m)) := by
  rw [View.readAt_eq_ld, harg.read_unread]
  exact ld_col_apply X k hk inb a u

/-! ## The selected weight and one stored slab -/

/-- The selected weight at (a, k): the sixteen loaded codebook columns, broadcast along the row and chosen among by the
    four bit tests of the code at (a, k), give the column numbered by the code's low four bits, at row a. -/
theorem weight_apply (v0 : Vec Ideal S64x4096 .i32) (cs : Fin 16 → Vec Ideal S64x1 .f32) (e : Fin 16 → Elt Ideal .f32)
    (a : Fin 64) (k : Fin 4096) (hc : ∀ n : Fin 16, cs n (ix2 a (0 : Fin 1)) = e n) :
    k0_pay14 (F := Ideal) (k0_pay2 (F := Ideal) v0) (k0_pay3 (F := Ideal) v0) (k0_pay4 (F := Ideal) v0) (k0_pay5 (F := Ideal) v0)
        (k0_pay6 (F := Ideal) v0 (cs ⟨1, by decide⟩) (cs ⟨0, by decide⟩))
        (k0_pay7 (F := Ideal) v0 (cs ⟨3, by decide⟩) (cs ⟨2, by decide⟩))
        (k0_pay9 (F := Ideal) (k0_pay2 (F := Ideal) v0) (k0_pay8 (F := Ideal) (cs ⟨5, by decide⟩)) (cs ⟨4, by decide⟩))
        (k0_pay10 (F := Ideal) (k0_pay2 (F := Ideal) v0) (cs ⟨7, by decide⟩) (cs ⟨6, by decide⟩))
        (k0_pay11 (F := Ideal) (k0_pay2 (F := Ideal) v0) (cs ⟨9, by decide⟩) (cs ⟨8, by decide⟩))
        (k0_pay12 (F := Ideal) (k0_pay2 (F := Ideal) v0) (cs ⟨11, by decide⟩) (cs ⟨10, by decide⟩))
        (k0_pay13 (F := Ideal) (k0_pay2 (F := Ideal) v0) (cs ⟨13, by decide⟩) (cs ⟨12, by decide⟩))
        (cs ⟨15, by decide⟩) (cs ⟨14, by decide⟩) (ix2 a k)
      = e ⟨(v0 (ix2 a k)).toNat % 16, Nat.mod_lt _ (by decide)⟩ := by
  have L : ∀ n : Fin 16, broadcastTo S64x4096 (shapeCast S64x1 (shapeCast S64x1 (cs n) shapeCasts_S64x1_S64x1)
      shapeCasts_S64x1_S64x1) broadcasts_S64x1_S64x4096 (ix2 a k) = e n := fun n => by
    rw [broadcastTo_a1_ab_apply, shapeCast_self, shapeCast_self]; exact hc n
  refine Eq.trans ?_ (tree16 (v0 (ix2 a k)) e)
  simp only [← L]
  rfl

/-- One stored slab at (a, j): the weight at column o + j of row a, times the scale column's entry of row a (the change
    of float format is the identity on the extended reals). -/
theorem slab_apply (o : ℕ) (W : FVec Ideal S64x4096 .f32) (s : Vec Ideal S64x1 .f32)
    (hS : S64x4096.Slices ![0, o] S64x128) (hB : S64x1.Broadcasts S64x128) (hT : FTy.bf16.bits < FTy.f32.bits)
    (a : Fin 64) (j : Fin 128) (k : Fin 4096) (hk : k.val = o + j.val) :
    (truncf .bf16 (mulf (extractStridedSlice S64x128 ![0, o] W hS) (broadcastTo S64x128 s hB)) hT : FVec Ideal S64x128 .bf16) (ix2 a j)
      = W (ix2 a k) * s (ix2 a (0 : Fin 1)) := by
  show extractStridedSlice S64x128 ![0, o] W hS (ix2 a j) * broadcastTo S64x128 s hB (ix2 a j) = _
  rw [slice2_axis1_apply o W hS a j k hk, broadcastTo_a1_ab_apply s hB a j]

/-- The entry of the dequantised block at an index: the codebook entry of the index's row that the low four bits of the
    code there number, times the scale of that row and of the index's group of 128 columns. -/
def blockAt (x0 : Vec Ideal S64x16 .f32) (x1 : Vec Ideal S64x4096 .i32) (x2 : Vec Ideal S64x32 .f32) (y : S64x4096.Idx) :
    Elt Ideal .bf16 :=
  x0 (ix2 (⟨(y 0).val, idx2_lt0 y⟩ : Fin 64) (⟨(x1 y).toNat % 16, Nat.mod_lt _ (by decide)⟩ : Fin 16))
    * x2 (ix2 (⟨(y 0).val, idx2_lt0 y⟩ : Fin 64) (Cert.Spec.grp ⟨(y 1).val, idx2_lt1 y⟩))

/-- The slab stored at column offset o = 128 g is the block's entries on its rectangle, given that the weight is the
    selected codebook entry and the scale column is column g of the scales. -/
theorem slab_ok (x0 : Vec Ideal S64x16 .f32) (x1 : Vec Ideal S64x4096 .i32) (x2 : Vec Ideal S64x32 .f32)
    (g : Fin 32) (o : ℕ) (ho : o = 128 * g.val)
    (inb : ∀ ax, (![0, o] : Fin 2 → ℕ) ax + (![64, 128] : Fin 2 → ℕ) ax ≤ S64x4096.size ax)
    (W : FVec Ideal S64x4096 .f32) (s : Vec Ideal S64x1 .f32)
    (hS : S64x4096.Slices ![0, o] S64x128) (hB : S64x1.Broadcasts S64x128) (hT : FTy.bf16.bits < FTy.f32.bits)
    (hW : ∀ (a : Fin 64) (k : Fin 4096),
      W (ix2 a k) = x0 (ix2 a (⟨(x1 (ix2 a k)).toNat % 16, Nat.mod_lt _ (by decide)⟩ : Fin 16)))
    (hs : ∀ a : Fin 64, s (ix2 a (0 : Fin 1)) = x2 (ix2 a g))
    (x : S64x128.Idx) :
    (truncf .bf16 (mulf (extractStridedSlice S64x128 ![0, o] W hS) (broadcastTo S64x128 s hB)) hT : FVec Ideal S64x128 .bf16) x
      = blockAt x0 x1 x2 ((Rect.unit (s := S64x4096) ![0, o] ![64, 128] inb).emb x) := by
  obtain ⟨a, j, rfl⟩ : ∃ (a : Fin 64) (j : Fin 128), x = ix2 a j := ⟨x 0, x 1, eq_ix2 x⟩
  have hk : o + j.val < 4096 := by have := g.isLt; have := j.isLt; omega
  have hg : Cert.Spec.grp (⟨o + j.val, hk⟩ : Fin 4096) = g :=
    Fin.ext (by show (o + j.val) / 128 = g.val; have := j.isLt; omega)
  have he : (Rect.unit (s := S64x4096) ![0, o] ![64, 128] inb).emb (ix2 a j) = ix2 a (⟨o + j.val, hk⟩ : Fin 4096) := by
    funext ax
    apply Fin.ext
    match ax with
    | ⟨0, _⟩ => show 0 + 1 * a.val = a.val; omega
    | ⟨1, _⟩ => show o + 1 * j.val = o + j.val; omega
  rw [slab_apply o W s hS hB hT a j ⟨o + j.val, hk⟩ rfl, hW, hs, he]
  show _ = x0 (ix2 a _) * x2 (ix2 a (Cert.Spec.grp (⟨o + j.val, hk⟩ : Fin 4096)))
  rw [hg]

/-! ## Every stored piece is the block on its rectangle -/

/-- Each of the thirty-two pieces the body's run found holds, at each of its entries, the dequantised block's entry at the
    place of the output block the piece's rectangle puts it. -/
theorem pieces_ok (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32) :
    ∀ p ∈ (kernelRun (F := Ideal) c i arg1 harg1 arg2 harg2 arg3 harg3 arg4 harg4 x0 x1 x2).1,
      ∀ x : p.1.shape.Idx, p.2 x = blockAt x0 x1 x2 (p.1.emb x) := by
  unfold kernelRun
  dsimp only
  sl_unfold_words
  unfold k0_pay15 k0_pay16 k0_pay17 k0_pay18
  generalize hV : View.readAt (Elt Ideal) arg2.view _ (harg2.unread x1) = V0
  have hV0 : x1 = V0 := by rw [← hV]; exact (load_whole arg2 harg2 x1 offsets_zero2 _).symm
  subst hV0
  generalize hW : k0_pay14 _ _ _ _ _ _ _ _ _ _ _ _ _ = W
  have hWa : ∀ (a : Fin 64) (k : Fin 4096),
      W (ix2 a k) = x0 (ix2 a (⟨(x1 (ix2 a k)).toNat % 16, Nat.mod_lt _ (by decide)⟩ : Fin 16)) := by
    subst hW
    intro a k
    exact weight_apply x1
      (fun n => View.readAt (Elt Ideal) arg1.view
        (Rect.unit (s := S64x16) ![0, n.val] S64x1.size (inb_col n.val n.isLt)).toLoadRect (harg1.unread x0))
      (fun n => x0 (ix2 a n)) a k (fun n => load_col arg1 harg1 x0 n.val n.isLt _ a 0)
  refine List.forall_mem_cons.mpr ⟨?_, ?_⟩
  · exact slab_ok x0 x1 x2 ⟨31, by decide⟩ 3968 rfl inb_S64x4096_S64x128_0_3968 W _
      slices_S64x4096_o0_3968_S64x128 broadcasts_S64x1_S64x128 bitsLt_bf16_f32 hWa
      (fun a => load_col arg3 harg3 x2 31 (by decide) inb_S64x32_S64x1_0_31 a 0)
  refine List.forall_mem_cons.mpr ⟨?_, ?_⟩
  · exact slab_ok x0 x1 x2 ⟨30, by decide⟩ 3840 rfl inb_S64x4096_S64x128_0_3840 W _
      slices_S64x4096_o0_3840_S64x128 broadcasts_S64x1_S64x128 bitsLt_bf16_f32 hWa
      (fun a => load_col arg3 harg3 x2 30 (by decide) inb_S64x32_S64x1_0_30 a 0)
  refine List.forall_mem_cons.mpr ⟨?_, ?_⟩
  · exact slab_ok x0 x1 x2 ⟨29, by decide⟩ 3712 rfl inb_S64x4096_S64x128_0_3712 W _
      slices_S64x4096_o0_3712_S64x128 broadcasts_S64x1_S64x128 bitsLt_bf16_f32 hWa
      (fun a => load_col arg3 harg3 x2 29 (by decide) inb_S64x32_S64x1_0_29 a 0)
  refine List.forall_mem_cons.mpr ⟨?_, ?_⟩
  · exact slab_ok x0 x1 x2 ⟨28, by decide⟩ 3584 rfl inb_S64x4096_S64x128_0_3584 W _
      slices_S64x4096_o0_3584_S64x128 broadcasts_S64x1_S64x128 bitsLt_bf16_f32 hWa
      (fun a => load_col arg3 harg3 x2 28 (by decide) inb_S64x32_S64x1_0_28 a 0)
  refine List.forall_mem_cons.mpr ⟨?_, ?_⟩
  · exact slab_ok x0 x1 x2 ⟨27, by decide⟩ 3456 rfl inb_S64x4096_S64x128_0_3456 W _
      slices_S64x4096_o0_3456_S64x128 broadcasts_S64x1_S64x128 bitsLt_bf16_f32 hWa
      (fun a => load_col arg3 harg3 x2 27 (by decide) inb_S64x32_S64x1_0_27 a 0)
  refine List.forall_mem_cons.mpr ⟨?_, ?_⟩
  · exact slab_ok x0 x1 x2 ⟨26, by decide⟩ 3328 rfl inb_S64x4096_S64x128_0_3328 W _
      slices_S64x4096_o0_3328_S64x128 broadcasts_S64x1_S64x128 bitsLt_bf16_f32 hWa
      (fun a => load_col arg3 harg3 x2 26 (by decide) inb_S64x32_S64x1_0_26 a 0)
  refine List.forall_mem_cons.mpr ⟨?_, ?_⟩
  · exact slab_ok x0 x1 x2 ⟨25, by decide⟩ 3200 rfl inb_S64x4096_S64x128_0_3200 W _
      slices_S64x4096_o0_3200_S64x128 broadcasts_S64x1_S64x128 bitsLt_bf16_f32 hWa
      (fun a => load_col arg3 harg3 x2 25 (by decide) inb_S64x32_S64x1_0_25 a 0)
  refine List.forall_mem_cons.mpr ⟨?_, ?_⟩
  · exact slab_ok x0 x1 x2 ⟨24, by decide⟩ 3072 rfl inb_S64x4096_S64x128_0_3072 W _
      slices_S64x4096_o0_3072_S64x128 broadcasts_S64x1_S64x128 bitsLt_bf16_f32 hWa
      (fun a => load_col arg3 harg3 x2 24 (by decide) inb_S64x32_S64x1_0_24 a 0)
  refine List.forall_mem_cons.mpr ⟨?_, ?_⟩
  · exact slab_ok x0 x1 x2 ⟨23, by decide⟩ 2944 rfl inb_S64x4096_S64x128_0_2944 W _
      slices_S64x4096_o0_2944_S64x128 broadcasts_S64x1_S64x128 bitsLt_bf16_f32 hWa
      (fun a => load_col arg3 harg3 x2 23 (by decide) inb_S64x32_S64x1_0_23 a 0)
  refine List.forall_mem_cons.mpr ⟨?_, ?_⟩
  · exact slab_ok x0 x1 x2 ⟨22, by decide⟩ 2816 rfl inb_S64x4096_S64x128_0_2816 W _
      slices_S64x4096_o0_2816_S64x128 broadcasts_S64x1_S64x128 bitsLt_bf16_f32 hWa
      (fun a => load_col arg3 harg3 x2 22 (by decide) inb_S64x32_S64x1_0_22 a 0)
  refine List.forall_mem_cons.mpr ⟨?_, ?_⟩
  · exact slab_ok x0 x1 x2 ⟨21, by decide⟩ 2688 rfl inb_S64x4096_S64x128_0_2688 W _
      slices_S64x4096_o0_2688_S64x128 broadcasts_S64x1_S64x128 bitsLt_bf16_f32 hWa
      (fun a => load_col arg3 harg3 x2 21 (by decide) inb_S64x32_S64x1_0_21 a 0)
  refine List.forall_mem_cons.mpr ⟨?_, ?_⟩
  · exact slab_ok x0 x1 x2 ⟨20, by decide⟩ 2560 rfl inb_S64x4096_S64x128_0_2560 W _
      slices_S64x4096_o0_2560_S64x128 broadcasts_S64x1_S64x128 bitsLt_bf16_f32 hWa
      (fun a => load_col arg3 harg3 x2 20 (by decide) inb_S64x32_S64x1_0_20 a 0)
  refine List.forall_mem_cons.mpr ⟨?_, ?_⟩
  · exact slab_ok x0 x1 x2 ⟨19, by decide⟩ 2432 rfl inb_S64x4096_S64x128_0_2432 W _
      slices_S64x4096_o0_2432_S64x128 broadcasts_S64x1_S64x128 bitsLt_bf16_f32 hWa
      (fun a => load_col arg3 harg3 x2 19 (by decide) inb_S64x32_S64x1_0_19 a 0)
  refine List.forall_mem_cons.mpr ⟨?_, ?_⟩
  · exact slab_ok x0 x1 x2 ⟨18, by decide⟩ 2304 rfl inb_S64x4096_S64x128_0_2304 W _
      slices_S64x4096_o0_2304_S64x128 broadcasts_S64x1_S64x128 bitsLt_bf16_f32 hWa
      (fun a => load_col arg3 harg3 x2 18 (by decide) inb_S64x32_S64x1_0_18 a 0)
  refine List.forall_mem_cons.mpr ⟨?_, ?_⟩
  · exact slab_ok x0 x1 x2 ⟨17, by decide⟩ 2176 rfl inb_S64x4096_S64x128_0_2176 W _
      slices_S64x4096_o0_2176_S64x128 broadcasts_S64x1_S64x128 bitsLt_bf16_f32 hWa
      (fun a => load_col arg3 harg3 x2 17 (by decide) inb_S64x32_S64x1_0_17 a 0)
  refine List.forall_mem_cons.mpr ⟨?_, ?_⟩
  · exact slab_ok x0 x1 x2 ⟨16, by decide⟩ 2048 rfl inb_S64x4096_S64x128_0_2048 W _
      slices_S64x4096_o0_2048_S64x128 broadcasts_S64x1_S64x128 bitsLt_bf16_f32 hWa
      (fun a => load_col arg3 harg3 x2 16 (by decide) inb_S64x32_S64x1_0_16 a 0)
  refine List.forall_mem_cons.mpr ⟨?_, ?_⟩
  · exact slab_ok x0 x1 x2 ⟨15, by decide⟩ 1920 rfl inb_S64x4096_S64x128_0_1920 W _
      slices_S64x4096_o0_1920_S64x128 broadcasts_S64x1_S64x128 bitsLt_bf16_f32 hWa
      (fun a => load_col arg3 harg3 x2 15 (by decide) inb_S64x32_S64x1_0_15 a 0)
  refine List.forall_mem_cons.mpr ⟨?_, ?_⟩
  · exact slab_ok x0 x1 x2 ⟨14, by decide⟩ 1792 rfl inb_S64x4096_S64x128_0_1792 W _
      slices_S64x4096_o0_1792_S64x128 broadcasts_S64x1_S64x128 bitsLt_bf16_f32 hWa
      (fun a => load_col arg3 harg3 x2 14 (by decide) inb_S64x32_S64x1_0_14 a 0)
  refine List.forall_mem_cons.mpr ⟨?_, ?_⟩
  · exact slab_ok x0 x1 x2 ⟨13, by decide⟩ 1664 rfl inb_S64x4096_S64x128_0_1664 W _
      slices_S64x4096_o0_1664_S64x128 broadcasts_S64x1_S64x128 bitsLt_bf16_f32 hWa
      (fun a => load_col arg3 harg3 x2 13 (by decide) inb_S64x32_S64x1_0_13 a 0)
  refine List.forall_mem_cons.mpr ⟨?_, ?_⟩
  · exact slab_ok x0 x1 x2 ⟨12, by decide⟩ 1536 rfl inb_S64x4096_S64x128_0_1536 W _
      slices_S64x4096_o0_1536_S64x128 broadcasts_S64x1_S64x128 bitsLt_bf16_f32 hWa
      (fun a => load_col arg3 harg3 x2 12 (by decide) inb_S64x32_S64x1_0_12 a 0)
  refine List.forall_mem_cons.mpr ⟨?_, ?_⟩
  · exact slab_ok x0 x1 x2 ⟨11, by decide⟩ 1408 rfl inb_S64x4096_S64x128_0_1408 W _
      slices_S64x4096_o0_1408_S64x128 broadcasts_S64x1_S64x128 bitsLt_bf16_f32 hWa
      (fun a => load_col arg3 harg3 x2 11 (by decide) inb_S64x32_S64x1_0_11 a 0)
  refine List.forall_mem_cons.mpr ⟨?_, ?_⟩
  · exact slab_ok x0 x1 x2 ⟨10, by decide⟩ 1280 rfl inb_S64x4096_S64x128_0_1280 W _
      slices_S64x4096_o0_1280_S64x128 broadcasts_S64x1_S64x128 bitsLt_bf16_f32 hWa
      (fun a => load_col arg3 harg3 x2 10 (by decide) inb_S64x32_S64x1_0_10 a 0)
  refine List.forall_mem_cons.mpr ⟨?_, ?_⟩
  · exact slab_ok x0 x1 x2 ⟨9, by decide⟩ 1152 rfl inb_S64x4096_S64x128_0_1152 W _
      slices_S64x4096_o0_1152_S64x128 broadcasts_S64x1_S64x128 bitsLt_bf16_f32 hWa
      (fun a => load_col arg3 harg3 x2 9 (by decide) inb_S64x32_S64x1_0_9 a 0)
  refine List.forall_mem_cons.mpr ⟨?_, ?_⟩
  · exact slab_ok x0 x1 x2 ⟨8, by decide⟩ 1024 rfl inb_S64x4096_S64x128_0_1024 W _
      slices_S64x4096_o0_1024_S64x128 broadcasts_S64x1_S64x128 bitsLt_bf16_f32 hWa
      (fun a => load_col arg3 harg3 x2 8 (by decide) inb_S64x32_S64x1_0_8 a 0)
  refine List.forall_mem_cons.mpr ⟨?_, ?_⟩
  · exact slab_ok x0 x1 x2 ⟨7, by decide⟩ 896 rfl inb_S64x4096_S64x128_0_896 W _
      slices_S64x4096_o0_896_S64x128 broadcasts_S64x1_S64x128 bitsLt_bf16_f32 hWa
      (fun a => load_col arg3 harg3 x2 7 (by decide) inb_S64x32_S64x1_0_7 a 0)
  refine List.forall_mem_cons.mpr ⟨?_, ?_⟩
  · exact slab_ok x0 x1 x2 ⟨6, by decide⟩ 768 rfl inb_S64x4096_S64x128_0_768 W _
      slices_S64x4096_o0_768_S64x128 broadcasts_S64x1_S64x128 bitsLt_bf16_f32 hWa
      (fun a => load_col arg3 harg3 x2 6 (by decide) inb_S64x32_S64x1_0_6 a 0)
  refine List.forall_mem_cons.mpr ⟨?_, ?_⟩
  · exact slab_ok x0 x1 x2 ⟨5, by decide⟩ 640 rfl inb_S64x4096_S64x128_0_640 W _
      slices_S64x4096_o0_640_S64x128 broadcasts_S64x1_S64x128 bitsLt_bf16_f32 hWa
      (fun a => load_col arg3 harg3 x2 5 (by decide) inb_S64x32_S64x1_0_5 a 0)
  refine List.forall_mem_cons.mpr ⟨?_, ?_⟩
  · exact slab_ok x0 x1 x2 ⟨4, by decide⟩ 512 rfl inb_S64x4096_S64x128_0_512 W _
      slices_S64x4096_o0_512_S64x128 broadcasts_S64x1_S64x128 bitsLt_bf16_f32 hWa
      (fun a => load_col arg3 harg3 x2 4 (by decide) inb_S64x32_S64x1_0_4 a 0)
  refine List.forall_mem_cons.mpr ⟨?_, ?_⟩
  · exact slab_ok x0 x1 x2 ⟨3, by decide⟩ 384 rfl inb_S64x4096_S64x128_0_384 W _
      slices_S64x4096_o0_384_S64x128 broadcasts_S64x1_S64x128 bitsLt_bf16_f32 hWa
      (fun a => load_col arg3 harg3 x2 3 (by decide) inb_S64x32_S64x1_0_3 a 0)
  refine List.forall_mem_cons.mpr ⟨?_, ?_⟩
  · exact slab_ok x0 x1 x2 ⟨2, by decide⟩ 256 rfl inb_S64x4096_S64x128_0_256 W _
      slices_S64x4096_o0_256_S64x128 broadcasts_S64x1_S64x128 bitsLt_bf16_f32 hWa
      (fun a => load_col arg3 harg3 x2 2 (by decide) inb_S64x32_S64x1_0_2 a 0)
  refine List.forall_mem_cons.mpr ⟨?_, ?_⟩
  · exact slab_ok x0 x1 x2 ⟨1, by decide⟩ 128 rfl inb_S64x4096_S64x128_0_128 W _
      slices_S64x4096_o0_128_S64x128 broadcasts_S64x1_S64x128 bitsLt_bf16_f32 hWa
      (fun a => load_col arg3 harg3 x2 1 (by decide) inb_S64x32_S64x1_0_1 a 0)
  refine List.forall_mem_cons.mpr ⟨?_, ?_⟩
  · exact slab_ok x0 x1 x2 ⟨0, by decide⟩ 0 rfl inb_S64x4096_S64x128_0_0 W _
      slices_S64x4096_o0_0_S64x128 broadcasts_S64x1_S64x128 bitsLt_bf16_f32 hWa
      (fun a => load_col arg3 harg3 x2 0 (by decide) inb_S64x32_S64x1_0_0 a 0)
  exact fun _ h => absurd h List.not_mem_nil

/-- The entry of the output block at row r, column cc. -/
theorem outOf_apply (c : Dev nD) (i : grid0.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32)
    (r : Fin 64) (cc : Fin 4096) :
    outOf (F := Ideal) c i arg1 harg1 arg2 harg2 arg3 harg3 arg4 harg4 x0 x1 x2 (ix2 r cc)
      = x0 (ix2 r (⟨(x1 (ix2 r cc)).toNat % 16, Nat.mod_lt _ (by decide)⟩ : Fin 16)) * x2 (ix2 r (Cert.Spec.grp cc)) := by
  unfold outOf
  rw [View.read_writes_eq_canon _ _ _ (cover c i arg1 harg1 arg2 harg2 arg3 harg3 arg4 harg4 x0 x1 x2)]
  exact View.canon_apply_of_pieces (blockAt x0 x1 x2) _
    (pieces_ok c i arg1 harg1 arg2 harg2 arg3 harg3 arg4 harg4 x0 x1 x2) (ix2 r cc)
    (cover c i arg1 harg1 arg2 harg2 arg3 harg3 arg4 harg4 x0 x1 x2 (ix2 r cc))

end Cert.KernelIdeal.Dq0

end
-- ==== Proof.Dq0Array.lean ====
/-
  From the blocks to the array: what the first dequantisation call leaves in its output array.

  Point t of the call's grid reads rows 64 t .. 64 t + 63 of each of its three input arrays and writes rows
  64 t .. 64 t + 63 of the output; all four blocks span every column of their arrays. The entry of the output
  block at (r, cc) is codebook(r, code(r, cc) mod 16) * scale(r, cc / 128) of the point's input blocks, so what
  point t writes back is rows 64 t .. 64 t + 63 of ONE function of the three input arrays:
      W(o, d) = codebook(o, code(o, d) mod 16) * scale(o, d / 128).
  Row o lies in the block of point o / 64, so the points' blocks cover the output array, which therefore ends
  holding W.
-/
import proofs.«431283_j678604833227_3_alg».proof.Proof.Dq0Block
import Idealize.ShloMosaic.Lib.Pipeline.Value
import Idealize.ShloMosaic.Lib.ValueIdx
import Idealize.ShloMosaic.PureOps.Ideal

set_option maxRecDepth 16384

noncomputable section

namespace Cert.KernelIdeal.Dq0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Array
-- the TensorCore's buffer contents when the region is entered
variable (V : (c : Dev nD) → (b : Ref sig .tc) → Buf (Elt Ideal) ((c : Thread nD τ).loc b))

/-- The three input arrays as the region finds them, at their literal types: the codebook spread over the rows, -/
abbrev cbArr (c : Dev nD) : S4096x16.Idx → EReal := V c main_v3
/-- the codes, -/
abbrev codeArr (c : Dev nD) : S4096x4096.Idx → BitVec 32 := V c main_arg1
/-- and the scales. -/
abbrev scaleArr (c : Dev nD) : S4096x32.Idx → EReal := V c main_arg2

/-- The dequantised weight at row `o`, column `d`. -/
def wAt (c : Dev nD) (o : Fin 4096) (d : Fin 4096) : EReal :=
  cbArr V c (ix2 o (⟨(codeArr V c (ix2 o d)).toNat % 16, Nat.mod_lt _ (by decide)⟩ : Fin 16)) * scaleArr V c (ix2 o (Cert.Spec.grp d))

/-- The whole output array the call leaves: the dequantised weight at every index. -/
def wArr (c : Dev nD) : S4096x4096.Idx → EReal := fun i => wAt V c (i 0) (i 1)

/-- Point t's three input blocks at their literal types: codebook rows, -/
abbrev cbBlk (c : Dev nD) (t : Fin cfg0.N) : S64x16.Idx → EReal := iblk V c 0 t
/-- codes, -/
abbrev codeBlk (c : Dev nD) (t : Fin cfg0.N) : S64x4096.Idx → BitVec 32 := iblk V c 1 t
/-- scales. -/
abbrev scaleBlk (c : Dev nD) (t : Fin cfg0.N) : S64x32.Idx → EReal := iblk V c 2 t

/-- The printed index maps, decided over the grid: at point t every window's block is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The codebook block at point t is rows 64 t .. 64 t + 63 of the codebook array. -/
theorem cbBlk_apply (c : Dev nD) (t : Fin cfg0.N) (x : S64x16.Idx) (k : S4096x16.Idx)
    (hk0 : (k 0).val = t.val * 64 + (x 0).val) (hk1 : (k 1).val = (x 1).val) : cbBlk V c t x = cbArr V c k := by
  obtain ⟨e0, e1, -⟩ := idx_facts t
  show V c main_v3 (((cfg0.win 0).blk t).view.emb x) = V c main_v3 k
  congr 1
  funext a
  apply Fin.ext
  match a with
  | ⟨0, _⟩ => show win0_0.index t (0 : Fin 2) * 64 + 1 * (x 0).val = (k 0).val; rw [e0, hk0]; omega
  | ⟨1, _⟩ => show win0_0.index t (1 : Fin 2) * 16 + 1 * (x 1).val = (k 1).val; rw [e1, hk1]; omega

/-- The code block at point t is rows 64 t .. 64 t + 63 of the code array. -/
theorem codeBlk_apply (c : Dev nD) (t : Fin cfg0.N) (x : S64x4096.Idx) (k : S4096x4096.Idx)
    (hk0 : (k 0).val = t.val * 64 + (x 0).val) (hk1 : (k 1).val = (x 1).val) : codeBlk V c t x = codeArr V c k := by
  obtain ⟨-, -, e0, e1, -⟩ := idx_facts t
  show V c main_arg1 (((cfg0.win 1).blk t).view.emb x) = V c main_arg1 k
  congr 1
  funext a
  apply Fin.ext
  match a with
  | ⟨0, _⟩ => show win0_1.index t (0 : Fin 2) * 64 + 1 * (x 0).val = (k 0).val; rw [e0, hk0]; omega
  | ⟨1, _⟩ => show win0_1.index t (1 : Fin 2) * 4096 + 1 * (x 1).val = (k 1).val; rw [e1, hk1]; omega

/-- The scale block at point t is rows 64 t .. 64 t + 63 of the scale array. -/
theorem scaleBlk_apply (c : Dev nD) (t : Fin cfg0.N) (x : S64x32.Idx) (k : S4096x32.Idx)
    (hk0 : (k 0).val = t.val * 64 + (x 0).val) (hk1 : (k 1).val = (x 1).val) : scaleBlk V c t x = scaleArr V c k := by
  obtain ⟨-, -, -, -, e0, e1, -⟩ := idx_facts t
  show V c main_arg2 (((cfg0.win 2).blk t).view.emb x) = V c main_arg2 k
  congr 1
  funext a
  apply Fin.ext
  match a with
  | ⟨0, _⟩ => show win0_2.index t (0 : Fin 2) * 64 + 1 * (x 0).val = (k 0).val; rw [e0, hk0]; omega
  | ⟨1, _⟩ => show win0_2.index t (1 : Fin 2) * 32 + 1 * (x 1).val = (k 1).val; rw [e1, hk1]; omega

/-- The entry the body leaves at row r, column cc of point t's block is the dequantised weight at row o = 64 t + r,
    column d = cc of the array. -/
theorem entry_eq (c : Dev nD) (t : Fin cfg0.N) (r : Fin 64) (cc : Fin 4096) (o : Fin 4096) (d : Fin 4096)
    (ho : o.val = t.val * 64 + r.val) (hd : d.val = cc.val) :
    cbBlk V c t (ix2 r (⟨(codeBlk V c t (ix2 r cc)).toNat % 16, Nat.mod_lt _ (by decide)⟩ : Fin 16)) * scaleBlk V c t (ix2 r (Cert.Spec.grp cc))
      = wAt V c o d := by
  unfold wAt
  rw [codeBlk_apply V c t (ix2 r cc) (ix2 o d) ho hd]
  rw [cbBlk_apply V c t (ix2 r _) (ix2 o (⟨(codeArr V c (ix2 o d)).toNat % 16, Nat.mod_lt _ (by decide)⟩ : Fin 16)) ho rfl]
  rw [scaleBlk_apply V c t (ix2 r (Cert.Spec.grp cc)) (ix2 o (Cert.Spec.grp d)) ho (by show d.val / 128 = cc.val / 128; rw [hd])]

/-- WHAT POINT t WRITES BACK is rows 64 t .. 64 t + 63 of the dequantised weights of the arrays as the region finds them. -/
theorem flushed_eq (c : Dev nD) (t : Fin cfg0.N) :
    (dat (F := Ideal) V c).flushed 3 t = ((cfg0.win 3).blk t).view.read (Elt Ideal) (wArr V c) := by
  show (cfg0.win 3).cut (grid0.coords t) ((dat V c).after 3 t) = _
  rw [after_3]
  unfold out
  funext y
  obtain ⟨-, -, -, -, -, -, e0, e1⟩ := idx_facts t
  have hy0 : (y 0).val < 64 := (y 0).isLt
  have hy1 : (y 1).val < 4096 := (y 1).isLt
  -- the position inside the block, and the position in the array it is written to
  have hx : (cfg0.win 3).xinj (grid0.coords t) y = ix2 (⟨(y 0).val, hy0⟩ : Fin 64) (⟨(y 1).val, hy1⟩ : Fin 4096) := by
    funext a
    match a with
    | ⟨0, _⟩ => rfl
    | ⟨1, _⟩ => rfl
  have he0 : ((((cfg0.win 3).blk t).view.emb y) 0).val = t.val * 64 + (y 0).val := by
    show win0_3.index t (0 : Fin 2) * 64 + 1 * (y 0).val = _; rw [e0]; omega
  have he1 : ((((cfg0.win 3).blk t).view.emb y) 1).val = (y 1).val := by
    show win0_3.index t (1 : Fin 2) * 4096 + 1 * (y 1).val = _; rw [e1]; omega
  show outOf c (grid0.coords t) _ _ _ _ _ _ _ _ (iblk V c 0 t) (iblk V c 1 t) (iblk V c 2 t) ((cfg0.win 3).xinj (grid0.coords t) y)
    = wArr V c (((cfg0.win 3).blk t).view.emb y)
  rw [hx, outOf_apply]
  exact entry_eq V c t ⟨(y 0).val, hy0⟩ ⟨(y 1).val, hy1⟩ _ _ he0 he1

/-- An index of the array is in point t's block iff each coordinate is in the block's range on its axis. -/
theorem mem_blk (t : Fin cfg0.N) (i : S4096x4096.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v4).slice (win0_3.rect t)).set ↔ _
  rw [View.set_slice_whole, Rect.mem_set_unit]
  exact Iff.rfl

/-- The rows are the grid's points times the 64 rows of a block. -/
theorem rows_eq : S4096x4096.size (0 : Fin 2) = grid0.N * 64 := by decide

/-- Every index of the output array is in the block of the point its row divided by 64 names. -/
theorem covered (i : S4096x4096.Idx) : ∃ t : Fin cfg0.N, (cfg0.win 3).flush t = true ∧ i ∈ ((cfg0.win 3).blk t).view.set := by
  have hi0 : (i 0).val < grid0.N * 64 := rows_eq ▸ (i 0).isLt
  have hi1 : (i 1).val < 4096 := (i 1).isLt
  have ht : (i 0).val / 64 < grid0.N := Nat.div_lt_of_lt_mul (by rw [Nat.mul_comm]; exact hi0)
  refine ⟨⟨(i 0).val / 64, ht⟩, flush0_3 _, ?_⟩
  obtain ⟨-, -, -, -, -, -, e0, e1⟩ := idx_facts ⟨(i 0).val / 64, ht⟩
  rw [mem_blk]
  intro a
  match a with
  | ⟨0, _⟩ =>
    show win0_3.index ⟨(i 0).val / 64, ht⟩ (0 : Fin 2) * 64 ≤ (i 0).val ∧ (i 0).val < win0_3.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_3.index ⟨(i 0).val / 64, ht⟩ (1 : Fin 2) * 4096 ≤ (i 1).val ∧ (i 1).val < win0_3.index ⟨(i 0).val / 64, ht⟩ (1 : Fin 2) * 4096 + 4096
    rw [e1]; omega

/-- The output array after the call's last point, at its literal type. -/
abbrev outArr (c : Dev nD) : S4096x4096.Idx → EReal := (dat (F := Ideal) V c).arrAt 3 cfg0.N

/-- THE OUTPUT ARRAY after the call: the dequantised weight at every index. -/
theorem arr_eq (c : Dev nD) : (dat (F := Ideal) V c).arrAt 3 cfg0.N = wArr V c :=
  (dat (F := Ideal) V c).arrAt_eq_of_cover 3 (wArr V c) (fun t _ => flushed_eq V c t) covered

/-- Entry by entry: row o, column d of the output array is codebook(o, code(o, d) mod 16) * scale(o, d / 128). -/
theorem final (c : Dev nD) (o : Fin 4096) (d : Fin 4096) :
    outArr V c (ix2 o d)
      = cbArr V c (ix2 o (⟨(codeArr V c (ix2 o d)).toNat % 16, Nat.mod_lt _ (by decide)⟩ : Fin 16)) * scaleArr V c (ix2 o (Cert.Spec.grp d)) :=
  congrFun (arr_eq V c) (ix2 o d)

end Array

end Cert.KernelIdeal.Dq0

end
-- ==== Proof.Dq1Block.lean ====
/-
  What the dequantisation body leaves in its output block, entry by entry, over the extended reals.

  At row r and column c of the 64 x 4096 block the body has selected, by a four-level binary tree on the low four
  bits of the code at (r, c), one of the sixteen codebook entries of row r, and multiplied it by the scale of
  row r and of the group of 128 columns that c lies in; the final change of float format is the identity on
  the extended reals. So the entry is codebook(r, code(r, c) mod 16) * scale(r, c / 128).

  The proof has four parts. (1) On a 32-bit word w, the test (w and 2^k) != 0 is bit k of the number of w, so the
  tree of selects on bits 0 to 3 over sixteen values picks value number (w mod 16). (2) A column broadcast along the
  rows, a column loaded from a whole buffer, and a band of 128 columns cut from the block, each read at an entry.
  (3) The selected weight at (r, c) is therefore codebook(r, code(r, c) mod 16), and the slab stored at column
  offset 128 g has at (r, j) the entry weight(r, 128 g + j) * scale(r, g). (4) The thirty-two slabs are blocks of
  one function of the output index, and they tile the output block, so the block read back is that function.
-/
import proofs.«431283_j678604833227_3_alg».proof.Proof.Dq1
import proofs.«431283_j678604833227_3_alg».proof.Proof.Spec
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Dq1

open Idealize.ShloMosaic Idealize.ShloMosaic.TcCoe Idealize.ShloMosaic.ValueIdx Idealize.ShloMosaic.Tactic
open Idealize.SL Idealize.SL.Sem
open Cert.KernelIdeal Cert.KernelIdeal.Gen

/-! ## The four bit tests of a code select the entry numbered by its low four bits -/

section Bits

/-- Masking a word with a power of two and comparing with zero tests that bit of the word's number. -/
theorem test_bit (w m : BitVec 32) (k : ℕ) (hm : m = BitVec.twoPow 32 k) (hne : BitVec.twoPow 32 k ≠ 0#32) :
    IntOp.cmpi .ne (IntOp.andi w m) 0#32 = BitVec.ofBool (w.toNat.testBit k) := by
  subst hm
  unfold IntOp.cmpi IntOp.andi
  rw [BitVec.and_twoPow, BitVec.testBit_toNat]
  cases w.getLsbD k
  · rfl
  · exact congrArg BitVec.ofBool (bne_iff_ne.mpr hne)

/-- A select on a one-bit word that encodes a truth value is the choice by that truth value. -/
theorem select_ofBool {α : Type} (b : Bool) (A B : α) : Scalar.select (BitVec.ofBool b) A B = if b then A else B := by
  cases b
  · exact if_neg (by decide)
  · exact if_pos rfl

/-- The select on bit k of a word, by the quotient and remainder of the word's number. -/
theorem select_bit {α : Type} (w m : BitVec 32) (k d : ℕ) (hm : m = BitVec.twoPow 32 k) (hne : BitVec.twoPow 32 k ≠ 0#32)
    (hd : d = 2 ^ k) (A B : α) :
    Scalar.select (IntOp.cmpi .ne (IntOp.andi w m) 0#32) A B = if w.toNat / d % 2 = 1 then A else B := by
  subst hd
  rw [test_bit w m k hm hne, select_ofBool, Nat.testBit_eq_decide_div_mod_eq]
  by_cases h : w.toNat / 2 ^ k % 2 = 1
  · rw [if_pos h, decide_eq_true h]; rfl
  · rw [if_neg h, decide_eq_false h]; rfl

/-- The four-level tree of selects on bits 0, 1, 2, 3 of a word, over sixteen values, picks the value numbered by the
    word's number modulo 16. -/
theorem tree16 {α : Type} (w : BitVec 32) (e : Fin 16 → α) :
    Scalar.select (IntOp.cmpi .ne (IntOp.andi w 8#32) 0#32)
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨15, by decide⟩) (e ⟨14, by decide⟩))
          (Scalar.select (IntOp.cmpi .ne (IntOp.andi w 1#32) 0#32) (e ⟨13, by decide⟩) (e ⟨12, by decide⟩)))
        (Scalar.select (IntOp.cmpi .ne (IntOp.andi w 2#32) 0#32)
          (Scalar.select (IntOp.cmpi .ne (IntOp.andi w 1#32) 0#32) (e ⟨11, by decide⟩) (e ⟨10, by decide⟩))
          (Scalar.select (IntOp.cmpi .ne (IntOp.andi w 1#32) 0#32) (e ⟨9, by decide⟩) (e ⟨8, by decide⟩))))
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨7, by decide⟩) (e ⟨6, by decide⟩))
          (Scalar.select (IntOp.cmpi .ne (IntOp.andi w 1#32) 0#32) (e ⟨5, by decide⟩) (e ⟨4, by decide⟩)))
        (Scalar.select (IntOp.cmpi .ne (IntOp.andi w 2#32) 0#32)
          (Scalar.select (IntOp.cmpi .ne (IntOp.andi w 1#32) 0#32) (e ⟨3, by decide⟩) (e ⟨2, by decide⟩))
          (Scalar.select (IntOp.cmpi .ne (IntOp.andi w 1#32) 0#32) (e ⟨1, by decide⟩) (e ⟨0, by decide⟩))))
      = e ⟨w.toNat % 16, Nat.mod_lt _ (by decide)⟩ := by
  simp only [select_bit w 1#32 0 1 (by decide) (by decide) (by decide), select_bit w 2#32 1 2 (by decide) (by decide) (by decide),
    select_bit w 4#32 2 4 (by decide) (by decide) (by decide), select_bit w 8#32 3 8 (by decide) (by decide) (by decide)]
  split_ifs <;> exact congrArg e (Fin.ext (by dsimp only; omega))

end Bits

/-! ## Layout operations of the body read at an entry -/

section Layout

variable {α : Type}

/-- A column of n entries broadcast along the rows to n by m reads, at (a, j), the column's entry of row a. -/
theorem broadcastTo_a1_ab_apply {n m : ℕ} (v : (⟨2, ![n, 1]⟩ : Shape).Idx → α)
    (h : (⟨2, ![n, 1]⟩ : Shape).Broadcasts ⟨2, ![n, m]⟩) (a : Fin n) (j : Fin m) :
    broadcastTo ⟨2, ![n, m]⟩ v h (ix2 a j) = v (ix2 a (0 : Fin 1)) := by
  refine broadcastTo_apply v h (ix2 a j) (ix2 a (0 : Fin 1)) fun ax => ?_
  match ax with
  | ⟨0, _⟩ =>
    show a.val = if n = 1 then 0 else a.val
    split
    · have := a.isLt; omega
    · rfl
  | ⟨1, _⟩ => rfl

/-- The rectangle of all n rows and the one column k lies inside an n by m matrix. -/
theorem inb_col {n m : ℕ} (k : ℕ) (hk : k < m) :
    ∀ ax, (![0, k] : Fin 2 → ℕ) ax + (![n, 1] : Fin 2 → ℕ) ax ≤ (⟨2, ![n, m]⟩ : Shape).size ax :=
  Rect.inb₂ (by show 0 + n ≤ n; omega) (by show k + 1 ≤ m; omega)

/-- Column k of a matrix, read through the rectangle of its rows and that column, has at row a the matrix's entry (a, k). -/
theorem ld_col_apply {n m : ℕ} (X : (⟨2, ![n, m]⟩ : Shape).Idx → α) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    X ((Rect.unit (s := ⟨2, ![n, m]⟩) ![0, k] ![n, 1] inb).idx (ix2 a u)) = X (ix2 a (⟨k, hk⟩ : Fin m)) := by
  refine congrArg X (funext fun ax => Fin.ext ?_)
  match ax with
  | ⟨0, _⟩ => show 0 + 1 * a.val = a.val; omega
  | ⟨1, _⟩ => show k + 1 * u.val = k; have := u.isLt; omega

end Layout

/-- The zero offsets of a rank-two access, as the constant function. -/
theorem offsets_zero2 : (![0, 0] : Fin 2 → ℕ) = fun _ => 0 := funext fun a => by fin_cases a <;> rfl

/-- A whole buffer holding X, loaded in full, reads X. -/
theorem load_whole {S : Shape} {e : EltTy} (arg : Memref sig .tc .vmem S e) (harg : arg.IsWhole) (X : Vec Ideal S e)
    {off : Fin S.rank → ℕ} (hoff : off = fun _ => 0) (inb : ∀ a, off a + S.size a ≤ S.size a) :
    View.readAt (Elt Ideal) arg.view (Rect.unit off S.size inb).toLoadRect (harg.unread X) = X := by
  rw [View.readAt_eq_ld, harg.read_unread]
  exact View.ld_unit_zero hoff inb X

/-- A whole n by m buffer holding X, loaded at the rectangle of column k, reads at row a the entry X (a, k). -/
theorem load_col {n m : ℕ} {e : EltTy} (arg : Memref sig .tc .vmem ⟨2, ![n, m]⟩ e) (harg : arg.IsWhole)
    (X : Vec Ideal ⟨2, ![n, m]⟩ e) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    View.readAt (Elt Ideal) arg.view (Rect.unit (s := ⟨2, ![n, m]⟩) ![0, k] ![n, 1] inb).toLoadRect (harg.unread X) (ix2 a u)
      = X (ix2 a (⟨k, hk⟩ : Fin m)) := by
  rw [View.readAt_eq_ld, harg.read_unread]
  exact ld_col_apply X k hk inb a u

/-! ## The selected weight and one stored slab -/

/-- The selected weight at (a, k): the sixteen loaded codebook columns, broadcast along the row and chosen among by the
    four bit tests of the code at (a, k), give the column numbered by the code's low four bits, at row a. -/
theorem weight_apply (v0 : Vec Ideal S64x4096 .i32) (cs : Fin 16 → Vec Ideal S64x1 .f32) (e : Fin 16 → Elt Ideal .f32)
    (a : Fin 64) (k : Fin 4096) (hc : ∀ n : Fin 16, cs n (ix2 a (0 : Fin 1)) = e n) :
    k1_pay14 (F := Ideal) (k1_pay2 (F := Ideal) v0) (k1_pay3 (F := Ideal) v0) (k1_pay4 (F := Ideal) v0) (k1_pay5 (F := Ideal) v0)
        (k1_pay6 (F := Ideal) v0 (cs ⟨1, by decide⟩) (cs ⟨0, by decide⟩))
        (k1_pay7 (F := Ideal) v0 (cs ⟨3, by decide⟩) (cs ⟨2, by decide⟩))
        (k1_pay9 (F := Ideal) (k1_pay2 (F := Ideal) v0) (k1_pay8 (F := Ideal) (cs ⟨5, by decide⟩)) (cs ⟨4, by decide⟩))
        (k1_pay10 (F := Ideal) (k1_pay2 (F := Ideal) v0) (cs ⟨7, by decide⟩) (cs ⟨6, by decide⟩))
        (k1_pay11 (F := Ideal) (k1_pay2 (F := Ideal) v0) (cs ⟨9, by decide⟩) (cs ⟨8, by decide⟩))
        (k1_pay12 (F := Ideal) (k1_pay2 (F := Ideal) v0) (cs ⟨11, by decide⟩) (cs ⟨10, by decide⟩))
        (k1_pay13 (F := Ideal) (k1_pay2 (F := Ideal) v0) (cs ⟨13, by decide⟩) (cs ⟨12, by decide⟩))
        (cs ⟨15, by decide⟩) (cs ⟨14, by decide⟩) (ix2 a k)
      = e ⟨(v0 (ix2 a k)).toNat % 16, Nat.mod_lt _ (by decide)⟩ := by
  have L : ∀ n : Fin 16, broadcastTo S64x4096 (shapeCast S64x1 (shapeCast S64x1 (cs n) shapeCasts_S64x1_S64x1)
      shapeCasts_S64x1_S64x1) broadcasts_S64x1_S64x4096 (ix2 a k) = e n := fun n => by
    rw [broadcastTo_a1_ab_apply, shapeCast_self, shapeCast_self]; exact hc n
  refine Eq.trans ?_ (tree16 (v0 (ix2 a k)) e)
  simp only [← L]
  rfl

/-- One stored slab at (a, j): the weight at column o + j of row a, times the scale column's entry of row a (the change
    of float format is the identity on the extended reals). -/
theorem slab_apply (o : ℕ) (W : FVec Ideal S64x4096 .f32) (s : Vec Ideal S64x1 .f32)
    (hS : S64x4096.Slices ![0, o] S64x128) (hB : S64x1.Broadcasts S64x128) (hT : FTy.bf16.bits < FTy.f32.bits)
    (a : Fin 64) (j : Fin 128) (k : Fin 4096) (hk : k.val = o + j.val) :
    (truncf .bf16 (mulf (extractStridedSlice S64x128 ![0, o] W hS) (broadcastTo S64x128 s hB)) hT : FVec Ideal S64x128 .bf16) (ix2 a j)
      = W (ix2 a k) * s (ix2 a (0 : Fin 1)) := by
  show extractStridedSlice S64x128 ![0, o] W hS (ix2 a j) * broadcastTo S64x128 s hB (ix2 a j) = _
  rw [slice2_axis1_apply o W hS a j k hk, broadcastTo_a1_ab_apply s hB a j]

/-- The entry of the dequantised block at an index: the codebook entry of the index's row that the low four bits of the
    code there number, times the scale of that row and of the index's group of 128 columns. -/
def blockAt (x0 : Vec Ideal S64x16 .f32) (x1 : Vec Ideal S64x4096 .i32) (x2 : Vec Ideal S64x32 .f32) (y : S64x4096.Idx) :
    Elt Ideal .bf16 :=
  x0 (ix2 (⟨(y 0).val, idx2_lt0 y⟩ : Fin 64) (⟨(x1 y).toNat % 16, Nat.mod_lt _ (by decide)⟩ : Fin 16))
    * x2 (ix2 (⟨(y 0).val, idx2_lt0 y⟩ : Fin 64) (Cert.Spec.grp ⟨(y 1).val, idx2_lt1 y⟩))

/-- The slab stored at column offset o = 128 g is the block's entries on its rectangle, given that the weight is the
    selected codebook entry and the scale column is column g of the scales. -/
theorem slab_ok (x0 : Vec Ideal S64x16 .f32) (x1 : Vec Ideal S64x4096 .i32) (x2 : Vec Ideal S64x32 .f32)
    (g : Fin 32) (o : ℕ) (ho : o = 128 * g.val)
    (inb : ∀ ax, (![0, o] : Fin 2 → ℕ) ax + (![64, 128] : Fin 2 → ℕ) ax ≤ S64x4096.size ax)
    (W : FVec Ideal S64x4096 .f32) (s : Vec Ideal S64x1 .f32)
    (hS : S64x4096.Slices ![0, o] S64x128) (hB : S64x1.Broadcasts S64x128) (hT : FTy.bf16.bits < FTy.f32.bits)
    (hW : ∀ (a : Fin 64) (k : Fin 4096),
      W (ix2 a k) = x0 (ix2 a (⟨(x1 (ix2 a k)).toNat % 16, Nat.mod_lt _ (by decide)⟩ : Fin 16)))
    (hs : ∀ a : Fin 64, s (ix2 a (0 : Fin 1)) = x2 (ix2 a g))
    (x : S64x128.Idx) :
    (truncf .bf16 (mulf (extractStridedSlice S64x128 ![0, o] W hS) (broadcastTo S64x128 s hB)) hT : FVec Ideal S64x128 .bf16) x
      = blockAt x0 x1 x2 ((Rect.unit (s := S64x4096) ![0, o] ![64, 128] inb).emb x) := by
  obtain ⟨a, j, rfl⟩ : ∃ (a : Fin 64) (j : Fin 128), x = ix2 a j := ⟨x 0, x 1, eq_ix2 x⟩
  have hk : o + j.val < 4096 := by have := g.isLt; have := j.isLt; omega
  have hg : Cert.Spec.grp (⟨o + j.val, hk⟩ : Fin 4096) = g :=
    Fin.ext (by show (o + j.val) / 128 = g.val; have := j.isLt; omega)
  have he : (Rect.unit (s := S64x4096) ![0, o] ![64, 128] inb).emb (ix2 a j) = ix2 a (⟨o + j.val, hk⟩ : Fin 4096) := by
    funext ax
    apply Fin.ext
    match ax with
    | ⟨0, _⟩ => show 0 + 1 * a.val = a.val; omega
    | ⟨1, _⟩ => show o + 1 * j.val = o + j.val; omega
  rw [slab_apply o W s hS hB hT a j ⟨o + j.val, hk⟩ rfl, hW, hs, he]
  show _ = x0 (ix2 a _) * x2 (ix2 a (Cert.Spec.grp (⟨o + j.val, hk⟩ : Fin 4096)))
  rw [hg]

/-! ## Every stored piece is the block on its rectangle -/

/-- Each of the thirty-two pieces the body's run found holds, at each of its entries, the dequantised block's entry at the
    place of the output block the piece's rectangle puts it. -/
theorem pieces_ok (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32) :
    ∀ p ∈ (kernelRun (F := Ideal) c i arg1 harg1 arg2 harg2 arg3 harg3 arg4 harg4 x0 x1 x2).1,
      ∀ x : p.1.shape.Idx, p.2 x = blockAt x0 x1 x2 (p.1.emb x) := by
  unfold kernelRun
  dsimp only
  sl_unfold_words
  unfold k1_pay15 k1_pay16 k1_pay17 k1_pay18
  generalize hV : View.readAt (Elt Ideal) arg2.view _ (harg2.unread x1) = V0
  have hV0 : x1 = V0 := by rw [← hV]; exact (load_whole arg2 harg2 x1 offsets_zero2 _).symm
  subst hV0
  generalize hW : k1_pay14 _ _ _ _ _ _ _ _ _ _ _ _ _ = W
  have hWa : ∀ (a : Fin 64) (k : Fin 4096),
      W (ix2 a k) = x0 (ix2 a (⟨(x1 (ix2 a k)).toNat % 16, Nat.mod_lt _ (by decide)⟩ : Fin 16)) := by
    subst hW
    intro a k
    exact weight_apply x1
      (fun n => View.readAt (Elt Ideal) arg1.view
        (Rect.unit (s := S64x16) ![0, n.val] S64x1.size (inb_col n.val n.isLt)).toLoadRect (harg1.unread x0))
      (fun n => x0 (ix2 a n)) a k (fun n => load_col arg1 harg1 x0 n.val n.isLt _ a 0)
  refine List.forall_mem_cons.mpr ⟨?_, ?_⟩
  · exact slab_ok x0 x1 x2 ⟨31, by decide⟩ 3968 rfl inb_S64x4096_S64x128_0_3968 W _
      slices_S64x4096_o0_3968_S64x128 broadcasts_S64x1_S64x128 bitsLt_bf16_f32 hWa
      (fun a => load_col arg3 harg3 x2 31 (by decide) inb_S64x32_S64x1_0_31 a 0)
  refine List.forall_mem_cons.mpr ⟨?_, ?_⟩
  · exact slab_ok x0 x1 x2 ⟨30, by decide⟩ 3840 rfl inb_S64x4096_S64x128_0_3840 W _
      slices_S64x4096_o0_3840_S64x128 broadcasts_S64x1_S64x128 bitsLt_bf16_f32 hWa
      (fun a => load_col arg3 harg3 x2 30 (by decide) inb_S64x32_S64x1_0_30 a 0)
  refine List.forall_mem_cons.mpr ⟨?_, ?_⟩
  · exact slab_ok x0 x1 x2 ⟨29, by decide⟩ 3712 rfl inb_S64x4096_S64x128_0_3712 W _
      slices_S64x4096_o0_3712_S64x128 broadcasts_S64x1_S64x128 bitsLt_bf16_f32 hWa
      (fun a => load_col arg3 harg3 x2 29 (by decide) inb_S64x32_S64x1_0_29 a 0)
  refine List.forall_mem_cons.mpr ⟨?_, ?_⟩
  · exact slab_ok x0 x1 x2 ⟨28, by decide⟩ 3584 rfl inb_S64x4096_S64x128_0_3584 W _
      slices_S64x4096_o0_3584_S64x128 broadcasts_S64x1_S64x128 bitsLt_bf16_f32 hWa
      (fun a => load_col arg3 harg3 x2 28 (by decide) inb_S64x32_S64x1_0_28 a 0)
  refine List.forall_mem_cons.mpr ⟨?_, ?_⟩
  · exact slab_ok x0 x1 x2 ⟨27, by decide⟩ 3456 rfl inb_S64x4096_S64x128_0_3456 W _
      slices_S64x4096_o0_3456_S64x128 broadcasts_S64x1_S64x128 bitsLt_bf16_f32 hWa
      (fun a => load_col arg3 harg3 x2 27 (by decide) inb_S64x32_S64x1_0_27 a 0)
  refine List.forall_mem_cons.mpr ⟨?_, ?_⟩
  · exact slab_ok x0 x1 x2 ⟨26, by decide⟩ 3328 rfl inb_S64x4096_S64x128_0_3328 W _
      slices_S64x4096_o0_3328_S64x128 broadcasts_S64x1_S64x128 bitsLt_bf16_f32 hWa
      (fun a => load_col arg3 harg3 x2 26 (by decide) inb_S64x32_S64x1_0_26 a 0)
  refine List.forall_mem_cons.mpr ⟨?_, ?_⟩
  · exact slab_ok x0 x1 x2 ⟨25, by decide⟩ 3200 rfl inb_S64x4096_S64x128_0_3200 W _
      slices_S64x4096_o0_3200_S64x128 broadcasts_S64x1_S64x128 bitsLt_bf16_f32 hWa
      (fun a => load_col arg3 harg3 x2 25 (by decide) inb_S64x32_S64x1_0_25 a 0)
  refine List.forall_mem_cons.mpr ⟨?_, ?_⟩
  · exact slab_ok x0 x1 x2 ⟨24, by decide⟩ 3072 rfl inb_S64x4096_S64x128_0_3072 W _
      slices_S64x4096_o0_3072_S64x128 broadcasts_S64x1_S64x128 bitsLt_bf16_f32 hWa
      (fun a => load_col arg3 harg3 x2 24 (by decide) inb_S64x32_S64x1_0_24 a 0)
  refine List.forall_mem_cons.mpr ⟨?_, ?_⟩
  · exact slab_ok x0 x1 x2 ⟨23, by decide⟩ 2944 rfl inb_S64x4096_S64x128_0_2944 W _
      slices_S64x4096_o0_2944_S64x128 broadcasts_S64x1_S64x128 bitsLt_bf16_f32 hWa
      (fun a => load_col arg3 harg3 x2 23 (by decide) inb_S64x32_S64x1_0_23 a 0)
  refine List.forall_mem_cons.mpr ⟨?_, ?_⟩
  · exact slab_ok x0 x1 x2 ⟨22, by decide⟩ 2816 rfl inb_S64x4096_S64x128_0_2816 W _
      slices_S64x4096_o0_2816_S64x128 broadcasts_S64x1_S64x128 bitsLt_bf16_f32 hWa
      (fun a => load_col arg3 harg3 x2 22 (by decide) inb_S64x32_S64x1_0_22 a 0)
  refine List.forall_mem_cons.mpr ⟨?_, ?_⟩
  · exact slab_ok x0 x1 x2 ⟨21, by decide⟩ 2688 rfl inb_S64x4096_S64x128_0_2688 W _
      slices_S64x4096_o0_2688_S64x128 broadcasts_S64x1_S64x128 bitsLt_bf16_f32 hWa
      (fun a => load_col arg3 harg3 x2 21 (by decide) inb_S64x32_S64x1_0_21 a 0)
  refine List.forall_mem_cons.mpr ⟨?_, ?_⟩
  · exact slab_ok x0 x1 x2 ⟨20, by decide⟩ 2560 rfl inb_S64x4096_S64x128_0_2560 W _
      slices_S64x4096_o0_2560_S64x128 broadcasts_S64x1_S64x128 bitsLt_bf16_f32 hWa
      (fun a => load_col arg3 harg3 x2 20 (by decide) inb_S64x32_S64x1_0_20 a 0)
  refine List.forall_mem_cons.mpr ⟨?_, ?_⟩
  · exact slab_ok x0 x1 x2 ⟨19, by decide⟩ 2432 rfl inb_S64x4096_S64x128_0_2432 W _
      slices_S64x4096_o0_2432_S64x128 broadcasts_S64x1_S64x128 bitsLt_bf16_f32 hWa
      (fun a => load_col arg3 harg3 x2 19 (by decide) inb_S64x32_S64x1_0_19 a 0)
  refine List.forall_mem_cons.mpr ⟨?_, ?_⟩
  · exact slab_ok x0 x1 x2 ⟨18, by decide⟩ 2304 rfl inb_S64x4096_S64x128_0_2304 W _
      slices_S64x4096_o0_2304_S64x128 broadcasts_S64x1_S64x128 bitsLt_bf16_f32 hWa
      (fun a => load_col arg3 harg3 x2 18 (by decide) inb_S64x32_S64x1_0_18 a 0)
  refine List.forall_mem_cons.mpr ⟨?_, ?_⟩
  · exact slab_ok x0 x1 x2 ⟨17, by decide⟩ 2176 rfl inb_S64x4096_S64x128_0_2176 W _
      slices_S64x4096_o0_2176_S64x128 broadcasts_S64x1_S64x128 bitsLt_bf16_f32 hWa
      (fun a => load_col arg3 harg3 x2 17 (by decide) inb_S64x32_S64x1_0_17 a 0)
  refine List.forall_mem_cons.mpr ⟨?_, ?_⟩
  · exact slab_ok x0 x1 x2 ⟨16, by decide⟩ 2048 rfl inb_S64x4096_S64x128_0_2048 W _
      slices_S64x4096_o0_2048_S64x128 broadcasts_S64x1_S64x128 bitsLt_bf16_f32 hWa
      (fun a => load_col arg3 harg3 x2 16 (by decide) inb_S64x32_S64x1_0_16 a 0)
  refine List.forall_mem_cons.mpr ⟨?_, ?_⟩
  · exact slab_ok x0 x1 x2 ⟨15, by decide⟩ 1920 rfl inb_S64x4096_S64x128_0_1920 W _
      slices_S64x4096_o0_1920_S64x128 broadcasts_S64x1_S64x128 bitsLt_bf16_f32 hWa
      (fun a => load_col arg3 harg3 x2 15 (by decide) inb_S64x32_S64x1_0_15 a 0)
  refine List.forall_mem_cons.mpr ⟨?_, ?_⟩
  · exact slab_ok x0 x1 x2 ⟨14, by decide⟩ 1792 rfl inb_S64x4096_S64x128_0_1792 W _
      slices_S64x4096_o0_1792_S64x128 broadcasts_S64x1_S64x128 bitsLt_bf16_f32 hWa
      (fun a => load_col arg3 harg3 x2 14 (by decide) inb_S64x32_S64x1_0_14 a 0)
  refine List.forall_mem_cons.mpr ⟨?_, ?_⟩
  · exact slab_ok x0 x1 x2 ⟨13, by decide⟩ 1664 rfl inb_S64x4096_S64x128_0_1664 W _
      slices_S64x4096_o0_1664_S64x128 broadcasts_S64x1_S64x128 bitsLt_bf16_f32 hWa
      (fun a => load_col arg3 harg3 x2 13 (by decide) inb_S64x32_S64x1_0_13 a 0)
  refine List.forall_mem_cons.mpr ⟨?_, ?_⟩
  · exact slab_ok x0 x1 x2 ⟨12, by decide⟩ 1536 rfl inb_S64x4096_S64x128_0_1536 W _
      slices_S64x4096_o0_1536_S64x128 broadcasts_S64x1_S64x128 bitsLt_bf16_f32 hWa
      (fun a => load_col arg3 harg3 x2 12 (by decide) inb_S64x32_S64x1_0_12 a 0)
  refine List.forall_mem_cons.mpr ⟨?_, ?_⟩
  · exact slab_ok x0 x1 x2 ⟨11, by decide⟩ 1408 rfl inb_S64x4096_S64x128_0_1408 W _
      slices_S64x4096_o0_1408_S64x128 broadcasts_S64x1_S64x128 bitsLt_bf16_f32 hWa
      (fun a => load_col arg3 harg3 x2 11 (by decide) inb_S64x32_S64x1_0_11 a 0)
  refine List.forall_mem_cons.mpr ⟨?_, ?_⟩
  · exact slab_ok x0 x1 x2 ⟨10, by decide⟩ 1280 rfl inb_S64x4096_S64x128_0_1280 W _
      slices_S64x4096_o0_1280_S64x128 broadcasts_S64x1_S64x128 bitsLt_bf16_f32 hWa
      (fun a => load_col arg3 harg3 x2 10 (by decide) inb_S64x32_S64x1_0_10 a 0)
  refine List.forall_mem_cons.mpr ⟨?_, ?_⟩
  · exact slab_ok x0 x1 x2 ⟨9, by decide⟩ 1152 rfl inb_S64x4096_S64x128_0_1152 W _
      slices_S64x4096_o0_1152_S64x128 broadcasts_S64x1_S64x128 bitsLt_bf16_f32 hWa
      (fun a => load_col arg3 harg3 x2 9 (by decide) inb_S64x32_S64x1_0_9 a 0)
  refine List.forall_mem_cons.mpr ⟨?_, ?_⟩
  · exact slab_ok x0 x1 x2 ⟨8, by decide⟩ 1024 rfl inb_S64x4096_S64x128_0_1024 W _
      slices_S64x4096_o0_1024_S64x128 broadcasts_S64x1_S64x128 bitsLt_bf16_f32 hWa
      (fun a => load_col arg3 harg3 x2 8 (by decide) inb_S64x32_S64x1_0_8 a 0)
  refine List.forall_mem_cons.mpr ⟨?_, ?_⟩
  · exact slab_ok x0 x1 x2 ⟨7, by decide⟩ 896 rfl inb_S64x4096_S64x128_0_896 W _
      slices_S64x4096_o0_896_S64x128 broadcasts_S64x1_S64x128 bitsLt_bf16_f32 hWa
      (fun a => load_col arg3 harg3 x2 7 (by decide) inb_S64x32_S64x1_0_7 a 0)
  refine List.forall_mem_cons.mpr ⟨?_, ?_⟩
  · exact slab_ok x0 x1 x2 ⟨6, by decide⟩ 768 rfl inb_S64x4096_S64x128_0_768 W _
      slices_S64x4096_o0_768_S64x128 broadcasts_S64x1_S64x128 bitsLt_bf16_f32 hWa
      (fun a => load_col arg3 harg3 x2 6 (by decide) inb_S64x32_S64x1_0_6 a 0)
  refine List.forall_mem_cons.mpr ⟨?_, ?_⟩
  · exact slab_ok x0 x1 x2 ⟨5, by decide⟩ 640 rfl inb_S64x4096_S64x128_0_640 W _
      slices_S64x4096_o0_640_S64x128 broadcasts_S64x1_S64x128 bitsLt_bf16_f32 hWa
      (fun a => load_col arg3 harg3 x2 5 (by decide) inb_S64x32_S64x1_0_5 a 0)
  refine List.forall_mem_cons.mpr ⟨?_, ?_⟩
  · exact slab_ok x0 x1 x2 ⟨4, by decide⟩ 512 rfl inb_S64x4096_S64x128_0_512 W _
      slices_S64x4096_o0_512_S64x128 broadcasts_S64x1_S64x128 bitsLt_bf16_f32 hWa
      (fun a => load_col arg3 harg3 x2 4 (by decide) inb_S64x32_S64x1_0_4 a 0)
  refine List.forall_mem_cons.mpr ⟨?_, ?_⟩
  · exact slab_ok x0 x1 x2 ⟨3, by decide⟩ 384 rfl inb_S64x4096_S64x128_0_384 W _
      slices_S64x4096_o0_384_S64x128 broadcasts_S64x1_S64x128 bitsLt_bf16_f32 hWa
      (fun a => load_col arg3 harg3 x2 3 (by decide) inb_S64x32_S64x1_0_3 a 0)
  refine List.forall_mem_cons.mpr ⟨?_, ?_⟩
  · exact slab_ok x0 x1 x2 ⟨2, by decide⟩ 256 rfl inb_S64x4096_S64x128_0_256 W _
      slices_S64x4096_o0_256_S64x128 broadcasts_S64x1_S64x128 bitsLt_bf16_f32 hWa
      (fun a => load_col arg3 harg3 x2 2 (by decide) inb_S64x32_S64x1_0_2 a 0)
  refine List.forall_mem_cons.mpr ⟨?_, ?_⟩
  · exact slab_ok x0 x1 x2 ⟨1, by decide⟩ 128 rfl inb_S64x4096_S64x128_0_128 W _
      slices_S64x4096_o0_128_S64x128 broadcasts_S64x1_S64x128 bitsLt_bf16_f32 hWa
      (fun a => load_col arg3 harg3 x2 1 (by decide) inb_S64x32_S64x1_0_1 a 0)
  refine List.forall_mem_cons.mpr ⟨?_, ?_⟩
  · exact slab_ok x0 x1 x2 ⟨0, by decide⟩ 0 rfl inb_S64x4096_S64x128_0_0 W _
      slices_S64x4096_o0_0_S64x128 broadcasts_S64x1_S64x128 bitsLt_bf16_f32 hWa
      (fun a => load_col arg3 harg3 x2 0 (by decide) inb_S64x32_S64x1_0_0 a 0)
  exact fun _ h => absurd h List.not_mem_nil

/-- The entry of the output block at row r, column cc. -/
theorem outOf_apply (c : Dev nD) (i : grid1.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32)
    (r : Fin 64) (cc : Fin 4096) :
    outOf (F := Ideal) c i arg1 harg1 arg2 harg2 arg3 harg3 arg4 harg4 x0 x1 x2 (ix2 r cc)
      = x0 (ix2 r (⟨(x1 (ix2 r cc)).toNat % 16, Nat.mod_lt _ (by decide)⟩ : Fin 16)) * x2 (ix2 r (Cert.Spec.grp cc)) := by
  unfold outOf
  rw [View.read_writes_eq_canon _ _ _ (cover c i arg1 harg1 arg2 harg2 arg3 harg3 arg4 harg4 x0 x1 x2)]
  exact View.canon_apply_of_pieces (blockAt x0 x1 x2) _
    (pieces_ok c i arg1 harg1 arg2 harg2 arg3 harg3 arg4 harg4 x0 x1 x2) (ix2 r cc)
    (cover c i arg1 harg1 arg2 harg2 arg3 harg3 arg4 harg4 x0 x1 x2 (ix2 r cc))

end Cert.KernelIdeal.Dq1

end
-- ==== Proof.Dq1Array.lean ====
/-
  From the blocks to the array: what the first dequantisation call leaves in its output array.

  Point t of the call's grid reads rows 64 t .. 64 t + 63 of each of its three input arrays and writes rows
  64 t .. 64 t + 63 of the output; all four blocks span every column of their arrays. The entry of the output
  block at (r, cc) is codebook(r, code(r, cc) mod 16) * scale(r, cc / 128) of the point's input blocks, so what
  point t writes back is rows 64 t .. 64 t + 63 of ONE function of the three input arrays:
      W(o, d) = codebook(o, code(o, d) mod 16) * scale(o, d / 128).
  Row o lies in the block of point o / 64, so the points' blocks cover the output array, which therefore ends
  holding W.
-/
import proofs.«431283_j678604833227_3_alg».proof.Proof.Dq1Block
import Idealize.ShloMosaic.Lib.Pipeline.Value
import Idealize.ShloMosaic.Lib.ValueIdx
import Idealize.ShloMosaic.PureOps.Ideal

set_option maxRecDepth 16384

noncomputable section

namespace Cert.KernelIdeal.Dq1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Array
-- the TensorCore's buffer contents when the region is entered
variable (V : (c : Dev nD) → (b : Ref sig .tc) → Buf (Elt Ideal) ((c : Thread nD τ).loc b))

/-- The three input arrays as the region finds them, at their literal types: the codebook spread over the rows, -/
abbrev cbArr (c : Dev nD) : S1024x16.Idx → EReal := V c main_v6
/-- the codes, -/
abbrev codeArr (c : Dev nD) : S1024x4096.Idx → BitVec 32 := V c main_arg4
/-- and the scales. -/
abbrev scaleArr (c : Dev nD) : S1024x32.Idx → EReal := V c main_arg5

/-- The dequantised weight at row `o`, column `d`. -/
def wAt (c : Dev nD) (o : Fin 1024) (d : Fin 4096) : EReal :=
  cbArr V c (ix2 o (⟨(codeArr V c (ix2 o d)).toNat % 16, Nat.mod_lt _ (by decide)⟩ : Fin 16)) * scaleArr V c (ix2 o (Cert.Spec.grp d))

/-- The whole output array the call leaves: the dequantised weight at every index. -/
def wArr (c : Dev nD) : S1024x4096.Idx → EReal := fun i => wAt V c (i 0) (i 1)

/-- Point t's three input blocks at their literal types: codebook rows, -/
abbrev cbBlk (c : Dev nD) (t : Fin cfg1.N) : S64x16.Idx → EReal := iblk V c 0 t
/-- codes, -/
abbrev codeBlk (c : Dev nD) (t : Fin cfg1.N) : S64x4096.Idx → BitVec 32 := iblk V c 1 t
/-- scales. -/
abbrev scaleBlk (c : Dev nD) (t : Fin cfg1.N) : S64x32.Idx → EReal := iblk V c 2 t

/-- The printed index maps, decided over the grid: at point t every window's block is block (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The codebook block at point t is rows 64 t .. 64 t + 63 of the codebook array. -/
theorem cbBlk_apply (c : Dev nD) (t : Fin cfg1.N) (x : S64x16.Idx) (k : S1024x16.Idx)
    (hk0 : (k 0).val = t.val * 64 + (x 0).val) (hk1 : (k 1).val = (x 1).val) : cbBlk V c t x = cbArr V c k := by
  obtain ⟨e0, e1, -⟩ := idx_facts t
  show V c main_v6 (((cfg1.win 0).blk t).view.emb x) = V c main_v6 k
  congr 1
  funext a
  apply Fin.ext
  match a with
  | ⟨0, _⟩ => show win1_0.index t (0 : Fin 2) * 64 + 1 * (x 0).val = (k 0).val; rw [e0, hk0]; omega
  | ⟨1, _⟩ => show win1_0.index t (1 : Fin 2) * 16 + 1 * (x 1).val = (k 1).val; rw [e1, hk1]; omega

/-- The code block at point t is rows 64 t .. 64 t + 63 of the code array. -/
theorem codeBlk_apply (c : Dev nD) (t : Fin cfg1.N) (x : S64x4096.Idx) (k : S1024x4096.Idx)
    (hk0 : (k 0).val = t.val * 64 + (x 0).val) (hk1 : (k 1).val = (x 1).val) : codeBlk V c t x = codeArr V c k := by
  obtain ⟨-, -, e0, e1, -⟩ := idx_facts t
  show V c main_arg4 (((cfg1.win 1).blk t).view.emb x) = V c main_arg4 k
  congr 1
  funext a
  apply Fin.ext
  match a with
  | ⟨0, _⟩ => show win1_1.index t (0 : Fin 2) * 64 + 1 * (x 0).val = (k 0).val; rw [e0, hk0]; omega
  | ⟨1, _⟩ => show win1_1.index t (1 : Fin 2) * 4096 + 1 * (x 1).val = (k 1).val; rw [e1, hk1]; omega

/-- The scale block at point t is rows 64 t .. 64 t + 63 of the scale array. -/
theorem scaleBlk_apply (c : Dev nD) (t : Fin cfg1.N) (x : S64x32.Idx) (k : S1024x32.Idx)
    (hk0 : (k 0).val = t.val * 64 + (x 0).val) (hk1 : (k 1).val = (x 1).val) : scaleBlk V c t x = scaleArr V c k := by
  obtain ⟨-, -, -, -, e0, e1, -⟩ := idx_facts t
  show V c main_arg5 (((cfg1.win 2).blk t).view.emb x) = V c main_arg5 k
  congr 1
  funext a
  apply Fin.ext
  match a with
  | ⟨0, _⟩ => show win1_2.index t (0 : Fin 2) * 64 + 1 * (x 0).val = (k 0).val; rw [e0, hk0]; omega
  | ⟨1, _⟩ => show win1_2.index t (1 : Fin 2) * 32 + 1 * (x 1).val = (k 1).val; rw [e1, hk1]; omega

/-- The entry the body leaves at row r, column cc of point t's block is the dequantised weight at row o = 64 t + r,
    column d = cc of the array. -/
theorem entry_eq (c : Dev nD) (t : Fin cfg1.N) (r : Fin 64) (cc : Fin 4096) (o : Fin 1024) (d : Fin 4096)
    (ho : o.val = t.val * 64 + r.val) (hd : d.val = cc.val) :
    cbBlk V c t (ix2 r (⟨(codeBlk V c t (ix2 r cc)).toNat % 16, Nat.mod_lt _ (by decide)⟩ : Fin 16)) * scaleBlk V c t (ix2 r (Cert.Spec.grp cc))
      = wAt V c o d := by
  unfold wAt
  rw [codeBlk_apply V c t (ix2 r cc) (ix2 o d) ho hd]
  rw [cbBlk_apply V c t (ix2 r _) (ix2 o (⟨(codeArr V c (ix2 o d)).toNat % 16, Nat.mod_lt _ (by decide)⟩ : Fin 16)) ho rfl]
  rw [scaleBlk_apply V c t (ix2 r (Cert.Spec.grp cc)) (ix2 o (Cert.Spec.grp d)) ho (by show d.val / 128 = cc.val / 128; rw [hd])]

/-- WHAT POINT t WRITES BACK is rows 64 t .. 64 t + 63 of the dequantised weights of the arrays as the region finds them. -/
theorem flushed_eq (c : Dev nD) (t : Fin cfg1.N) :
    (dat (F := Ideal) V c).flushed 3 t = ((cfg1.win 3).blk t).view.read (Elt Ideal) (wArr V c) := by
  show (cfg1.win 3).cut (grid1.coords t) ((dat V c).after 3 t) = _
  rw [after_3]
  unfold out
  funext y
  obtain ⟨-, -, -, -, -, -, e0, e1⟩ := idx_facts t
  have hy0 : (y 0).val < 64 := (y 0).isLt
  have hy1 : (y 1).val < 4096 := (y 1).isLt
  -- the position inside the block, and the position in the array it is written to
  have hx : (cfg1.win 3).xinj (grid1.coords t) y = ix2 (⟨(y 0).val, hy0⟩ : Fin 64) (⟨(y 1).val, hy1⟩ : Fin 4096) := by
    funext a
    match a with
    | ⟨0, _⟩ => rfl
    | ⟨1, _⟩ => rfl
  have he0 : ((((cfg1.win 3).blk t).view.emb y) 0).val = t.val * 64 + (y 0).val := by
    show win1_3.index t (0 : Fin 2) * 64 + 1 * (y 0).val = _; rw [e0]; omega
  have he1 : ((((cfg1.win 3).blk t).view.emb y) 1).val = (y 1).val := by
    show win1_3.index t (1 : Fin 2) * 4096 + 1 * (y 1).val = _; rw [e1]; omega
  show outOf c (grid1.coords t) _ _ _ _ _ _ _ _ (iblk V c 0 t) (iblk V c 1 t) (iblk V c 2 t) ((cfg1.win 3).xinj (grid1.coords t) y)
    = wArr V c (((cfg1.win 3).blk t).view.emb y)
  rw [hx, outOf_apply]
  exact entry_eq V c t ⟨(y 0).val, hy0⟩ ⟨(y 1).val, hy1⟩ _ _ he0 he1

/-- An index of the array is in point t's block iff each coordinate is in the block's range on its axis. -/
theorem mem_blk (t : Fin cfg1.N) (i : S1024x4096.Idx) :
    i ∈ ((cfg1.win 3).blk t).view.set ↔ ∀ a : Fin 2, win1_3.index t a * S64x4096.size a ≤ (i a).val ∧ (i a).val < win1_3.index t a * S64x4096.size a + S64x4096.size a := by
  show i ∈ ((View.whole main_v7).slice (win1_3.rect t)).set ↔ _
  rw [View.set_slice_whole, Rect.mem_set_unit]
  exact Iff.rfl

/-- The rows are the grid's points times the 64 rows of a block. -/
theorem rows_eq : S1024x4096.size (0 : Fin 2) = grid1.N * 64 := by decide

/-- Every index of the output array is in the block of the point its row divided by 64 names. -/
theorem covered (i : S1024x4096.Idx) : ∃ t : Fin cfg1.N, (cfg1.win 3).flush t = true ∧ i ∈ ((cfg1.win 3).blk t).view.set := by
  have hi0 : (i 0).val < grid1.N * 64 := rows_eq ▸ (i 0).isLt
  have hi1 : (i 1).val < 4096 := (i 1).isLt
  have ht : (i 0).val / 64 < grid1.N := Nat.div_lt_of_lt_mul (by rw [Nat.mul_comm]; exact hi0)
  refine ⟨⟨(i 0).val / 64, ht⟩, flush1_3 _, ?_⟩
  obtain ⟨-, -, -, -, -, -, e0, e1⟩ := idx_facts ⟨(i 0).val / 64, ht⟩
  rw [mem_blk]
  intro a
  match a with
  | ⟨0, _⟩ =>
    show win1_3.index ⟨(i 0).val / 64, ht⟩ (0 : Fin 2) * 64 ≤ (i 0).val ∧ (i 0).val < win1_3.index ⟨(i 0).val / 64, ht⟩ (0 : Fin 2) * 64 + 64
    rw [e0]; show (i 0).val / 64 * 64 ≤ (i 0).val ∧ (i 0).val < (i 0).val / 64 * 64 + 64; omega
  | ⟨1, _⟩ =>
    show win1_3.index ⟨(i 0).val / 64, ht⟩ (1 : Fin 2) * 4096 ≤ (i 1).val ∧ (i 1).val < win1_3.index ⟨(i 0).val / 64, ht⟩ (1 : Fin 2) * 4096 + 4096
    rw [e1]; omega

/-- The output array after the call's last point, at its literal type. -/
abbrev outArr (c : Dev nD) : S1024x4096.Idx → EReal := (dat (F := Ideal) V c).arrAt 3 cfg1.N

/-- THE OUTPUT ARRAY after the call: the dequantised weight at every index. -/
theorem arr_eq (c : Dev nD) : (dat (F := Ideal) V c).arrAt 3 cfg1.N = wArr V c :=
  (dat (F := Ideal) V c).arrAt_eq_of_cover 3 (wArr V c) (fun t _ => flushed_eq V c t) covered

/-- Entry by entry: row o, column d of the output array is codebook(o, code(o, d) mod 16) * scale(o, d / 128). -/
theorem final (c : Dev nD) (o : Fin 1024) (d : Fin 4096) :
    outArr V c (ix2 o d)
      = cbArr V c (ix2 o (⟨(codeArr V c (ix2 o d)).toNat % 16, Nat.mod_lt _ (by decide)⟩ : Fin 16)) * scaleArr V c (ix2 o (Cert.Spec.grp d)) :=
  congrFun (arr_eq V c) (ix2 o d)

end Array

end Cert.KernelIdeal.Dq1

end
-- ==== Proof.Dq2Block.lean ====
/-
  What the dequantisation body leaves in its output block, entry by entry, over the extended reals.

  At row r and column c of the 64 x 4096 block the body has selected, by a four-level binary tree on the low four
  bits of the code at (r, c), one of the sixteen codebook entries of row r, and multiplied it by the scale of
  row r and of the group of 128 columns that c lies in; the final change of float format is the identity on
  the extended reals. So the entry is codebook(r, code(r, c) mod 16) * scale(r, c / 128).

  The proof has four parts. (1) On a 32-bit word w, the test (w and 2^k) != 0 is bit k of the number of w, so the
  tree of selects on bits 0 to 3 over sixteen values picks value number (w mod 16). (2) A column broadcast along the
  rows, a column loaded from a whole buffer, and a band of 128 columns cut from the block, each read at an entry.
  (3) The selected weight at (r, c) is therefore codebook(r, code(r, c) mod 16), and the slab stored at column
  offset 128 g has at (r, j) the entry weight(r, 128 g + j) * scale(r, g). (4) The thirty-two slabs are blocks of
  one function of the output index, and they tile the output block, so the block read back is that function.
-/
import proofs.«431283_j678604833227_3_alg».proof.Proof.Dq2
import proofs.«431283_j678604833227_3_alg».proof.Proof.Spec
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Dq2

open Idealize.ShloMosaic Idealize.ShloMosaic.TcCoe Idealize.ShloMosaic.ValueIdx Idealize.ShloMosaic.Tactic
open Idealize.SL Idealize.SL.Sem
open Cert.KernelIdeal Cert.KernelIdeal.Gen

/-! ## The four bit tests of a code select the entry numbered by its low four bits -/

section Bits

/-- Masking a word with a power of two and comparing with zero tests that bit of the word's number. -/
theorem test_bit (w m : BitVec 32) (k : ℕ) (hm : m = BitVec.twoPow 32 k) (hne : BitVec.twoPow 32 k ≠ 0#32) :
    IntOp.cmpi .ne (IntOp.andi w m) 0#32 = BitVec.ofBool (w.toNat.testBit k) := by
  subst hm
  unfold IntOp.cmpi IntOp.andi
  rw [BitVec.and_twoPow, BitVec.testBit_toNat]
  cases w.getLsbD k
  · rfl
  · exact congrArg BitVec.ofBool (bne_iff_ne.mpr hne)

/-- A select on a one-bit word that encodes a truth value is the choice by that truth value. -/
theorem select_ofBool {α : Type} (b : Bool) (A B : α) : Scalar.select (BitVec.ofBool b) A B = if b then A else B := by
  cases b
  · exact if_neg (by decide)
  · exact if_pos rfl

/-- The select on bit k of a word, by the quotient and remainder of the word's number. -/
theorem select_bit {α : Type} (w m : BitVec 32) (k d : ℕ) (hm : m = BitVec.twoPow 32 k) (hne : BitVec.twoPow 32 k ≠ 0#32)
    (hd : d = 2 ^ k) (A B : α) :
    Scalar.select (IntOp.cmpi .ne (IntOp.andi w m) 0#32) A B = if w.toNat / d % 2 = 1 then A else B := by
  subst hd
  rw [test_bit w m k hm hne, select_ofBool, Nat.testBit_eq_decide_div_mod_eq]
  by_cases h : w.toNat / 2 ^ k % 2 = 1
  · rw [if_pos h, decide_eq_true h]; rfl
  · rw [if_neg h, decide_eq_false h]; rfl

/-- The four-level tree of selects on bits 0, 1, 2, 3 of a word, over sixteen values, picks the value numbered by the
    word's number modulo 16. -/
theorem tree16 {α : Type} (w : BitVec 32) (e : Fin 16 → α) :
    Scalar.select (IntOp.cmpi .ne (IntOp.andi w 8#32) 0#32)
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨15, by decide⟩) (e ⟨14, by decide⟩))
          (Scalar.select (IntOp.cmpi .ne (IntOp.andi w 1#32) 0#32) (e ⟨13, by decide⟩) (e ⟨12, by decide⟩)))
        (Scalar.select (IntOp.cmpi .ne (IntOp.andi w 2#32) 0#32)
          (Scalar.select (IntOp.cmpi .ne (IntOp.andi w 1#32) 0#32) (e ⟨11, by decide⟩) (e ⟨10, by decide⟩))
          (Scalar.select (IntOp.cmpi .ne (IntOp.andi w 1#32) 0#32) (e ⟨9, by decide⟩) (e ⟨8, by decide⟩))))
      (Scalar.select (IntOp.cmpi .ne (IntOp.andi w 4#32) 0#32)
        (Scalar.select (IntOp.cmpi .ne (IntOp.andi w 2#32) 0#32)
          (Scalar.select (IntOp.cmpi .ne (IntOp.andi w 1#32) 0#32) (e ⟨7, by decide⟩) (e ⟨6, by decide⟩))
          (Scalar.select (IntOp.cmpi .ne (IntOp.andi w 1#32) 0#32) (e ⟨5, by decide⟩) (e ⟨4, by decide⟩)))
        (Scalar.select (IntOp.cmpi .ne (IntOp.andi w 2#32) 0#32)
          (Scalar.select (IntOp.cmpi .ne (IntOp.andi w 1#32) 0#32) (e ⟨3, by decide⟩) (e ⟨2, by decide⟩))
          (Scalar.select (IntOp.cmpi .ne (IntOp.andi w 1#32) 0#32) (e ⟨1, by decide⟩) (e ⟨0, by decide⟩))))
      = e ⟨w.toNat % 16, Nat.mod_lt _ (by decide)⟩ := by
  simp only [select_bit w 1#32 0 1 (by decide) (by decide) (by decide), select_bit w 2#32 1 2 (by decide) (by decide) (by decide),
    select_bit w 4#32 2 4 (by decide) (by decide) (by decide), select_bit w 8#32 3 8 (by decide) (by decide) (by decide)]
  split_ifs <;> exact congrArg e (Fin.ext (by dsimp only; omega))

end Bits

/-! ## Layout operations of the body read at an entry -/

section Layout

variable {α : Type}

/-- A column of n entries broadcast along the rows to n by m reads, at (a, j), the column's entry of row a. -/
theorem broadcastTo_a1_ab_apply {n m : ℕ} (v : (⟨2, ![n, 1]⟩ : Shape).Idx → α)
    (h : (⟨2, ![n, 1]⟩ : Shape).Broadcasts ⟨2, ![n, m]⟩) (a : Fin n) (j : Fin m) :
    broadcastTo ⟨2, ![n, m]⟩ v h (ix2 a j) = v (ix2 a (0 : Fin 1)) := by
  refine broadcastTo_apply v h (ix2 a j) (ix2 a (0 : Fin 1)) fun ax => ?_
  match ax with
  | ⟨0, _⟩ =>
    show a.val = if n = 1 then 0 else a.val
    split
    · have := a.isLt; omega
    · rfl
  | ⟨1, _⟩ => rfl

/-- The rectangle of all n rows and the one column k lies inside an n by m matrix. -/
theorem inb_col {n m : ℕ} (k : ℕ) (hk : k < m) :
    ∀ ax, (![0, k] : Fin 2 → ℕ) ax + (![n, 1] : Fin 2 → ℕ) ax ≤ (⟨2, ![n, m]⟩ : Shape).size ax :=
  Rect.inb₂ (by show 0 + n ≤ n; omega) (by show k + 1 ≤ m; omega)

/-- Column k of a matrix, read through the rectangle of its rows and that column, has at row a the matrix's entry (a, k). -/
theorem ld_col_apply {n m : ℕ} (X : (⟨2, ![n, m]⟩ : Shape).Idx → α) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    X ((Rect.unit (s := ⟨2, ![n, m]⟩) ![0, k] ![n, 1] inb).idx (ix2 a u)) = X (ix2 a (⟨k, hk⟩ : Fin m)) := by
  refine congrArg X (funext fun ax => Fin.ext ?_)
  match ax with
  | ⟨0, _⟩ => show 0 + 1 * a.val = a.val; omega
  | ⟨1, _⟩ => show k + 1 * u.val = k; have := u.isLt; omega

end Layout

/-- The zero offsets of a rank-two access, as the constant function. -/
theorem offsets_zero2 : (![0, 0] : Fin 2 → ℕ) = fun _ => 0 := funext fun a => by fin_cases a <;> rfl

/-- A whole buffer holding X, loaded in full, reads X. -/
theorem load_whole {S : Shape} {e : EltTy} (arg : Memref sig .tc .vmem S e) (harg : arg.IsWhole) (X : Vec Ideal S e)
    {off : Fin S.rank → ℕ} (hoff : off = fun _ => 0) (inb : ∀ a, off a + S.size a ≤ S.size a) :
    View.readAt (Elt Ideal) arg.view (Rect.unit off S.size inb).toLoadRect (harg.unread X) = X := by
  rw [View.readAt_eq_ld, harg.read_unread]
  exact View.ld_unit_zero hoff inb X

/-- A whole n by m buffer holding X, loaded at the rectangle of column k, reads at row a the entry X (a, k). -/
theorem load_col {n m : ℕ} {e : EltTy} (arg : Memref sig .tc .vmem ⟨2, ![n, m]⟩ e) (harg : arg.IsWhole)
    (X : Vec Ideal ⟨2, ![n, m]⟩ e) (k : ℕ) (hk : k < m)
    (inb : ∀ ax, (![0, k] : Fin 2 → ℕ) ax + (![n, 1] : Fin 2 → ℕ) ax ≤ (⟨2, ![n, m]⟩ : Shape).size ax)
    (a : Fin n) (u : Fin 1) :
    View.readAt (Elt Ideal) arg.view (Rect.unit (s := ⟨2, ![n, m]⟩) ![0, k] ![n, 1] inb).toLoadRect (harg.unread X) (ix2 a u)
      = X (ix2 a (⟨k, hk⟩ : Fin m)) := by
  rw [View.readAt_eq_ld, harg.read_unread]
  exact ld_col_apply X k hk inb a u

/-! ## The selected weight and one stored slab -/

/-- The selected weight at (a, k): the sixteen loaded codebook columns, broadcast along the row and chosen among by the
    four bit tests of the code at (a, k), give the column numbered by the code's low four bits, at row a. -/
theorem weight_apply (v0 : Vec Ideal S64x4096 .i32) (cs : Fin 16 → Vec Ideal S64x1 .f32) (e : Fin 16 → Elt Ideal .f32)
    (a : Fin 64) (k : Fin 4096) (hc : ∀ n : Fin 16, cs n (ix2 a (0 : Fin 1)) = e n) :
    k2_pay14 (F := Ideal) (k2_pay2 (F := Ideal) v0) (k2_pay3 (F := Ideal) v0) (k2_pay4 (F := Ideal) v0) (k2_pay5 (F := Ideal) v0)
        (k2_pay6 (F := Ideal) v0 (cs ⟨1, by decide⟩) (cs ⟨0, by decide⟩))
        (k2_pay7 (F := Ideal) v0 (cs ⟨3, by decide⟩) (cs ⟨2, by decide⟩))
        (k2_pay9 (F := Ideal) (k2_pay2 (F := Ideal) v0) (k2_pay8 (F := Ideal) (cs ⟨5, by decide⟩)) (cs ⟨4, by decide⟩))
        (k2_pay10 (F := Ideal) (k2_pay2 (F := Ideal) v0) (cs ⟨7, by decide⟩) (cs ⟨6, by decide⟩))
        (k2_pay11 (F := Ideal) (k2_pay2 (F := Ideal) v0) (cs ⟨9, by decide⟩) (cs ⟨8, by decide⟩))
        (k2_pay12 (F := Ideal) (k2_pay2 (F := Ideal) v0) (cs ⟨11, by decide⟩) (cs ⟨10, by decide⟩))
        (k2_pay13 (F := Ideal) (k2_pay2 (F := Ideal) v0) (cs ⟨13, by decide⟩) (cs ⟨12, by decide⟩))
        (cs ⟨15, by decide⟩) (cs ⟨14, by decide⟩) (ix2 a k)
      = e ⟨(v0 (ix2 a k)).toNat % 16, Nat.mod_lt _ (by decide)⟩ := by
  have L : ∀ n : Fin 16, broadcastTo S64x4096 (shapeCast S64x1 (shapeCast S64x1 (cs n) shapeCasts_S64x1_S64x1)
      shapeCasts_S64x1_S64x1) broadcasts_S64x1_S64x4096 (ix2 a k) = e n := fun n => by
    rw [broadcastTo_a1_ab_apply, shapeCast_self, shapeCast_self]; exact hc n
  refine Eq.trans ?_ (tree16 (v0 (ix2 a k)) e)
  simp only [← L]
  rfl

/-- One stored slab at (a, j): the weight at column o + j of row a, times the scale column's entry of row a (the change
    of float format is the identity on the extended reals). -/
theorem slab_apply (o : ℕ) (W : FVec Ideal S64x4096 .f32) (s : Vec Ideal S64x1 .f32)
    (hS : S64x4096.Slices ![0, o] S64x128) (hB : S64x1.Broadcasts S64x128) (hT : FTy.bf16.bits < FTy.f32.bits)
    (a : Fin 64) (j : Fin 128) (k : Fin 4096) (hk : k.val = o + j.val) :
    (truncf .bf16 (mulf (extractStridedSlice S64x128 ![0, o] W hS) (broadcastTo S64x128 s hB)) hT : FVec Ideal S64x128 .bf16) (ix2 a j)
      = W (ix2 a k) * s (ix2 a (0 : Fin 1)) := by
  show extractStridedSlice S64x128 ![0, o] W hS (ix2 a j) * broadcastTo S64x128 s hB (ix2 a j) = _
  rw [slice2_axis1_apply o W hS a j k hk, broadcastTo_a1_ab_apply s hB a j]

/-- The entry of the dequantised block at an index: the codebook entry of the index's row that the low four bits of the
    code there number, times the scale of that row and of the index's group of 128 columns. -/
def blockAt (x0 : Vec Ideal S64x16 .f32) (x1 : Vec Ideal S64x4096 .i32) (x2 : Vec Ideal S64x32 .f32) (y : S64x4096.Idx) :
    Elt Ideal .bf16 :=
  x0 (ix2 (⟨(y 0).val, idx2_lt0 y⟩ : Fin 64) (⟨(x1 y).toNat % 16, Nat.mod_lt _ (by decide)⟩ : Fin 16))
    * x2 (ix2 (⟨(y 0).val, idx2_lt0 y⟩ : Fin 64) (Cert.Spec.grp ⟨(y 1).val, idx2_lt1 y⟩))

/-- The slab stored at column offset o = 128 g is the block's entries on its rectangle, given that the weight is the
    selected codebook entry and the scale column is column g of the scales. -/
theorem slab_ok (x0 : Vec Ideal S64x16 .f32) (x1 : Vec Ideal S64x4096 .i32) (x2 : Vec Ideal S64x32 .f32)
    (g : Fin 32) (o : ℕ) (ho : o = 128 * g.val)
    (inb : ∀ ax, (![0, o] : Fin 2 → ℕ) ax + (![64, 128] : Fin 2 → ℕ) ax ≤ S64x4096.size ax)
    (W : FVec Ideal S64x4096 .f32) (s : Vec Ideal S64x1 .f32)
    (hS : S64x4096.Slices ![0, o] S64x128) (hB : S64x1.Broadcasts S64x128) (hT : FTy.bf16.bits < FTy.f32.bits)
    (hW : ∀ (a : Fin 64) (k : Fin 4096),
      W (ix2 a k) = x0 (ix2 a (⟨(x1 (ix2 a k)).toNat % 16, Nat.mod_lt _ (by decide)⟩ : Fin 16)))
    (hs : ∀ a : Fin 64, s (ix2 a (0 : Fin 1)) = x2 (ix2 a g))
    (x : S64x128.Idx) :
    (truncf .bf16 (mulf (extractStridedSlice S64x128 ![0, o] W hS) (broadcastTo S64x128 s hB)) hT : FVec Ideal S64x128 .bf16) x
      = blockAt x0 x1 x2 ((Rect.unit (s := S64x4096) ![0, o] ![64, 128] inb).emb x) := by
  obtain ⟨a, j, rfl⟩ : ∃ (a : Fin 64) (j : Fin 128), x = ix2 a j := ⟨x 0, x 1, eq_ix2 x⟩
  have hk : o + j.val < 4096 := by have := g.isLt; have := j.isLt; omega
  have hg : Cert.Spec.grp (⟨o + j.val, hk⟩ : Fin 4096) = g :=
    Fin.ext (by show (o + j.val) / 128 = g.val; have := j.isLt; omega)
  have he : (Rect.unit (s := S64x4096) ![0, o] ![64, 128] inb).emb (ix2 a j) = ix2 a (⟨o + j.val, hk⟩ : Fin 4096) := by
    funext ax
    apply Fin.ext
    match ax with
    | ⟨0, _⟩ => show 0 + 1 * a.val = a.val; omega
    | ⟨1, _⟩ => show o + 1 * j.val = o + j.val; omega
  rw [slab_apply o W s hS hB hT a j ⟨o + j.val, hk⟩ rfl, hW, hs, he]
  show _ = x0 (ix2 a _) * x2 (ix2 a (Cert.Spec.grp (⟨o + j.val, hk⟩ : Fin 4096)))
  rw [hg]

/-! ## Every stored piece is the block on its rectangle -/

/-- Each of the thirty-two pieces the body's run found holds, at each of its entries, the dequantised block's entry at the
    place of the output block the piece's rectangle puts it. -/
theorem pieces_ok (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32) :
    ∀ p ∈ (kernelRun (F := Ideal) c i arg1 harg1 arg2 harg2 arg3 harg3 arg4 harg4 x0 x1 x2).1,
      ∀ x : p.1.shape.Idx, p.2 x = blockAt x0 x1 x2 (p.1.emb x) := by
  unfold kernelRun
  dsimp only
  sl_unfold_words
  unfold k2_pay15 k2_pay16 k2_pay17 k2_pay18
  generalize hV : View.readAt (Elt Ideal) arg2.view _ (harg2.unread x1) = V0
  have hV0 : x1 = V0 := by rw [← hV]; exact (load_whole arg2 harg2 x1 offsets_zero2 _).symm
  subst hV0
  generalize hW : k2_pay14 _ _ _ _ _ _ _ _ _ _ _ _ _ = W
  have hWa : ∀ (a : Fin 64) (k : Fin 4096),
      W (ix2 a k) = x0 (ix2 a (⟨(x1 (ix2 a k)).toNat % 16, Nat.mod_lt _ (by decide)⟩ : Fin 16)) := by
    subst hW
    intro a k
    exact weight_apply x1
      (fun n => View.readAt (Elt Ideal) arg1.view
        (Rect.unit (s := S64x16) ![0, n.val] S64x1.size (inb_col n.val n.isLt)).toLoadRect (harg1.unread x0))
      (fun n => x0 (ix2 a n)) a k (fun n => load_col arg1 harg1 x0 n.val n.isLt _ a 0)
  refine List.forall_mem_cons.mpr ⟨?_, ?_⟩
  · exact slab_ok x0 x1 x2 ⟨31, by decide⟩ 3968 rfl inb_S64x4096_S64x128_0_3968 W _
      slices_S64x4096_o0_3968_S64x128 broadcasts_S64x1_S64x128 bitsLt_bf16_f32 hWa
      (fun a => load_col arg3 harg3 x2 31 (by decide) inb_S64x32_S64x1_0_31 a 0)
  refine List.forall_mem_cons.mpr ⟨?_, ?_⟩
  · exact slab_ok x0 x1 x2 ⟨30, by decide⟩ 3840 rfl inb_S64x4096_S64x128_0_3840 W _
      slices_S64x4096_o0_3840_S64x128 broadcasts_S64x1_S64x128 bitsLt_bf16_f32 hWa
      (fun a => load_col arg3 harg3 x2 30 (by decide) inb_S64x32_S64x1_0_30 a 0)
  refine List.forall_mem_cons.mpr ⟨?_, ?_⟩
  · exact slab_ok x0 x1 x2 ⟨29, by decide⟩ 3712 rfl inb_S64x4096_S64x128_0_3712 W _
      slices_S64x4096_o0_3712_S64x128 broadcasts_S64x1_S64x128 bitsLt_bf16_f32 hWa
      (fun a => load_col arg3 harg3 x2 29 (by decide) inb_S64x32_S64x1_0_29 a 0)
  refine List.forall_mem_cons.mpr ⟨?_, ?_⟩
  · exact slab_ok x0 x1 x2 ⟨28, by decide⟩ 3584 rfl inb_S64x4096_S64x128_0_3584 W _
      slices_S64x4096_o0_3584_S64x128 broadcasts_S64x1_S64x128 bitsLt_bf16_f32 hWa
      (fun a => load_col arg3 harg3 x2 28 (by decide) inb_S64x32_S64x1_0_28 a 0)
  refine List.forall_mem_cons.mpr ⟨?_, ?_⟩
  · exact slab_ok x0 x1 x2 ⟨27, by decide⟩ 3456 rfl inb_S64x4096_S64x128_0_3456 W _
      slices_S64x4096_o0_3456_S64x128 broadcasts_S64x1_S64x128 bitsLt_bf16_f32 hWa
      (fun a => load_col arg3 harg3 x2 27 (by decide) inb_S64x32_S64x1_0_27 a 0)
  refine List.forall_mem_cons.mpr ⟨?_, ?_⟩
  · exact slab_ok x0 x1 x2 ⟨26, by decide⟩ 3328 rfl inb_S64x4096_S64x128_0_3328 W _
      slices_S64x4096_o0_3328_S64x128 broadcasts_S64x1_S64x128 bitsLt_bf16_f32 hWa
      (fun a => load_col arg3 harg3 x2 26 (by decide) inb_S64x32_S64x1_0_26 a 0)
  refine List.forall_mem_cons.mpr ⟨?_, ?_⟩
  · exact slab_ok x0 x1 x2 ⟨25, by decide⟩ 3200 rfl inb_S64x4096_S64x128_0_3200 W _
      slices_S64x4096_o0_3200_S64x128 broadcasts_S64x1_S64x128 bitsLt_bf16_f32 hWa
      (fun a => load_col arg3 harg3 x2 25 (by decide) inb_S64x32_S64x1_0_25 a 0)
  refine List.forall_mem_cons.mpr ⟨?_, ?_⟩
  · exact slab_ok x0 x1 x2 ⟨24, by decide⟩ 3072 rfl inb_S64x4096_S64x128_0_3072 W _
      slices_S64x4096_o0_3072_S64x128 broadcasts_S64x1_S64x128 bitsLt_bf16_f32 hWa
      (fun a => load_col arg3 harg3 x2 24 (by decide) inb_S64x32_S64x1_0_24 a 0)
  refine List.forall_mem_cons.mpr ⟨?_, ?_⟩
  · exact slab_ok x0 x1 x2 ⟨23, by decide⟩ 2944 rfl inb_S64x4096_S64x128_0_2944 W _
      slices_S64x4096_o0_2944_S64x128 broadcasts_S64x1_S64x128 bitsLt_bf16_f32 hWa
      (fun a => load_col arg3 harg3 x2 23 (by decide) inb_S64x32_S64x1_0_23 a 0)
  refine List.forall_mem_cons.mpr ⟨?_, ?_⟩
  · exact slab_ok x0 x1 x2 ⟨22, by decide⟩ 2816 rfl inb_S64x4096_S64x128_0_2816 W _
      slices_S64x4096_o0_2816_S64x128 broadcasts_S64x1_S64x128 bitsLt_bf16_f32 hWa
      (fun a => load_col arg3 harg3 x2 22 (by decide) inb_S64x32_S64x1_0_22 a 0)
  refine List.forall_mem_cons.mpr ⟨?_, ?_⟩
  · exact slab_ok x0 x1 x2 ⟨21, by decide⟩ 2688 rfl inb_S64x4096_S64x128_0_2688 W _
      slices_S64x4096_o0_2688_S64x128 broadcasts_S64x1_S64x128 bitsLt_bf16_f32 hWa
      (fun a => load_col arg3 harg3 x2 21 (by decide) inb_S64x32_S64x1_0_21 a 0)
  refine List.forall_mem_cons.mpr ⟨?_, ?_⟩
  · exact slab_ok x0 x1 x2 ⟨20, by decide⟩ 2560 rfl inb_S64x4096_S64x128_0_2560 W _
      slices_S64x4096_o0_2560_S64x128 broadcasts_S64x1_S64x128 bitsLt_bf16_f32 hWa
      (fun a => load_col arg3 harg3 x2 20 (by decide) inb_S64x32_S64x1_0_20 a 0)
  refine List.forall_mem_cons.mpr ⟨?_, ?_⟩
  · exact slab_ok x0 x1 x2 ⟨19, by decide⟩ 2432 rfl inb_S64x4096_S64x128_0_2432 W _
      slices_S64x4096_o0_2432_S64x128 broadcasts_S64x1_S64x128 bitsLt_bf16_f32 hWa
      (fun a => load_col arg3 harg3 x2 19 (by decide) inb_S64x32_S64x1_0_19 a 0)
  refine List.forall_mem_cons.mpr ⟨?_, ?_⟩
  · exact slab_ok x0 x1 x2 ⟨18, by decide⟩ 2304 rfl inb_S64x4096_S64x128_0_2304 W _
      slices_S64x4096_o0_2304_S64x128 broadcasts_S64x1_S64x128 bitsLt_bf16_f32 hWa
      (fun a => load_col arg3 harg3 x2 18 (by decide) inb_S64x32_S64x1_0_18 a 0)
  refine List.forall_mem_cons.mpr ⟨?_, ?_⟩
  · exact slab_ok x0 x1 x2 ⟨17, by decide⟩ 2176 rfl inb_S64x4096_S64x128_0_2176 W _
      slices_S64x4096_o0_2176_S64x128 broadcasts_S64x1_S64x128 bitsLt_bf16_f32 hWa
      (fun a => load_col arg3 harg3 x2 17 (by decide) inb_S64x32_S64x1_0_17 a 0)
  refine List.forall_mem_cons.mpr ⟨?_, ?_⟩
  · exact slab_ok x0 x1 x2 ⟨16, by decide⟩ 2048 rfl inb_S64x4096_S64x128_0_2048 W _
      slices_S64x4096_o0_2048_S64x128 broadcasts_S64x1_S64x128 bitsLt_bf16_f32 hWa
      (fun a => load_col arg3 harg3 x2 16 (by decide) inb_S64x32_S64x1_0_16 a 0)
  refine List.forall_mem_cons.mpr ⟨?_, ?_⟩
  · exact slab_ok x0 x1 x2 ⟨15, by decide⟩ 1920 rfl inb_S64x4096_S64x128_0_1920 W _
      slices_S64x4096_o0_1920_S64x128 broadcasts_S64x1_S64x128 bitsLt_bf16_f32 hWa
      (fun a => load_col arg3 harg3 x2 15 (by decide) inb_S64x32_S64x1_0_15 a 0)
  refine List.forall_mem_cons.mpr ⟨?_, ?_⟩
  · exact slab_ok x0 x1 x2 ⟨14, by decide⟩ 1792 rfl inb_S64x4096_S64x128_0_1792 W _
      slices_S64x4096_o0_1792_S64x128 broadcasts_S64x1_S64x128 bitsLt_bf16_f32 hWa
      (fun a => load_col arg3 harg3 x2 14 (by decide) inb_S64x32_S64x1_0_14 a 0)
  refine List.forall_mem_cons.mpr ⟨?_, ?_⟩
  · exact slab_ok x0 x1 x2 ⟨13, by decide⟩ 1664 rfl inb_S64x4096_S64x128_0_1664 W _
      slices_S64x4096_o0_1664_S64x128 broadcasts_S64x1_S64x128 bitsLt_bf16_f32 hWa
      (fun a => load_col arg3 harg3 x2 13 (by decide) inb_S64x32_S64x1_0_13 a 0)
  refine List.forall_mem_cons.mpr ⟨?_, ?_⟩
  · exact slab_ok x0 x1 x2 ⟨12, by decide⟩ 1536 rfl inb_S64x4096_S64x128_0_1536 W _
      slices_S64x4096_o0_1536_S64x128 broadcasts_S64x1_S64x128 bitsLt_bf16_f32 hWa
      (fun a => load_col arg3 harg3 x2 12 (by decide) inb_S64x32_S64x1_0_12 a 0)
  refine List.forall_mem_cons.mpr ⟨?_, ?_⟩
  · exact slab_ok x0 x1 x2 ⟨11, by decide⟩ 1408 rfl inb_S64x4096_S64x128_0_1408 W _
      slices_S64x4096_o0_1408_S64x128 broadcasts_S64x1_S64x128 bitsLt_bf16_f32 hWa
      (fun a => load_col arg3 harg3 x2 11 (by decide) inb_S64x32_S64x1_0_11 a 0)
  refine List.forall_mem_cons.mpr ⟨?_, ?_⟩
  · exact slab_ok x0 x1 x2 ⟨10, by decide⟩ 1280 rfl inb_S64x4096_S64x128_0_1280 W _
      slices_S64x4096_o0_1280_S64x128 broadcasts_S64x1_S64x128 bitsLt_bf16_f32 hWa
      (fun a => load_col arg3 harg3 x2 10 (by decide) inb_S64x32_S64x1_0_10 a 0)
  refine List.forall_mem_cons.mpr ⟨?_, ?_⟩
  · exact slab_ok x0 x1 x2 ⟨9, by decide⟩ 1152 rfl inb_S64x4096_S64x128_0_1152 W _
      slices_S64x4096_o0_1152_S64x128 broadcasts_S64x1_S64x128 bitsLt_bf16_f32 hWa
      (fun a => load_col arg3 harg3 x2 9 (by decide) inb_S64x32_S64x1_0_9 a 0)
  refine List.forall_mem_cons.mpr ⟨?_, ?_⟩
  · exact slab_ok x0 x1 x2 ⟨8, by decide⟩ 1024 rfl inb_S64x4096_S64x128_0_1024 W _
      slices_S64x4096_o0_1024_S64x128 broadcasts_S64x1_S64x128 bitsLt_bf16_f32 hWa
      (fun a => load_col arg3 harg3 x2 8 (by decide) inb_S64x32_S64x1_0_8 a 0)
  refine List.forall_mem_cons.mpr ⟨?_, ?_⟩
  · exact slab_ok x0 x1 x2 ⟨7, by decide⟩ 896 rfl inb_S64x4096_S64x128_0_896 W _
      slices_S64x4096_o0_896_S64x128 broadcasts_S64x1_S64x128 bitsLt_bf16_f32 hWa
      (fun a => load_col arg3 harg3 x2 7 (by decide) inb_S64x32_S64x1_0_7 a 0)
  refine List.forall_mem_cons.mpr ⟨?_, ?_⟩
  · exact slab_ok x0 x1 x2 ⟨6, by decide⟩ 768 rfl inb_S64x4096_S64x128_0_768 W _
      slices_S64x4096_o0_768_S64x128 broadcasts_S64x1_S64x128 bitsLt_bf16_f32 hWa
      (fun a => load_col arg3 harg3 x2 6 (by decide) inb_S64x32_S64x1_0_6 a 0)
  refine List.forall_mem_cons.mpr ⟨?_, ?_⟩
  · exact slab_ok x0 x1 x2 ⟨5, by decide⟩ 640 rfl inb_S64x4096_S64x128_0_640 W _
      slices_S64x4096_o0_640_S64x128 broadcasts_S64x1_S64x128 bitsLt_bf16_f32 hWa
      (fun a => load_col arg3 harg3 x2 5 (by decide) inb_S64x32_S64x1_0_5 a 0)
  refine List.forall_mem_cons.mpr ⟨?_, ?_⟩
  · exact slab_ok x0 x1 x2 ⟨4, by decide⟩ 512 rfl inb_S64x4096_S64x128_0_512 W _
      slices_S64x4096_o0_512_S64x128 broadcasts_S64x1_S64x128 bitsLt_bf16_f32 hWa
      (fun a => load_col arg3 harg3 x2 4 (by decide) inb_S64x32_S64x1_0_4 a 0)
  refine List.forall_mem_cons.mpr ⟨?_, ?_⟩
  · exact slab_ok x0 x1 x2 ⟨3, by decide⟩ 384 rfl inb_S64x4096_S64x128_0_384 W _
      slices_S64x4096_o0_384_S64x128 broadcasts_S64x1_S64x128 bitsLt_bf16_f32 hWa
      (fun a => load_col arg3 harg3 x2 3 (by decide) inb_S64x32_S64x1_0_3 a 0)
  refine List.forall_mem_cons.mpr ⟨?_, ?_⟩
  · exact slab_ok x0 x1 x2 ⟨2, by decide⟩ 256 rfl inb_S64x4096_S64x128_0_256 W _
      slices_S64x4096_o0_256_S64x128 broadcasts_S64x1_S64x128 bitsLt_bf16_f32 hWa
      (fun a => load_col arg3 harg3 x2 2 (by decide) inb_S64x32_S64x1_0_2 a 0)
  refine List.forall_mem_cons.mpr ⟨?_, ?_⟩
  · exact slab_ok x0 x1 x2 ⟨1, by decide⟩ 128 rfl inb_S64x4096_S64x128_0_128 W _
      slices_S64x4096_o0_128_S64x128 broadcasts_S64x1_S64x128 bitsLt_bf16_f32 hWa
      (fun a => load_col arg3 harg3 x2 1 (by decide) inb_S64x32_S64x1_0_1 a 0)
  refine List.forall_mem_cons.mpr ⟨?_, ?_⟩
  · exact slab_ok x0 x1 x2 ⟨0, by decide⟩ 0 rfl inb_S64x4096_S64x128_0_0 W _
      slices_S64x4096_o0_0_S64x128 broadcasts_S64x1_S64x128 bitsLt_bf16_f32 hWa
      (fun a => load_col arg3 harg3 x2 0 (by decide) inb_S64x32_S64x1_0_0 a 0)
  exact fun _ h => absurd h List.not_mem_nil

/-- The entry of the output block at row r, column cc. -/
theorem outOf_apply (c : Dev nD) (i : grid2.Coords)
    (arg1 : Memref sig .tc .vmem S64x16 .f32) (harg1 : arg1.IsWhole)
    (arg2 : Memref sig .tc .vmem S64x4096 .i32) (harg2 : arg2.IsWhole)
    (arg3 : Memref sig .tc .vmem S64x32 .f32) (harg3 : arg3.IsWhole)
    (arg4 : Memref sig .tc .vmem S64x4096 .bf16) (harg4 : arg4.IsWhole)
    (x0 : Vec Ideal S64x16 .f32) (x1 : Vec Ideal S64x4096 .i32) (x2 : Vec Ideal S64x32 .f32)
    (r : Fin 64) (cc : Fin 4096) :
    outOf (F := Ideal) c i arg1 harg1 arg2 harg2 arg3 harg3 arg4 harg4 x0 x1 x2 (ix2 r cc)
      = x0 (ix2 r (⟨(x1 (ix2 r cc)).toNat % 16, Nat.mod_lt _ (by decide)⟩ : Fin 16)) * x2 (ix2 r (Cert.Spec.grp cc)) := by
  unfold outOf
  rw [View.read_writes_eq_canon _ _ _ (cover c i arg1 harg1 arg2 harg2 arg3 harg3 arg4 harg4 x0 x1 x2)]
  exact View.canon_apply_of_pieces (blockAt x0 x1 x2) _
    (pieces_ok c i arg1 harg1 arg2 harg2 arg3 harg3 arg4 harg4 x0 x1 x2) (ix2 r cc)
    (cover c i arg1 harg1 arg2 harg2 arg3 harg3 arg4 harg4 x0 x1 x2 (ix2 r cc))

end Cert.KernelIdeal.Dq2

end
-- ==== Proof.Dq2Array.lean ====
/-
  From the blocks to the array: what the first dequantisation call leaves in its output array.

  Point t of the call's grid reads rows 64 t .. 64 t + 63 of each of its three input arrays and writes rows
  64 t .. 64 t + 63 of the output; all four blocks span every column of their arrays. The entry of the output
  block at (r, cc) is codebook(r, code(r, cc) mod 16) * scale(r, cc / 128) of the point's input blocks, so what
  point t writes back is rows 64 t .. 64 t + 63 of ONE function of the three input arrays:
      W(o, d) = codebook(o, code(o, d) mod 16) * scale(o, d / 128).
  Row o lies in the block of point o / 64, so the points' blocks cover the output array, which therefore ends
  holding W.
-/
import proofs.«431283_j678604833227_3_alg».proof.Proof.Dq2Block
import Idealize.ShloMosaic.Lib.Pipeline.Value
import Idealize.ShloMosaic.Lib.ValueIdx
import Idealize.ShloMosaic.PureOps.Ideal

set_option maxRecDepth 16384

noncomputable section

namespace Cert.KernelIdeal.Dq2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Array
-- the TensorCore's buffer contents when the region is entered
variable (V : (c : Dev nD) → (b : Ref sig .tc) → Buf (Elt Ideal) ((c : Thread nD τ).loc b))

/-- The three input arrays as the region finds them, at their literal types: the codebook spread over the rows, -/
abbrev cbArr (c : Dev nD) : S1024x16.Idx → EReal := V c main_v9
/-- the codes, -/
abbrev codeArr (c : Dev nD) : S1024x4096.Idx → BitVec 32 := V c main_arg7
/-- and the scales. -/
abbrev scaleArr (c : Dev nD) : S1024x32.Idx → EReal := V c main_arg8

/-- The dequantised weight at row `o`, column `d`. -/
def wAt (c : Dev nD) (o : Fin 1024) (d : Fin 4096) : EReal :=
  cbArr V c (ix2 o (⟨(codeArr V c (ix2 o d)).toNat % 16, Nat.mod_lt _ (by decide)⟩ : Fin 16)) * scaleArr V c (ix2 o (Cert.Spec.grp d))

/-- The whole output array the call leaves: the dequantised weight at every index. -/
def wArr (c : Dev nD) : S1024x4096.Idx → EReal := fun i => wAt V c (i 0) (i 1)

/-- Point t's three input blocks at their literal types: codebook rows, -/
abbrev cbBlk (c : Dev nD) (t : Fin cfg2.N) : S64x16.Idx → EReal := iblk V c 0 t
/-- codes, -/
abbrev codeBlk (c : Dev nD) (t : Fin cfg2.N) : S64x4096.Idx → BitVec 32 := iblk V c 1 t
/-- scales. -/
abbrev scaleBlk (c : Dev nD) (t : Fin cfg2.N) : S64x32.Idx → EReal := iblk V c 2 t

/-- The printed index maps, decided over the grid: at point t every window's block is block (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The codebook block at point t is rows 64 t .. 64 t + 63 of the codebook array. -/
theorem cbBlk_apply (c : Dev nD) (t : Fin cfg2.N) (x : S64x16.Idx) (k : S1024x16.Idx)
    (hk0 : (k 0).val = t.val * 64 + (x 0).val) (hk1 : (k 1).val = (x 1).val) : cbBlk V c t x = cbArr V c k := by
  obtain ⟨e0, e1, -⟩ := idx_facts t
  show V c main_v9 (((cfg2.win 0).blk t).view.emb x) = V c main_v9 k
  congr 1
  funext a
  apply Fin.ext
  match a with
  | ⟨0, _⟩ => show win2_0.index t (0 : Fin 2) * 64 + 1 * (x 0).val = (k 0).val; rw [e0, hk0]; omega
  | ⟨1, _⟩ => show win2_0.index t (1 : Fin 2) * 16 + 1 * (x 1).val = (k 1).val; rw [e1, hk1]; omega

/-- The code block at point t is rows 64 t .. 64 t + 63 of the code array. -/
theorem codeBlk_apply (c : Dev nD) (t : Fin cfg2.N) (x : S64x4096.Idx) (k : S1024x4096.Idx)
    (hk0 : (k 0).val = t.val * 64 + (x 0).val) (hk1 : (k 1).val = (x 1).val) : codeBlk V c t x = codeArr V c k := by
  obtain ⟨-, -, e0, e1, -⟩ := idx_facts t
  show V c main_arg7 (((cfg2.win 1).blk t).view.emb x) = V c main_arg7 k
  congr 1
  funext a
  apply Fin.ext
  match a with
  | ⟨0, _⟩ => show win2_1.index t (0 : Fin 2) * 64 + 1 * (x 0).val = (k 0).val; rw [e0, hk0]; omega
  | ⟨1, _⟩ => show win2_1.index t (1 : Fin 2) * 4096 + 1 * (x 1).val = (k 1).val; rw [e1, hk1]; omega

/-- The scale block at point t is rows 64 t .. 64 t + 63 of the scale array. -/
theorem scaleBlk_apply (c : Dev nD) (t : Fin cfg2.N) (x : S64x32.Idx) (k : S1024x32.Idx)
    (hk0 : (k 0).val = t.val * 64 + (x 0).val) (hk1 : (k 1).val = (x 1).val) : scaleBlk V c t x = scaleArr V c k := by
  obtain ⟨-, -, -, -, e0, e1, -⟩ := idx_facts t
  show V c main_arg8 (((cfg2.win 2).blk t).view.emb x) = V c main_arg8 k
  congr 1
  funext a
  apply Fin.ext
  match a with
  | ⟨0, _⟩ => show win2_2.index t (0 : Fin 2) * 64 + 1 * (x 0).val = (k 0).val; rw [e0, hk0]; omega
  | ⟨1, _⟩ => show win2_2.index t (1 : Fin 2) * 32 + 1 * (x 1).val = (k 1).val; rw [e1, hk1]; omega

/-- The entry the body leaves at row r, column cc of point t's block is the dequantised weight at row o = 64 t + r,
    column d = cc of the array. -/
theorem entry_eq (c : Dev nD) (t : Fin cfg2.N) (r : Fin 64) (cc : Fin 4096) (o : Fin 1024) (d : Fin 4096)
    (ho : o.val = t.val * 64 + r.val) (hd : d.val = cc.val) :
    cbBlk V c t (ix2 r (⟨(codeBlk V c t (ix2 r cc)).toNat % 16, Nat.mod_lt _ (by decide)⟩ : Fin 16)) * scaleBlk V c t (ix2 r (Cert.Spec.grp cc))
      = wAt V c o d := by
  unfold wAt
  rw [codeBlk_apply V c t (ix2 r cc) (ix2 o d) ho hd]
  rw [cbBlk_apply V c t (ix2 r _) (ix2 o (⟨(codeArr V c (ix2 o d)).toNat % 16, Nat.mod_lt _ (by decide)⟩ : Fin 16)) ho rfl]
  rw [scaleBlk_apply V c t (ix2 r (Cert.Spec.grp cc)) (ix2 o (Cert.Spec.grp d)) ho (by show d.val / 128 = cc.val / 128; rw [hd])]

/-- WHAT POINT t WRITES BACK is rows 64 t .. 64 t + 63 of the dequantised weights of the arrays as the region finds them. -/
theorem flushed_eq (c : Dev nD) (t : Fin cfg2.N) :
    (dat (F := Ideal) V c).flushed 3 t = ((cfg2.win 3).blk t).view.read (Elt Ideal) (wArr V c) := by
  show (cfg2.win 3).cut (grid2.coords t) ((dat V c).after 3 t) = _
  rw [after_3]
  unfold out
  funext y
  obtain ⟨-, -, -, -, -, -, e0, e1⟩ := idx_facts t
  have hy0 : (y 0).val < 64 := (y 0).isLt
  have hy1 : (y 1).val < 4096 := (y 1).isLt
  -- the position inside the block, and the position in the array it is written to
  have hx : (cfg2.win 3).xinj (grid2.coords t) y = ix2 (⟨(y 0).val, hy0⟩ : Fin 64) (⟨(y 1).val, hy1⟩ : Fin 4096) := by
    funext a
    match a with
    | ⟨0, _⟩ => rfl
    | ⟨1, _⟩ => rfl
  have he0 : ((((cfg2.win 3).blk t).view.emb y) 0).val = t.val * 64 + (y 0).val := by
    show win2_3.index t (0 : Fin 2) * 64 + 1 * (y 0).val = _; rw [e0]; omega
  have he1 : ((((cfg2.win 3).blk t).view.emb y) 1).val = (y 1).val := by
    show win2_3.index t (1 : Fin 2) * 4096 + 1 * (y 1).val = _; rw [e1]; omega
  show outOf c (grid2.coords t) _ _ _ _ _ _ _ _ (iblk V c 0 t) (iblk V c 1 t) (iblk V c 2 t) ((cfg2.win 3).xinj (grid2.coords t) y)
    = wArr V c (((cfg2.win 3).blk t).view.emb y)
  rw [hx, outOf_apply]
  exact entry_eq V c t ⟨(y 0).val, hy0⟩ ⟨(y 1).val, hy1⟩ _ _ he0 he1

/-- An index of the array is in point t's block iff each coordinate is in the block's range on its axis. -/
theorem mem_blk (t : Fin cfg2.N) (i : S1024x4096.Idx) :
    i ∈ ((cfg2.win 3).blk t).view.set ↔ ∀ a : Fin 2, win2_3.index t a * S64x4096.size a ≤ (i a).val ∧ (i a).val < win2_3.index t a * S64x4096.size a + S64x4096.size a := by
  show i ∈ ((View.whole main_v10).slice (win2_3.rect t)).set ↔ _
  rw [View.set_slice_whole, Rect.mem_set_unit]
  exact Iff.rfl

/-- The rows are the grid's points times the 64 rows of a block. -/
theorem rows_eq : S1024x4096.size (0 : Fin 2) = grid2.N * 64 := by decide

/-- Every index of the output array is in the block of the point its row divided by 64 names. -/
theorem covered (i : S1024x4096.Idx) : ∃ t : Fin cfg2.N, (cfg2.win 3).flush t = true ∧ i ∈ ((cfg2.win 3).blk t).view.set := by
  have hi0 : (i 0).val < grid2.N * 64 := rows_eq ▸ (i 0).isLt
  have hi1 : (i 1).val < 4096 := (i 1).isLt
  have ht : (i 0).val / 64 < grid2.N := Nat.div_lt_of_lt_mul (by rw [Nat.mul_comm]; exact hi0)
  refine ⟨⟨(i 0).val / 64, ht⟩, flush2_3 _, ?_⟩
  obtain ⟨-, -, -, -, -, -, e0, e1⟩ := idx_facts ⟨(i 0).val / 64, ht⟩
  rw [mem_blk]
  intro a
  match a with
  | ⟨0, _⟩ =>
    show win2_3.index ⟨(i 0).val / 64, ht⟩ (0 : Fin 2) * 64 ≤ (i 0).val ∧ (i 0).val < win2_3.index ⟨(i 0).val / 64, ht⟩ (0 : Fin 2) * 64 + 64
    rw [e0]; show (i 0).val / 64 * 64 ≤ (i 0).val ∧ (i 0).val < (i 0).val / 64 * 64 + 64; omega
  | ⟨1, _⟩ =>
    show win2_3.index ⟨(i 0).val / 64, ht⟩ (1 : Fin 2) * 4096 ≤ (i 1).val ∧ (i 1).val < win2_3.index ⟨(i 0).val / 64, ht⟩ (1 : Fin 2) * 4096 + 4096
    rw [e1]; omega

/-- The output array after the call's last point, at its literal type. -/
abbrev outArr (c : Dev nD) : S1024x4096.Idx → EReal := (dat (F := Ideal) V c).arrAt 3 cfg2.N

/-- THE OUTPUT ARRAY after the call: the dequantised weight at every index. -/
theorem arr_eq (c : Dev nD) : (dat (F := Ideal) V c).arrAt 3 cfg2.N = wArr V c :=
  (dat (F := Ideal) V c).arrAt_eq_of_cover 3 (wArr V c) (fun t _ => flushed_eq V c t) covered

/-- Entry by entry: row o, column d of the output array is codebook(o, code(o, d) mod 16) * scale(o, d / 128). -/
theorem final (c : Dev nD) (o : Fin 1024) (d : Fin 4096) :
    outArr V c (ix2 o d)
      = cbArr V c (ix2 o (⟨(codeArr V c (ix2 o d)).toNat % 16, Nat.mod_lt _ (by decide)⟩ : Fin 16)) * scaleArr V c (ix2 o (Cert.Spec.grp d)) :=
  congrFun (arr_eq V c) (ix2 o d)

end Array

end Cert.KernelIdeal.Dq2

end
-- ==== Proof.Mm3Pieces.lean ====
/-
  The matrix-product kernel's three control cases, read back at an index over the extended reals.

  Each case leaves in the accumulator the contents it held (zero after the clearing store of the first case) plus
  the product of the point's left block with the transpose of its right block: at (r, c) the sum over the 1024
  contracted columns j of left (r, j) times right (c, j). The last case copies that sum into the output block.
-/
import proofs.«431283_j678604833227_3_alg».proof.Proof.Mm3Run
import Idealize.ShloMosaic.Lib.ValueIdx
import Idealize.ShloMosaic.Lib.Pipeline.Value
import Idealize.ShloMosaic.Lib.Pipeline.FrameBody
import Idealize.ShloMosaic.PureOps.Ideal.Laws

set_option maxRecDepth 16384

noncomputable section

namespace Cert.KernelIdeal.Mm3

open Idealize.ShloMosaic Idealize.ShloMosaic.TcCoe Idealize.ShloMosaic.Tactic Idealize.ShloMosaic.ValueIdx
open Cert.KernelIdeal Cert.KernelIdeal.Gen

/-! ## The product's operand indices -/

theorem lhs_mm_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs_mm_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhs_mm_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs_mm_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-! ## The two payloads at an index -/

/-- The clearing store's payload is zero everywhere. -/
theorem pay1_apply (r : Fin 1024) (cc : Fin 2048) : k3_pay1 (F := Ideal) (ix2 r cc) = 0 := by
  unfold k3_pay1
  exact Ideal.ofBits_zero_f32

/-- The update's payload at (r, c): the accumulator there plus the sum over the contracted columns of the left
    block's row r times the right block's row c. -/
theorem pay2_apply (v3 : Vec Ideal S1024x2048 .f32) (v4 : Vec Ideal S1024x1024 .bf16) (v6 : Vec Ideal S2048x1024 .bf16)
    (r : Fin 1024) (cc : Fin 2048) :
    k3_pay2 (F := Ideal) v3 v4 v6 (ix2 r cc) = v3 (ix2 r cc) + ∑ j : Fin 1024, v4 (ix2 r j) * v6 (ix2 cc j) := by
  unfold k3_pay2
  simp only [shapeCast_self]
  refine congrArg (v3 (ix2 r cc) + ·) ?_
  refine (Ideal.matmul_constant_zero_apply (φ₁ := .bf16) (φ₂ := .bf16) dot_S1024x1024_S2048x1024_S1024x2048_1_1_0_0_n_n none v4 v6 (ix2 r cc)).trans ?_
  rw [← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 r cc) ((contrEquiv1 dot_S1024x1024_S2048x1024_S1024x2048_1_1_0_0_n_n 1024 rfl rfl).symm k) = ix2 r k :=
    funext fun a => Fin.ext (by
      match a with
      | ⟨0, _⟩ => exact lhs_mm_0 _ _
      | ⟨1, _⟩ => exact (lhs_mm_1 _ _).trans hk)
  have er : dot_S1024x1024_S2048x1024_S1024x2048_1_1_0_0_n_n.rhsIdx (ix2 r cc) ((contrEquiv1 dot_S1024x1024_S2048x1024_S1024x2048_1_1_0_0_n_n 1024 rfl rfl).symm k) = ix2 cc k :=
    funext fun a => Fin.ext (by
      match a with
      | ⟨0, _⟩ => exact rhs_mm_0 _ _
      | ⟨1, _⟩ => exact (rhs_mm_1 _ _).trans hk)
  rw [el, er]

/-! ## The three cases, read back through any view -/

/-- The offsets of a store or load of a whole buffer are zero. -/
theorem off_zero : (![0, 0] : Fin 2 → Nat) = fun _ => 0 := by
  funext a
  match a with
  | ⟨0, _⟩ => rfl
  | ⟨1, _⟩ => rfl

/-- The first case leaves zero plus the product. -/
theorem first_apply {κ : Kind} {sp : Space} (v : View sig κ sp S1024x2048 .f32) (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : condFirst i) (hc2 : ¬condLast i) (x0 : Vec Ideal S1024x1024 .bf16) (x1 : Vec Ideal S2048x1024 .bf16)
    (r : Fin 1024) (cc : Fin 2048) :
    v.read (Elt Ideal) (v.writes (Elt Ideal) v.junk (runFirst (F := Ideal) c i arg3 harg3 arg4 harg4 arg5 harg5 arg6 harg6 hc1 hc2 x0 x1).1) (ix2 r cc)
      = 0 + ∑ j : Fin 1024, x0 (ix2 r j) * x1 (ix2 cc j) := by
  rw [View.read_writes_junk_eq_canon]
  unfold runFirst
  dsimp only
  sl_unfold_words
  rw [View.canon_cons_unit_zero (S := S1024x2048) off_zero]
  simp only [View.readCov_unit_zero (S := S1024x2048) _ off_zero, View.readAt_eq_ld, harg3.read_unread, harg4.read_unread,
    View.ld_unit_zero (S := S1024x1024) off_zero, View.ld_unit_zero (S := S2048x1024) off_zero]
  refine (pay2_apply _ _ _ r cc).trans ?_
  rw [pay1_apply]

/-- A middle case leaves what the accumulator held plus the product. -/
theorem mid_apply {κ : Kind} {sp : Space} (v : View sig κ sp S1024x2048 .f32) (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : ¬condLast i) (x0 : Vec Ideal S1024x1024 .bf16) (x1 : Vec Ideal S2048x1024 .bf16)
    (xs : Vec Ideal S1024x2048 .f32) (r : Fin 1024) (cc : Fin 2048) :
    v.read (Elt Ideal) (v.writes (Elt Ideal) v.junk (runMid (F := Ideal) c i arg3 harg3 arg4 harg4 arg5 harg5 arg6 harg6 hc1 hc2 x0 x1 xs).1) (ix2 r cc)
      = xs (ix2 r cc) + ∑ j : Fin 1024, x0 (ix2 r j) * x1 (ix2 cc j) := by
  rw [View.read_writes_junk_eq_canon]
  unfold runMid
  dsimp only
  sl_unfold_words
  rw [View.canon_unit_zero (S := S1024x2048) off_zero]
  simp only [View.readAt_eq_ld, harg6.read_unread, harg3.read_unread, harg4.read_unread,
    View.ld_unit_zero (S := S1024x2048) off_zero, View.ld_unit_zero (S := S1024x1024) off_zero,
    View.ld_unit_zero (S := S2048x1024) off_zero]
  exact pay2_apply xs x0 x1 r cc

/-- The last case leaves in the accumulator what it held plus the product, -/
theorem last_acc_apply {κ : Kind} {sp : Space} (v : View sig κ sp S1024x2048 .f32) (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i) (x0 : Vec Ideal S1024x1024 .bf16) (x1 : Vec Ideal S2048x1024 .bf16)
    (xs : Vec Ideal S1024x2048 .f32) (r : Fin 1024) (cc : Fin 2048) :
    v.read (Elt Ideal) (v.writes (Elt Ideal) v.junk (runLast (F := Ideal) c i arg3 harg3 arg4 harg4 arg5 harg5 arg6 harg6 hc1 hc2 x0 x1 xs).2.1) (ix2 r cc)
      = xs (ix2 r cc) + ∑ j : Fin 1024, x0 (ix2 r j) * x1 (ix2 cc j) := by
  rw [View.read_writes_junk_eq_canon]
  unfold runLast
  dsimp only
  sl_unfold_words
  rw [View.canon_unit_zero (S := S1024x2048) off_zero]
  simp only [View.readAt_eq_ld, harg6.read_unread, harg3.read_unread, harg4.read_unread,
    View.ld_unit_zero (S := S1024x2048) off_zero, View.ld_unit_zero (S := S1024x1024) off_zero,
    View.ld_unit_zero (S := S2048x1024) off_zero]
  exact pay2_apply xs x0 x1 r cc

/-- and copies the same sum into the output block. -/
theorem last_out_apply {κ : Kind} {sp : Space} (v : View sig κ sp S1024x2048 .f32) (c : Dev nD) (i : grid3.Coords) (arg3 : Memref sig .tc .vmem S1024x1024 .bf16) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (hc1 : ¬condFirst i) (hc2 : condLast i) (x0 : Vec Ideal S1024x1024 .bf16) (x1 : Vec Ideal S2048x1024 .bf16)
    (xs : Vec Ideal S1024x2048 .f32) (r : Fin 1024) (cc : Fin 2048) :
    v.read (Elt Ideal) (v.writes (Elt Ideal) v.junk (runLast (F := Ideal) c i arg3 harg3 arg4 harg4 arg5 harg5 arg6 harg6 hc1 hc2 x0 x1 xs).1) (ix2 r cc)
      = xs (ix2 r cc) + ∑ j : Fin 1024, x0 (ix2 r j) * x1 (ix2 cc j) := by
  rw [View.read_writes_junk_eq_canon]
  unfold runLast
  dsimp only
  sl_unfold_words
  rw [View.canon_unit_zero (S := S1024x2048) off_zero]
  simp only [View.readCov_unit_zero (S := S1024x2048) _ off_zero, View.readAt_eq_ld, harg6.read_unread, harg3.read_unread,
    harg4.read_unread, View.ld_unit_zero (S := S1024x2048) off_zero, View.ld_unit_zero (S := S1024x1024) off_zero,
    View.ld_unit_zero (S := S2048x1024) off_zero]
  exact pay2_apply xs x0 x1 r cc

end Cert.KernelIdeal.Mm3

end
-- ==== Proof.Mm3Value.lean ====
/-
  The matrix-product call's value over the extended reals: after the region the output array holds, at row tt and
  column o, the sum over d of left(tt, d) * right(o, d).

  The 4096 contracted columns are handled a quarter at a time. Grid point t = 12 i + 4 j + k works on rows
  1024 i .. 1024 i + 1023 of the left operand, rows 2048 j .. 2048 j + 2047 of the right operand, and columns
  1024 k .. 1024 k + 1023 of both; the four points of a group share i and j. So after the point with k = 0 the
  accumulator holds, at (r, cc), zero plus the first quarter of the dot product of row 1024 i + r of the left operand
  with row 2048 j + cc of the right operand; each later point of the group adds the next quarter; and the point with
  k = 3 stores zero plus the four quarters, added in order, as block (i, j) of the output. Over the extended reals
  that is the whole sum. The blocks written back (one per group) tile the output array.
-/
import proofs.«431283_j678604833227_3_alg».proof.Proof.Mm3
import proofs.«431283_j678604833227_3_alg».proof.Proof.Mm3Pieces
import proofs.«431283_j678604833227_3_alg».proof.Proof.Spec
import Idealize.ShloMosaic.Lib.Pipeline.Value
import Idealize.ShloMosaic.Lib.ValueIdx

set_option maxRecDepth 16384

noncomputable section

namespace Cert.KernelIdeal.Mm3

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.Spec (qcol)
open scoped BigOperators

-- the TensorCore's buffer contents when the region is entered
variable (V : (c : Dev nD) → (b : Ref sig .tc) → Buf (Elt Ideal) ((c : Thread nD τ).loc b))

/-! ## The operands and their blocks -/

/-- The left operand (8192 x 4096) and the right operand (6144 x 4096) as the region finds them, -/
abbrev xArr (c : Dev nD) : S8192x4096.Idx → EReal := V c main_v1
abbrev wArr (c : Dev nD) : S6144x4096.Idx → EReal := V c main_v11
/-- and the block of each that point `t` works on. -/
abbrev ablk (c : Dev nD) (t : Fin cfg3.N) : S1024x1024.Idx → EReal := iblk V c 0 t
abbrev bblk (c : Dev nD) (t : Fin cfg3.N) : S2048x1024.Idx → EReal := iblk V c 1 t

/-- The block indices over the grid: point t = 12 i + 4 j + k has left block (i, k), right block (j, k) and output
    block (i, j). -/
theorem idx_facts : ∀ t : Fin cfg3.N,
    win3_0.index t (0 : Fin 2) = t.val / 12 ∧ win3_0.index t (1 : Fin 2) = t.val % 4
    ∧ win3_1.index t (0 : Fin 2) = t.val / 4 % 3 ∧ win3_1.index t (1 : Fin 2) = t.val % 4
    ∧ win3_2.index t (0 : Fin 2) = t.val / 12 ∧ win3_2.index t (1 : Fin 2) = t.val / 4 % 3 :=
  (by decide +kernel : ∀ t : Fin grid3.N, _)

/-- An entry of the left block is the left operand's entry at block index times block size plus the coordinate. -/
theorem ablk_apply (c : Dev nD) (t : Fin cfg3.N) (r j : Fin 1024) (R : Fin 8192) (D : Fin 4096)
    (hR : R.val = 1024 * (t.val / 12) + r.val) (hD : D.val = 1024 * (t.val % 4) + j.val) :
    ablk V c t (ix2 r j) = xArr V c (ix2 R D) := by
  obtain ⟨e0, e1, -, -, -, -⟩ := idx_facts t
  show iblk V c 0 t (ix2 r j) = V c main_v1 (ix2 R D)
  unfold iblk
  rw [View.read_apply]
  show V c main_v1 _ = V c main_v1 _
  congr 1
  funext a
  apply Fin.ext
  match a with
  | ⟨0, _⟩ => show win3_0.index t (0 : Fin 2) * 1024 + 1 * r.val = R.val; rw [e0, hR]; omega
  | ⟨1, _⟩ => show win3_0.index t (1 : Fin 2) * 1024 + 1 * j.val = D.val; rw [e1, hD]; omega

/-- The same for the right block. -/
theorem bblk_apply (c : Dev nD) (t : Fin cfg3.N) (cc : Fin 2048) (j : Fin 1024) (O : Fin 6144) (D : Fin 4096)
    (hO : O.val = 2048 * (t.val / 4 % 3) + cc.val) (hD : D.val = 1024 * (t.val % 4) + j.val) :
    bblk V c t (ix2 cc j) = wArr V c (ix2 O D) := by
  obtain ⟨-, -, e2, e3, -, -⟩ := idx_facts t
  show iblk V c 1 t (ix2 cc j) = V c main_v11 (ix2 O D)
  unfold iblk
  rw [View.read_apply]
  show V c main_v11 _ = V c main_v11 _
  congr 1
  funext a
  apply Fin.ext
  match a with
  | ⟨0, _⟩ => show win3_1.index t (0 : Fin 2) * 2048 + 1 * cc.val = O.val; rw [e2, hO]; omega
  | ⟨1, _⟩ => show win3_1.index t (1 : Fin 2) * 1024 + 1 * j.val = D.val; rw [e3, hD]; omega

/-! ## What one point adds -/

/-- Quarter `q` of the dot product of row `R` of the left operand with row `O` of the right operand. -/
def Q (c : Dev nD) (R : Fin 8192) (O : Fin 6144) (q : Fin 4) : EReal :=
  ∑ j : Fin 1024, xArr V c (ix2 R (qcol q j)) * wArr V c (ix2 O (qcol q j))

/-- The product of a point's two blocks at (r, cc) is the quarter k = t mod 4 of the dot product of the operand rows the
    point's blocks put at r and at cc. -/
theorem point_sum (c : Dev nD) (t : Fin cfg3.N) (r : Fin 1024) (cc : Fin 2048) (R : Fin 8192) (O : Fin 6144) (q : Fin 4)
    (hq : t.val % 4 = q.val) (hR : R.val = 1024 * (t.val / 12) + r.val) (hO : O.val = 2048 * (t.val / 4 % 3) + cc.val) :
    ∑ j : Fin 1024, ablk V c t (ix2 r j) * bblk V c t (ix2 cc j) = Q V c R O q := by
  unfold Q
  refine Finset.sum_congr rfl fun j _ => ?_
  have hD : (qcol q j).val = 1024 * (t.val % 4) + j.val := by
    show 1024 * q.val + j.val = 1024 * (t.val % 4) + j.val
    rw [hq]
  rw [ablk_apply V c t r j R (qcol q j) hR hD, bblk_apply V c t cc j O (qcol q j) hO hD]

/-- The accumulator after a point with k = 0, -/
theorem accFirst_apply (c : Dev nD) (t : Fin cfg3.N) (h : t.val % 4 = 0) (r : Fin 1024) (cc : Fin 2048) :
    accFirst V c t h (ix2 r cc) = 0 + ∑ j : Fin 1024, ablk V c t (ix2 r j) * bblk V c t (ix2 cc j) := by
  unfold accFirst soutFirst
  exact first_apply VS c (grid3.coords t) (ms0 t) (hs0 t) (ms1 t) (hs1 t) (ms2 t) (hs2 t) scM (Memref.isWhole_whole _)
    ((hcondFirst t).mpr h) (fun hl => absurd ((hcondLast t).mp hl) (by omega)) (iblk V c 0 t) (iblk V c 1 t) r cc

/-- after a point with k = 1 or 2 over an accumulator holding `xs`, -/
theorem accMid_apply (c : Dev nD) (t : Fin cfg3.N) (h0 : ¬t.val % 4 = 0) (h3 : ¬t.val % 4 = 3) (xs : Vec Ideal S1024x2048 .f32)
    (r : Fin 1024) (cc : Fin 2048) :
    accMid V c t h0 h3 xs (ix2 r cc) = xs (ix2 r cc) + ∑ j : Fin 1024, ablk V c t (ix2 r j) * bblk V c t (ix2 cc j) := by
  unfold accMid soutMid
  exact mid_apply VS c (grid3.coords t) (ms0 t) (hs0 t) (ms1 t) (hs1 t) (ms2 t) (hs2 t) scM (Memref.isWhole_whole _)
    (fun hf => h0 ((hcondFirst t).mp hf)) (fun hl => h3 ((hcondLast t).mp hl)) (iblk V c 0 t) (iblk V c 1 t) xs r cc

/-- and the output block a point with k = 3 stores, over an accumulator holding `xs`. -/
theorem outLast_apply (c : Dev nD) (t : Fin cfg3.N) (h3 : t.val % 4 = 3) (xs : Vec Ideal S1024x2048 .f32)
    (r : Fin 1024) (cc : Fin 2048) :
    outLast V c t h3 xs (ix2 r cc) = xs (ix2 r cc) + ∑ j : Fin 1024, ablk V c t (ix2 r j) * bblk V c t (ix2 cc j) := by
  unfold outLast outOfLast
  exact last_out_apply VO c (grid3.coords t) (ms0 t) (hs0 t) (ms1 t) (hs1 t) (ms2 t) (hs2 t) scM (Memref.isWhole_whole _)
    (fun hf => absurd ((hcondFirst t).mp hf) (by omega)) ((hcondLast t).mpr h3) (iblk V c 0 t) (iblk V c 1 t) xs r cc

/-! ## The accumulator through a group of four points -/

/-- After the point with k = 0: zero plus the first quarter. -/
theorem acc_k0 (c : Dev nD) (n : ℕ) (hn : n < cfg3.N) (h : n % 4 = 0) (r : Fin 1024) (cc : Fin 2048) (R : Fin 8192) (O : Fin 6144)
    (hR : R.val = 1024 * (n / 12) + r.val) (hO : O.val = 2048 * (n / 4 % 3) + cc.val) :
    (outsAt V c n hn).2 (ix2 r cc) = 0 + Q V c R O 0 := by
  rw [outsAt_first V c ⟨n, hn⟩ h]
  dsimp only
  rw [accFirst_apply, point_sum V c ⟨n, hn⟩ r cc R O 0 (by show n % 4 = 0; exact h) hR hO]

/-- After the point with k = 1: the second quarter added. The point before is in the same group. -/
theorem acc_k1 (c : Dev nD) (n : ℕ) (hn : n < cfg3.N) (h : n % 4 = 1) (r : Fin 1024) (cc : Fin 2048) (R : Fin 8192) (O : Fin 6144)
    (hR : R.val = 1024 * (n / 12) + r.val) (hO : O.val = 2048 * (n / 4 % 3) + cc.val) :
    (outsAt V c n hn).2 (ix2 r cc) = (0 + Q V c R O 0) + Q V c R O 1 := by
  rw [outsAt_mid V c ⟨n, hn⟩ (by show ¬n % 4 = 0; omega) (by show ¬n % 4 = 3; omega)]
  dsimp only
  rw [accMid_apply, point_sum V c ⟨n, hn⟩ r cc R O 1 (by show n % 4 = 1; exact h) hR hO,
    acc_k0 V c (n - 1) (by omega) (by omega) r cc R O (by omega) (by omega)]

/-- After the point with k = 2: the third quarter added. -/
theorem acc_k2 (c : Dev nD) (n : ℕ) (hn : n < cfg3.N) (h : n % 4 = 2) (r : Fin 1024) (cc : Fin 2048) (R : Fin 8192) (O : Fin 6144)
    (hR : R.val = 1024 * (n / 12) + r.val) (hO : O.val = 2048 * (n / 4 % 3) + cc.val) :
    (outsAt V c n hn).2 (ix2 r cc) = ((0 + Q V c R O 0) + Q V c R O 1) + Q V c R O 2 := by
  rw [outsAt_mid V c ⟨n, hn⟩ (by show ¬n % 4 = 0; omega) (by show ¬n % 4 = 3; omega)]
  dsimp only
  rw [accMid_apply, point_sum V c ⟨n, hn⟩ r cc R O 2 (by show n % 4 = 2; exact h) hR hO,
    acc_k1 V c (n - 1) (by omega) (by omega) r cc R O (by omega) (by omega)]

/-- The output block the point with k = 3 stores: the fourth quarter added. -/
theorem out_k3 (c : Dev nD) (n : ℕ) (hn : n < cfg3.N) (h : n % 4 = 3) (r : Fin 1024) (cc : Fin 2048) (R : Fin 8192) (O : Fin 6144)
    (hR : R.val = 1024 * (n / 12) + r.val) (hO : O.val = 2048 * (n / 4 % 3) + cc.val) :
    (outsAt V c n hn).1 (ix2 r cc) = (((0 + Q V c R O 0) + Q V c R O 1) + Q V c R O 2) + Q V c R O 3 := by
  rw [outsAt_last V c ⟨n, hn⟩ h]
  dsimp only
  rw [outLast_apply, point_sum V c ⟨n, hn⟩ r cc R O 3 (by show n % 4 = 3; exact h) hR hO,
    acc_k2 V c (n - 1) (by omega) (by omega) r cc R O (by omega) (by omega)]

/-- Over the extended reals zero plus the four quarters, added in order, is the whole dot product. -/
theorem out_last_apply (c : Dev nD) (t : Fin cfg3.N) (h3 : t.val % 4 = 3) (r : Fin 1024) (cc : Fin 2048) (R : Fin 8192) (O : Fin 6144)
    (hR : R.val = 1024 * (t.val / 12) + r.val) (hO : O.val = 2048 * (t.val / 4 % 3) + cc.val) :
    (outsAt V c t.val t.isLt).1 (ix2 r cc) = ∑ d : Fin 4096, xArr V c (ix2 R d) * wArr V c (ix2 O d) := by
  rw [Cert.Spec.sum_quarters (fun d => xArr V c (ix2 R d) * wArr V c (ix2 O d))]
  exact out_k3 V c t.val t.isLt h3 r cc R O hR hO

/-! ## From the blocks to the array -/

/-- The product matrix: entry (tt, o) is the dot product of row tt of the left operand with row o of the right one. -/
def prod (c : Dev nD) : Buf (Elt Ideal) ((c : Thread nD τ).loc main_v12) :=
  fun (i : S8192x6144.Idx) =>
    (∑ d : Fin 4096, xArr V c (ix2 (⟨(i 0).val, idx2_lt0 i⟩ : Fin 8192) d) * wArr V c (ix2 (⟨(i 1).val, idx2_lt1 i⟩ : Fin 6144) d) : EReal)

/-- What a point with k = 3 writes back is its block of the product matrix. -/
theorem flushed_eq (c : Dev nD) (t : Fin cfg3.N) (hf : (cfg3.win 2).flush t = true) :
    (dat V c).flushed 2 t = ((cfg3.win 2).blk t).view.read (Elt Ideal) (prod V c) := by
  have h3 : t.val % 4 = 3 := (flush3_2 t).mp hf
  obtain ⟨-, -, -, -, e4, e5⟩ := idx_facts t
  show (cfg3.win 2).cut (grid3.coords t) ((dat V c).after 2 t) = _
  rw [after_2]
  funext y
  have hy0 : (y 0).val < 1024 := (y 0).isLt
  have hy1 : (y 1).val < 2048 := (y 1).isLt
  have hE0 : ((((cfg3.win 2).blk t).view.emb y) 0).val = 1024 * (t.val / 12) + (y 0).val := by
    show win3_2.index t (0 : Fin 2) * 1024 + 1 * (y 0).val = _
    rw [e4]; omega
  have hE1 : ((((cfg3.win 2).blk t).view.emb y) 1).val = 2048 * (t.val / 4 % 3) + (y 1).val := by
    show win3_2.index t (1 : Fin 2) * 2048 + 1 * (y 1).val = _
    rw [e5]; omega
  have hx : (cfg3.win 2).xinj (grid3.coords t) y = ix2 (⟨(y 0).val, hy0⟩ : Fin 1024) (⟨(y 1).val, hy1⟩ : Fin 2048) := by
    funext a
    match a with
    | ⟨0, _⟩ => rfl
    | ⟨1, _⟩ => rfl
  show (outsAt V c t.val t.isLt).1 ((cfg3.win 2).xinj (grid3.coords t) y) = prod V c (((cfg3.win 2).blk t).view.emb y)
  rw [hx]
  exact out_last_apply V c t h3 ⟨(y 0).val, hy0⟩ ⟨(y 1).val, hy1⟩ ⟨_, idx2_lt0 _⟩ ⟨_, idx2_lt1 _⟩ hE0 hE1

/-- An index of the output array is in point `t`'s block iff each coordinate is in the block's range on its axis. -/
theorem mem_blk (t : Fin cfg3.N) (i : S8192x6144.Idx) :
    i ∈ ((cfg3.win 2).blk t).view.set ↔ ∀ a : Fin 2, win3_2.index t a * S1024x2048.size a ≤ (i a).val ∧ (i a).val < win3_2.index t a * S1024x2048.size a + S1024x2048.size a := by
  show i ∈ ((View.whole main_v12).slice (win3_2.rect t)).set ↔ _
  rw [View.set_slice_whole, Rect.mem_set_unit]
  exact Iff.rfl

/-- Every index of the output array lies in the block some point with k = 3 writes back: row tt and column o in that of
    the point with i = tt / 1024, j = o / 2048. -/
theorem covered (i : S8192x6144.Idx) :
    ∃ t : Fin cfg3.N, (cfg3.win 2).flush t = true ∧ i ∈ ((cfg3.win 2).blk t).view.set := by
  have hi0 : (i 0).val < 8192 := idx2_lt0 i
  have hi1 : (i 1).val < 6144 := idx2_lt1 i
  have hN : cfg3.N = 96 := N_3
  have hlt : 12 * ((i 0).val / 1024) + 4 * ((i 1).val / 2048) + 3 < cfg3.N := by rw [hN]; omega
  refine ⟨⟨12 * ((i 0).val / 1024) + 4 * ((i 1).val / 2048) + 3, hlt⟩, (flush3_2 _).mpr ?_, ?_⟩
  · show (12 * ((i 0).val / 1024) + 4 * ((i 1).val / 2048) + 3) % 4 = 3
    omega
  · rw [mem_blk]
    obtain ⟨-, -, -, -, e4, e5⟩ := idx_facts ⟨12 * ((i 0).val / 1024) + 4 * ((i 1).val / 2048) + 3, hlt⟩
    have e4' : win3_2.index ⟨12 * ((i 0).val / 1024) + 4 * ((i 1).val / 2048) + 3, hlt⟩ (0 : Fin 2) = (12 * ((i 0).val / 1024) + 4 * ((i 1).val / 2048) + 3) / 12 := e4
    have e5' : win3_2.index ⟨12 * ((i 0).val / 1024) + 4 * ((i 1).val / 2048) + 3, hlt⟩ (1 : Fin 2) = (12 * ((i 0).val / 1024) + 4 * ((i 1).val / 2048) + 3) / 4 % 3 := e5
    intro a
    match a with
    | ⟨0, _⟩ =>
      show win3_2.index ⟨12 * ((i 0).val / 1024) + 4 * ((i 1).val / 2048) + 3, hlt⟩ (0 : Fin 2) * 1024 ≤ (i 0).val ∧ (i 0).val < win3_2.index ⟨12 * ((i 0).val / 1024) + 4 * ((i 1).val / 2048) + 3, hlt⟩ (0 : Fin 2) * 1024 + 1024
      rw [e4']; omega
    | ⟨1, _⟩ =>
      show win3_2.index ⟨12 * ((i 0).val / 1024) + 4 * ((i 1).val / 2048) + 3, hlt⟩ (1 : Fin 2) * 2048 ≤ (i 1).val ∧ (i 1).val < win3_2.index ⟨12 * ((i 0).val / 1024) + 4 * ((i 1).val / 2048) + 3, hlt⟩ (1 : Fin 2) * 2048 + 2048
      rw [e5']; omega

/-- So after the region the output array is the product matrix. -/
theorem arr_eq (c : Dev nD) : (dat V c).arrAt 2 cfg3.N = prod V c :=
  (dat V c).arrAt_eq_of_cover 2 (prod V c) (flushed_eq V c) covered

/-- The output array after the region. -/
abbrev outArr (c : Dev nD) : S8192x6144.Idx → EReal := (dat (F := Ideal) V c).arrAt 2 cfg3.N

/-- The output array after the region, entry by entry: row tt, column o holds the dot product of row tt of the left
    operand with row o of the right operand. -/
theorem final (c : Dev nD) (t : Fin 8192) (o : Fin 6144) :
    outArr V c (ix2 t o) = ∑ d : Fin 4096, xArr V c (ix2 t d) * wArr V c (ix2 o d) := by
  refine (congrFun (arr_eq V c) (ix2 t o)).trans ?_
  rfl

end Cert.KernelIdeal.Mm3

end
-- ==== Proof.KValue.lean ====
/-
  The idealized kernel program's three results, as the specification's projections of its arguments.

  Each dequantisation call leaves, in its output array, codebook(code mod 16) times the group scale; the concatenate
  stacks the three arrays; the matrix product leaves, at (t, o), the sum over the 4096 features of the flattened
  activations at (t, d) times the stacked weights at (o, d); the last host stretch slices the columns back into the
  three projections and restores the batch shape.
-/
import proofs.«431283_j678604833227_3_alg».proof.Proof.KValueA
import proofs.«431283_j678604833227_3_alg».proof.Proof.Dq0Array
import proofs.«431283_j678604833227_3_alg».proof.Proof.Dq1Array
import proofs.«431283_j678604833227_3_alg».proof.Proof.Dq2Array
import proofs.«431283_j678604833227_3_alg».proof.Proof.Mm3Value
import proofs.«431283_j678604833227_3_alg».proof.Proof.Spec

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KRun

variable (m : (ℓ : Loc nD τ sig) → Buf (Elt Ideal) ℓ) (ρ : Dev nD → PrngReg)

/-- What the concatenate finds in the first call's output: the dequantised first weight matrix. -/
theorem wq_at (c : Dev nD) (o : Fin 4096) (d : Fin 4096) :
    (W6 m ρ c (Proc.devRef .tc main_v4) : S4096x4096.Idx → EReal) (ix2 o d)
      = Cert.Spec.wq (aQb m c) (aQc m c) (aQs m c) o d := by
  have h1 : W6 m ρ c (Proc.devRef .tc main_v4) = Dq0.outArr (V1 m ρ) c := (q_out_kept m ρ c).trans (W2_arr m ρ c 3)
  refine (congrFun h1 _).trans ?_
  rw [Dq0.final]
  unfold Cert.Spec.wq Cert.Spec.entry
  rw [show Dq0.codeArr (V1 m ρ) c = aQc m c from q_codes m ρ c, show Dq0.scaleArr (V1 m ρ) c = aQs m c from q_scales m ρ c]
  exact congrArg (· * _) (q_cb m ρ c o _)

/-- The second call's output: the dequantised second weight matrix. -/
theorem wk_at (c : Dev nD) (o : Fin 1024) (d : Fin 4096) :
    (W6 m ρ c (Proc.devRef .tc main_v7) : S1024x4096.Idx → EReal) (ix2 o d)
      = Cert.Spec.wk (aKb m c) (aKc m c) (aKs m c) o d := by
  have h1 : W6 m ρ c (Proc.devRef .tc main_v7) = Dq1.outArr (V3 m ρ) c := (k_out_kept m ρ c).trans (W4_arr m ρ c 3)
  refine (congrFun h1 _).trans ?_
  rw [Dq1.final]
  unfold Cert.Spec.wk Cert.Spec.entry
  rw [show Dq1.codeArr (V3 m ρ) c = aKc m c from k_codes m ρ c, show Dq1.scaleArr (V3 m ρ) c = aKs m c from k_scales m ρ c]
  exact congrArg (· * _) (k_cb m ρ c o _)

/-- The third call's output: the dequantised third weight matrix. -/
theorem wv_at (c : Dev nD) (o : Fin 1024) (d : Fin 4096) :
    (W6 m ρ c (Proc.devRef .tc main_v10) : S1024x4096.Idx → EReal) (ix2 o d)
      = Cert.Spec.wk (aVb m c) (aVc m c) (aVs m c) o d := by
  have h1 : W6 m ρ c (Proc.devRef .tc main_v10) = Dq2.outArr (V5 m ρ) c := W6_arr m ρ c 3
  refine (congrFun h1 _).trans ?_
  rw [Dq2.final]
  unfold Cert.Spec.wk Cert.Spec.entry
  rw [show Dq2.codeArr (V5 m ρ) c = aVc m c from v_codes m ρ c, show Dq2.scaleArr (V5 m ρ) c = aVs m c from v_scales m ρ c]
  exact congrArg (· * _) (v_cb m ρ c o _)

/-- The stacked weights the matrix product is entered with: rows 0..4095 the first matrix, 4096..5119 the second,
    5120..6143 the third. -/
theorem stack_q (c : Dev nD) (o : Fin 4096) (d : Fin 4096) :
    (V7 m ρ c main_v11 : S6144x4096.Idx → EReal) (ix2 (⟨o.val, by have := o.isLt; omega⟩ : Fin 6144) d)
      = Cert.Spec.wq (aQb m c) (aQc m c) (aQs m c) o d :=
  (HostVals.cat_q (W6 m ρ c) o d).trans (wq_at m ρ c o d)
theorem stack_k (c : Dev nD) (o : Fin 1024) (d : Fin 4096) :
    (V7 m ρ c main_v11 : S6144x4096.Idx → EReal) (ix2 (⟨4096 + o.val, by have := o.isLt; omega⟩ : Fin 6144) d)
      = Cert.Spec.wk (aKb m c) (aKc m c) (aKs m c) o d :=
  (HostVals.cat_k (W6 m ρ c) o d).trans (wk_at m ρ c o d)
theorem stack_v (c : Dev nD) (o : Fin 1024) (d : Fin 4096) :
    (V7 m ρ c main_v11 : S6144x4096.Idx → EReal) (ix2 (⟨5120 + o.val, by have := o.isLt; omega⟩ : Fin 6144) d)
      = Cert.Spec.wk (aVb m c) (aVc m c) (aVs m c) o d :=
  (HostVals.cat_v (W6 m ρ c) o d).trans (wv_at m ρ c o d)

/-- The matrix product's output array and the three results, at their literal types. -/
abbrev prodArr (c : Dev nD) : S8192x6144.Idx → EReal := W8 m ρ c (Proc.devRef .tc main_v12)
abbrev resQArr (c : Dev nD) : S4x2048x4096.Idx → EReal := W9 m ρ c (Proc.devRef .tc main_v14)
abbrev resKArr (c : Dev nD) : S4x2048x1024.Idx → EReal := W9 m ρ c (Proc.devRef .tc main_v16)
abbrev resVArr (c : Dev nD) : S4x2048x1024.Idx → EReal := W9 m ρ c (Proc.devRef .tc main_v18)

/-- The matrix product's output at row `2048 b + s`, column `o'`: the sum over the features of x(b, s, d) times the
    stacked weight at (o', d). -/
theorem prod_at (c : Dev nD) (b : Fin 4) (s : Fin 2048) (o' : Fin 6144) :
    prodArr m ρ c
        (ix2 (⟨2048 * b.val + s.val, by have := b.isLt; have := s.isLt; omega⟩ : Fin 8192) o')
      = ∑ d : Fin 4096, aX m c (ix3 b s d) * Mm3.wArr (V7 m ρ) c (ix2 o' d) := by
  have h1 : prodArr m ρ c = Mm3.outArr (V7 m ρ) c := W8_arr m ρ c 2
  rw [h1, Mm3.final]
  exact Finset.sum_congr rfl fun d _ => congrArg (· * _) (x_at m ρ c b s d)

/-- The first result. -/
theorem resQ (c : Dev nD) (b : Fin 4) (s : Fin 2048) (o : Fin 4096) :
    resQArr m ρ c (ix3 b s o)
      = Cert.Spec.outQ (aX m c) (aQb m c) (aQc m c) (aQs m c) b s o := by
  refine (HostVals.res_q (W8 m ρ c) b s o).trans ((prod_at m ρ c b s _).trans ?_)
  unfold Cert.Spec.outQ
  exact Finset.sum_congr rfl fun d _ => congrArg (_ * ·) (stack_q m ρ c o d)

/-- The second result. -/
theorem resK (c : Dev nD) (b : Fin 4) (s : Fin 2048) (o : Fin 1024) :
    resKArr m ρ c (ix3 b s o)
      = Cert.Spec.outK (aX m c) (aKb m c) (aKc m c) (aKs m c) b s o := by
  refine (HostVals.res_k (W8 m ρ c) b s o).trans ((prod_at m ρ c b s _).trans ?_)
  unfold Cert.Spec.outK
  exact Finset.sum_congr rfl fun d _ => congrArg (_ * ·) (stack_k m ρ c o d)

/-- The third result. -/
theorem resV (c : Dev nD) (b : Fin 4) (s : Fin 2048) (o : Fin 1024) :
    resVArr m ρ c (ix3 b s o)
      = Cert.Spec.outK (aX m c) (aVb m c) (aVc m c) (aVs m c) b s o := by
  refine (HostVals.res_v (W8 m ρ c) b s o).trans ((prod_at m ρ c b s _).trans ?_)
  unfold Cert.Spec.outK
  exact Finset.sum_congr rfl fun d _ => congrArg (_ * ·) (stack_v m ρ c o d)

end Cert.KernelIdeal.KValue

end
-- ==== Proof.RefValue.lean ====
/-
  The reference program's three results, read at an index over the extended reals, are the specification's
  three projections, provided every integer code lies in the codebook's range [0, 16).

  Per weight matrix the reference wraps a negative code by adding sixteen, looks the code up in the codebook with
  the start index clamped into [0, 15], multiplies by the scale of the column's group of 128 and lays the result out
  as a matrix with 4096 columns. For a code in range the wrap is the identity and the clamp selects the entry
  numbered by the code itself, which is its low four bits. The three matrices are stacked by rows (4096, 1024 and
  1024 rows) and the input, flattened to 8192 rows, is multiplied by the transpose of the stack; each result is a
  band of columns of the product, unflattened.
-/
import proofs.«431283_j678604833227_3_alg».proof.Proof.Gen.ReferenceIdeal.Read
import proofs.«431283_j678604833227_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## Words: a code in range is not wrapped, and the clamped start index is its low four bits -/

/-- A word that is not negative as a signed integer is not below zero in the signed order. -/
theorem slt_zero_of_nonneg (c : BitVec 32) (h0 : 0 ≤ c.toInt) : IntOp.cmpi .slt c 0#32 = 0#1 := by
  have hz : (0#32 : BitVec 32).toInt = 0 := by decide
  have hs : c.slt 0#32 = false := by
    simp only [BitVec.slt, hz, decide_eq_false_iff_not, not_lt]; exact h0
  show BitVec.ofBool (c.slt 0#32) = 0#1
  rw [hs]; rfl

/-- For a word whose signed value lies in [0, 16), that value clamped to at most 15 is the word's low four bits. -/
theorem clamp_of_inRange (c : BitVec 32) (h0 : 0 ≤ c.toInt) (h1 : c.toInt < 16) :
    min c.toInt.toNat 15 = c.toNat % 16 := by
  have hlt : c.toNat < 2 ^ 32 := c.isLt
  have e : c.toInt = (c.toNat : Int) := by
    rw [BitVec.toInt_eq_toNat_cond] at h0 ⊢
    split_ifs at h0 ⊢ with hc
    · rfl
    · omega
  rw [e] at h1 ⊢
  rw [Int.toNat_natCast]
  omega

/-! ## The matrix of 4096 rows -/

/-- The start indices of the lookup at (o, d) are the code at (o, d): a code in range is not wrapped. -/
theorem startQ (x1 : (⟨S4096x4096, .i32⟩ : BufTy).Contents (Elt Ideal)) (h1 : Cert.Spec.InRange x1) (o d : Fin 4096) :
    val_main_v6 (F := Ideal) x1 (takeIdx (ix2 o d)) = x1 (ix2 o d) := by
  have hi : idx_main_v6 (takeIdx (ix2 o d)) = ix2 o d :=
    funext fun a => Fin.ext (by match a with | ⟨0, _⟩ => rfl | ⟨1, _⟩ => rfl)
  rw [val_main_v6_apply, val_main_v5_apply, val_main_v2_apply, val_main_v1_apply, val_main_c_apply, hi,
    slt_zero_of_nonneg _ (h1 _).1, select_zero]

/-- The lookup at (o, d) is the codebook entry the code at (o, d) selects. -/
theorem gatherQ (x1 : (⟨S4096x4096, .i32⟩ : BufTy).Contents (Elt Ideal)) (x3 : (⟨S16, .f32⟩ : BufTy).Contents (Elt Ideal))
    (h1 : Cert.Spec.InRange x1) (o d : Fin 4096) :
    val_main_v7 (F := Ideal) x1 x3 (ix2 o d) = Cert.Spec.entry x3 (x1 (ix2 o d)) := by
  unfold val_main_v7
  refine (gather_take_apply (N := 16) (R := 4096) (C := 4096) (by decide)
    Facts₀.gather_S16_S4096x4096x1_S4096x4096_n_0_n_n_0_2_1_wf x3 (val_main_v6 (F := Ideal) x1) (ix2 o d)).trans ?_
  unfold Cert.Spec.entry
  refine congrArg x3 (congrArg ix1 (Fin.ext ?_))
  show min (val_main_v6 (F := Ideal) x1 (takeIdx (ix2 o d))).toInt.toNat (16 - 1) = (x1 (ix2 o d)).toNat % 16
  rw [startQ x1 h1 o d]
  exact clamp_of_inRange _ (h1 _).1 (h1 _).2

/-- The dequantised matrix at (o, d) is the specification's weight. -/
theorem weightQ (x1 : (⟨S4096x4096, .i32⟩ : BufTy).Contents (Elt Ideal)) (x2 : (⟨S4096x32, .f32⟩ : BufTy).Contents (Elt Ideal))
    (x3 : (⟨S16, .f32⟩ : BufTy).Contents (Elt Ideal)) (h1 : Cert.Spec.InRange x1) (o d : Fin 4096) :
    val_main_v12 (F := Ideal) x1 x2 x3 (ix2 o d) = Cert.Spec.wq x3 x1 x2 o d := by
  have ho : o.val < 4096 := o.isLt
  have hd : d.val < 4096 := d.isLt
  have e8 : idx_main_v8 (idx_main_v12 (ix2 o d)) = ix2 o d :=
    funext fun a => Fin.ext (by
      match a with
      | ⟨0, _⟩ =>
        show ((((o.val * 4096 + d.val) / 4096) * 32 + (o.val * 4096 + d.val) / 128 % 32) * 128 + (o.val * 4096 + d.val) % 128) / 4096 = o.val
        omega
      | ⟨1, _⟩ =>
        show ((((o.val * 4096 + d.val) / 4096) * 32 + (o.val * 4096 + d.val) / 128 % 32) * 128 + (o.val * 4096 + d.val) % 128) % 4096 = d.val
        omega)
  have e9 : idx_main_v9 (idx_main_v10 (idx_main_v12 (ix2 o d))) = ix2 o (Cert.Spec.grp d) :=
    funext fun a => Fin.ext (by
      match a with
      | ⟨0, _⟩ =>
        show (o.val * 4096 + d.val) / 4096 = o.val
        omega
      | ⟨1, _⟩ =>
        show (o.val * 4096 + d.val) / 128 % 32 = d.val / 128
        omega)
  rw [val_main_v12_apply, val_main_v11_apply, val_main_v8_apply, val_main_v10_apply, val_main_v9_apply, e8, e9,
    gatherQ x1 x3 h1 o d]
  rfl

/-! ## The matrices of 1024 rows -/

/-- The start indices of the lookup at (o, d) are the code at (o, d): a code in range is not wrapped. -/
theorem startK (x4 : (⟨S1024x4096, .i32⟩ : BufTy).Contents (Elt Ideal)) (h4 : Cert.Spec.InRange x4) (o : Fin 1024) (d : Fin 4096) :
    val_main_v18 (F := Ideal) x4 (takeIdx (ix2 o d)) = x4 (ix2 o d) := by
  have hi : idx_main_v18 (takeIdx (ix2 o d)) = ix2 o d :=
    funext fun a => Fin.ext (by match a with | ⟨0, _⟩ => rfl | ⟨1, _⟩ => rfl)
  rw [val_main_v18_apply, val_main_v17_apply, val_main_v14_apply, val_main_v13_apply, val_main_c_1_apply, hi,
    slt_zero_of_nonneg _ (h4 _).1, select_zero]

/-- The lookup at (o, d) is the codebook entry the code at (o, d) selects. -/
theorem gatherK (x4 : (⟨S1024x4096, .i32⟩ : BufTy).Contents (Elt Ideal)) (x6 : (⟨S16, .f32⟩ : BufTy).Contents (Elt Ideal))
    (h4 : Cert.Spec.InRange x4) (o : Fin 1024) (d : Fin 4096) :
    val_main_v19 (F := Ideal) x4 x6 (ix2 o d) = Cert.Spec.entry x6 (x4 (ix2 o d)) := by
  unfold val_main_v19
  refine (gather_take_apply (N := 16) (R := 1024) (C := 4096) (by decide)
    Facts₀.gather_S16_S1024x4096x1_S1024x4096_n_0_n_n_0_2_1_wf x6 (val_main_v18 (F := Ideal) x4) (ix2 o d)).trans ?_
  unfold Cert.Spec.entry
  refine congrArg x6 (congrArg ix1 (Fin.ext ?_))
  show min (val_main_v18 (F := Ideal) x4 (takeIdx (ix2 o d))).toInt.toNat (16 - 1) = (x4 (ix2 o d)).toNat % 16
  rw [startK x4 h4 o d]
  exact clamp_of_inRange _ (h4 _).1 (h4 _).2

/-- The dequantised matrix at (o, d) is the specification's weight. -/
theorem weightK (x4 : (⟨S1024x4096, .i32⟩ : BufTy).Contents (Elt Ideal)) (x5 : (⟨S1024x32, .f32⟩ : BufTy).Contents (Elt Ideal))
    (x6 : (⟨S16, .f32⟩ : BufTy).Contents (Elt Ideal)) (h4 : Cert.Spec.InRange x4) (o : Fin 1024) (d : Fin 4096) :
    val_main_v24 (F := Ideal) x4 x5 x6 (ix2 o d) = Cert.Spec.wk x6 x4 x5 o d := by
  have ho : o.val < 1024 := o.isLt
  have hd : d.val < 4096 := d.isLt
  have e20 : idx_main_v20 (idx_main_v24 (ix2 o d)) = ix2 o d :=
    funext fun a => Fin.ext (by
      match a with
      | ⟨0, _⟩ =>
        show ((((o.val * 4096 + d.val) / 4096) * 32 + (o.val * 4096 + d.val) / 128 % 32) * 128 + (o.val * 4096 + d.val) % 128) / 4096 = o.val
        omega
      | ⟨1, _⟩ =>
        show ((((o.val * 4096 + d.val) / 4096) * 32 + (o.val * 4096 + d.val) / 128 % 32) * 128 + (o.val * 4096 + d.val) % 128) % 4096 = d.val
        omega)
  have e21 : idx_main_v21 (idx_main_v22 (idx_main_v24 (ix2 o d))) = ix2 o (Cert.Spec.grp d) :=
    funext fun a => Fin.ext (by
      match a with
      | ⟨0, _⟩ =>
        show (o.val * 4096 + d.val) / 4096 = o.val
        omega
      | ⟨1, _⟩ =>
        show (o.val * 4096 + d.val) / 128 % 32 = d.val / 128
        omega)
  rw [val_main_v24_apply, val_main_v23_apply, val_main_v20_apply, val_main_v22_apply, val_main_v21_apply, e20, e21,
    gatherK x4 x6 h4 o d]
  rfl

/-- The third matrix is computed by the same operations as the second, from its own codes, scales and codebook. -/
theorem thirdMatrix (x7 : (⟨S1024x4096, .i32⟩ : BufTy).Contents (Elt Ideal)) (x8 : (⟨S1024x32, .f32⟩ : BufTy).Contents (Elt Ideal))
    (x9 : (⟨S16, .f32⟩ : BufTy).Contents (Elt Ideal)) :
    val_main_v36 (F := Ideal) x7 x8 x9 = val_main_v24 (F := Ideal) x7 x8 x9 := rfl

/-! ## The stack of the three matrices, and the product -/

/-- A row below 4096 of the stack is that row of the first matrix. -/
theorem stackQ (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (o d : Fin 4096) :
    val_main_v37 (F := Ideal) x1 x2 x3 x4 x5 x6 x7 x8 x9 (ix2 (⟨o.val, by have := o.isLt; omega⟩ : Fin 6144) d)
      = val_main_v12 (F := Ideal) x1 x2 x3 (ix2 o d) := by
  unfold val_main_v37
  exact concatenate_apply_piece (0 : Fin S6144x4096.rank) _ _ _ 0 (by exact Nat.zero_lt_succ 2) S4096x4096 _ rfl rfl 0 rfl (ix2 o d)
    (fun b hb => by
      match b with
      | ⟨0, _⟩ => exact absurd rfl hb
      | ⟨1, _⟩ => rfl)
    (Nat.zero_add _)

/-- Row 4096 + o of the stack, o below 1024, is row o of the second matrix. -/
theorem stackK (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (o : Fin 1024) (d : Fin 4096) :
    val_main_v37 (F := Ideal) x1 x2 x3 x4 x5 x6 x7 x8 x9 (ix2 (⟨4096 + o.val, by have := o.isLt; omega⟩ : Fin 6144) d)
      = val_main_v24 (F := Ideal) x4 x5 x6 (ix2 o d) := by
  unfold val_main_v37
  exact concatenate_apply_piece (0 : Fin S6144x4096.rank) _ _ _ 1 (by exact Nat.succ_lt_succ (Nat.zero_lt_succ 1)) S1024x4096 _ rfl rfl 4096 rfl (ix2 o d)
    (fun b hb => by
      match b with
      | ⟨0, _⟩ => exact absurd rfl hb
      | ⟨1, _⟩ => rfl)
    rfl

/-- Row 5120 + o of the stack, o below 1024, is row o of the third matrix. -/
theorem stackV (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (o : Fin 1024) (d : Fin 4096) :
    val_main_v37 (F := Ideal) x1 x2 x3 x4 x5 x6 x7 x8 x9 (ix2 (⟨5120 + o.val, by have := o.isLt; omega⟩ : Fin 6144) d)
      = val_main_v36 (F := Ideal) x7 x8 x9 (ix2 o d) := by
  unfold val_main_v37
  exact concatenate_apply_piece (0 : Fin S6144x4096.rank) _ _ _ 2 (by exact Nat.lt_succ_self 2) S1024x4096 _ rfl rfl 5120 rfl (ix2 o d)
    (fun b hb => by
      match b with
      | ⟨0, _⟩ => exact absurd rfl hb
      | ⟨1, _⟩ => rfl)
    rfl

/-- The product at flattened row 2048 b + s and column c: the sum over the 4096 input features of the input at
    (b, s, ·) times row c of the stack. -/
theorem dotAt (x0 : (⟨S4x2048x4096, .f32⟩ : BufTy).Contents (Elt Ideal)) (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (b : Fin 4) (s : Fin 2048) (c : Fin 6144) :
    val_main_v38 (F := Ideal) x0 x1 x2 x3 x4 x5 x6 x7 x8 x9
        (ix2 (⟨b.val * 2048 + s.val, by have := b.isLt; have := s.isLt; omega⟩ : Fin 8192) c)
      = ∑ k : Fin 4096, x0 (ix3 b s k) * val_main_v37 (F := Ideal) x1 x2 x3 x4 x5 x6 x7 x8 x9 (ix2 c k) := by
  have hb : b.val < 4 := b.isLt
  have hs : s.val < 2048 := s.isLt
  rw [val_main_v38_apply]
  refine Finset.sum_congr rfl fun k _ => ?_
  have hk : k.val < 4096 := k.isLt
  have el : idx_main_v0 (lidx_main_v38
      (ix2 (⟨b.val * 2048 + s.val, by omega⟩ : Fin 8192) c) k) = ix3 b s k :=
    funext fun a => Fin.ext (by
      match a with
      | ⟨0, _⟩ =>
        show ((b.val * 2048 + s.val) * 4096 + k.val) / 8388608 = b.val
        omega
      | ⟨1, _⟩ =>
        show ((b.val * 2048 + s.val) * 4096 + k.val) / 4096 % 2048 = s.val
        omega
      | ⟨2, _⟩ =>
        show ((b.val * 2048 + s.val) * 4096 + k.val) % 4096 = k.val
        omega)
  have er : ridx_main_v38 (ix2 (⟨b.val * 2048 + s.val, by omega⟩ : Fin 8192) c) k = ix2 c k :=
    funext fun a => Fin.ext (by match a with | ⟨0, _⟩ => rfl | ⟨1, _⟩ => rfl)
  rw [val_main_v0_apply, el, er]

/-! ## The three results -/

theorem refQ (x0 : (⟨S4x2048x4096, .f32⟩ : BufTy).Contents (Elt Ideal)) (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (h1 : Cert.Spec.InRange x1) (b : Fin 4) (s : Fin 2048) (o : Fin 4096) :
    val_main_v40 (F := Ideal) x0 x1 x2 x3 x4 x5 x6 x7 x8 x9 (ix3 b s o) = Cert.Spec.outQ x0 x3 x1 x2 b s o := by
  have hb : b.val < 4 := b.isLt
  have hs : s.val < 2048 := s.isLt
  have ho : o.val < 4096 := o.isLt
  have e : idx_main_v39 (idx_main_v40 (ix3 b s o))
      = ix2 (⟨b.val * 2048 + s.val, by omega⟩ : Fin 8192) (⟨o.val, by omega⟩ : Fin 6144) :=
    funext fun a => Fin.ext (by
      match a with
      | ⟨0, _⟩ =>
        show ((b.val * 2048 + s.val) * 4096 + o.val) / 4096 = b.val * 2048 + s.val
        omega
      | ⟨1, _⟩ =>
        show ((b.val * 2048 + s.val) * 4096 + o.val) % 4096 = o.val
        omega)
  rw [val_main_v40_apply, val_main_v39_apply, e, dotAt]
  unfold Cert.Spec.outQ
  refine Finset.sum_congr rfl fun d _ => ?_
  rw [stackQ, weightQ x1 x2 x3 h1 o d]

theorem refK (x0 : (⟨S4x2048x4096, .f32⟩ : BufTy).Contents (Elt Ideal)) (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (h4 : Cert.Spec.InRange x4) (b : Fin 4) (s : Fin 2048) (o : Fin 1024) :
    val_main_v42 (F := Ideal) x0 x1 x2 x3 x4 x5 x6 x7 x8 x9 (ix3 b s o) = Cert.Spec.outK x0 x6 x4 x5 b s o := by
  have hb : b.val < 4 := b.isLt
  have hs : s.val < 2048 := s.isLt
  have ho : o.val < 1024 := o.isLt
  have e : idx_main_v41 (idx_main_v42 (ix3 b s o))
      = ix2 (⟨b.val * 2048 + s.val, by omega⟩ : Fin 8192) (⟨4096 + o.val, by omega⟩ : Fin 6144) :=
    funext fun a => Fin.ext (by
      match a with
      | ⟨0, _⟩ =>
        show ((b.val * 2048 + s.val) * 1024 + o.val) / 1024 = b.val * 2048 + s.val
        omega
      | ⟨1, _⟩ =>
        show 4096 + ((b.val * 2048 + s.val) * 1024 + o.val) % 1024 = 4096 + o.val
        omega)
  rw [val_main_v42_apply, val_main_v41_apply, e, dotAt]
  unfold Cert.Spec.outK
  refine Finset.sum_congr rfl fun d _ => ?_
  rw [stackK, weightK x4 x5 x6 h4 o d]

theorem refV (x0 : (⟨S4x2048x4096, .f32⟩ : BufTy).Contents (Elt Ideal)) (x1 : (⟨S4096x4096, .i32⟩ : BufTy).Contents (Elt Ideal)) (x2 : (⟨S4096x32, .f32⟩ : BufTy).Contents (Elt Ideal)) (x3 : (⟨S16, .f32⟩ : BufTy).Contents (Elt Ideal)) (x4 : (⟨S1024x4096, .i32⟩ : BufTy).Contents (Elt Ideal)) (x5 : (⟨S1024x32, .f32⟩ : BufTy).Contents (Elt Ideal)) (x6 : (⟨S16, .f32⟩ : BufTy).Contents (Elt Ideal)) (x7 : (⟨S1024x4096, .i32⟩ : BufTy).Contents (Elt Ideal)) (x8 : (⟨S1024x32, .f32⟩ : BufTy).Contents (Elt Ideal)) (x9 : (⟨S16, .f32⟩ : BufTy).Contents (Elt Ideal)) (h7 : Cert.Spec.InRange x7) (b : Fin 4) (s : Fin 2048) (o : Fin 1024) :
    val_main_v44 (F := Ideal) x0 x1 x2 x3 x4 x5 x6 x7 x8 x9 (ix3 b s o) = Cert.Spec.outK x0 x9 x7 x8 b s o := by
  have hb : b.val < 4 := b.isLt
  have hs : s.val < 2048 := s.isLt
  have ho : o.val < 1024 := o.isLt
  have e : idx_main_v43 (idx_main_v44 (ix3 b s o))
      = ix2 (⟨b.val * 2048 + s.val, by omega⟩ : Fin 8192) (⟨5120 + o.val, by omega⟩ : Fin 6144) :=
    funext fun a => Fin.ext (by
      match a with
      | ⟨0, _⟩ =>
        show ((b.val * 2048 + s.val) * 1024 + o.val) / 1024 = b.val * 2048 + s.val
        omega
      | ⟨1, _⟩ =>
        show 5120 + ((b.val * 2048 + s.val) * 1024 + o.val) % 1024 = 5120 + o.val
        omega)
  rw [val_main_v44_apply, val_main_v43_apply, e, dotAt]
  unfold Cert.Spec.outK
  refine Finset.sum_congr rfl fun d _ => ?_
  rw [stackV, thirdMatrix, weightK x7 x8 x9 h7 o d]

end Cert.ReferenceIdeal.RefValue

end
-- ==== Proof.PreRange.lean ====
/-
  The precondition, read back for the integer codes.

  The precondition is the conjunction (a chain of `and` on one-bit scalars) of ten "all elements satisfy"
  tests, one per argument. Each test is a reduction by `and`, from the constant 1, of a one-bit array; the
  reduction is 1 exactly when every element of the array is 1. For each of the three arrays of codes the
  element at position j is (code j ≥ 0) and (code j < 16), both compared as signed 32-bit integers, the
  bounds 0 and 16 being scalars spread over the array. So when the whole conjunction is 1, every code of
  each of the three arrays, read as a signed integer, lies in [0, 16). The seven tests on the real-valued
  arguments are conjuncts of the same chain and are simply not used.
-/
import proofs.«431283_j678604833227_3_alg».proof.Pre_finite_inputs
import proofs.«431283_j678604833227_3_alg».proof.Proof.Spec
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx
open Cert.Pre_finite_inputs

/-- The scalar shape has exactly one index. -/
instance subsingleton_scalar_idx : Subsingleton S_.Idx := ⟨fun a b => funext fun d => d.elim0⟩

/-- One element of a range test: if (code ≥ 0) and (code < 16) is 1 at position j, the two bounds being
    scalars spread over the array, then the code at j, read signed, lies in [0, 16). -/
theorem elem_range {S : Shape} (hb0 hb16 : S_.BroadcastsInDim S (![] : Fin 0 → Fin S.rank)) (codes : IVec S 32) (j : S.Idx)
    (h : andi (cmpi .sge codes (broadcastInDim S ![] hb0 (constantI S_ 32 0#32)))
              (cmpi .slt codes (broadcastInDim S ![] hb16 (constantI S_ 32 16#32))) j = 1#1) :
    0 ≤ (codes j).toInt ∧ (codes j).toInt < 16 := by
  have h' : IntOp.andi (IntOp.cmpi .sge (codes j) 0#32) (IntOp.cmpi .slt (codes j) 16#32) = 1#1 := h
  rw [IntOp.andi_eq_one, IntOp.cmpi_sge, IntOp.cmpi_slt] at h'
  have e0 : (0#32 : BitVec 32).toInt = 0 := by decide
  have e16 : (16#32 : BitVec 32).toInt = 16 := by decide
  rw [e0] at h'
  rw [e16] at h'
  exact h'

/-- A whole range test: if the reduction by `and` of the element tests is 1, every code lies in [0, 16). -/
theorem inRange_of_all {S : Shape} {axes : List (Fin S.rank)} (hb0 hb16 : S_.BroadcastsInDim S (![] : Fin 0 → Fin S.rank))
    (hr : S.ReducesTo axes S_) (hu : 0 < S_.numel) (codes : IVec S 32) (init : IVec S_ 1)
    (h : Host.reduce IntOp.andi
          (andi (cmpi .sge codes (broadcastInDim S ![] hb0 (constantI S_ 32 0#32)))
                (cmpi .slt codes (broadcastInDim S ![] hb16 (constantI S_ 32 16#32)))) init hr hu ix0 = 1#1) :
    Cert.Spec.InRange codes := fun j =>
  elem_range hb0 hb16 codes j (Host.reduce_andi_all _ init hr hu ix0 h j)

/-- The last three conjuncts of a chain of four: if ((a and b) and c) and d is 1 at the scalar index, so are b, c, d. -/
theorem last_three {a b c d : IVec S_ 1} (h : andi (andi (andi a b) c) d ix0 = 1#1) :
    b ix0 = 1#1 ∧ c ix0 = 1#1 ∧ d ix0 = 1#1 := by
  have h' : IntOp.andi (IntOp.andi (IntOp.andi (a ix0) (b ix0)) (c ix0)) (d ix0) = 1#1 := h
  rw [IntOp.andi_eq_one, IntOp.andi_eq_one, IntOp.andi_eq_one] at h'
  exact ⟨h'.1.1.2, h'.1.2, h'.2⟩

variable [Facts]

/-- THE PRECONDITION DECODED: when the precondition's result is all ones, every code of each of the three
    code arrays, read as a signed integer, lies in [0, 16). -/
theorem inRange_of_pre {F : FTy → Type} [FloatOps F]
    (x0 : FVec F S4x2048x4096 .f32) (x1 : IVec S4096x4096 32) (x2 : FVec F S4096x32 .f32) (x3 : FVec F S16 .f32)
    (x4 : IVec S1024x4096 32) (x5 : FVec F S1024x32 .f32) (x6 : FVec F S16 .f32) (x7 : IVec S1024x4096 32)
    (x8 : FVec F S1024x32 .f32) (x9 : FVec F S16 .f32)
    (h : Cert.Pre_finite_inputs.fn (F := F) x0 x1 x2 x3 x4 x5 x6 x7 x8 x9 = fun _ => 1#1) :
    Cert.Spec.InRange x1 ∧ Cert.Spec.InRange x4 ∧ Cert.Spec.InRange x7 := by
  have e := congrFun h ix0
  dsimp only [Cert.Pre_finite_inputs.fn, fn_part1, fn_part2, fn_part3] at e
  obtain ⟨h1, h4, h7⟩ := last_three e
  exact ⟨inRange_of_all _ _ _ _ x1 _ h1, inRange_of_all _ _ _ _ x4 _ h4, inRange_of_all _ _ _ _ x7 _ h7⟩

end Cert.PreRange

end
-- ==== Proof.RefClaims.lean ====
/-
  The reference program's side of the claims.

  Its generated run gives each result as the composed term of the arguments. Read at an index, with the integer
  codes in the codebook's range, the three results are the specification's projections: out(b, s, o) is the sum over
  the 4096 input features of x(b, s, d) times the dequantised weight at (o, d).
-/
import proofs.«431283_j678604833227_3_alg».proof.Defs
import proofs.«431283_j678604833227_3_alg».proof.Proof.Gen.ReferenceIdeal.Run
import proofs.«431283_j678604833227_3_alg».proof.Proof.Gen.Pre_finite_inputs
import proofs.«431283_j678604833227_3_alg».proof.Proof.RefValue
import proofs.«431283_j678604833227_3_alg».proof.Proof.PreRange

noncomputable section

namespace Cert.Proof.RefClaims

open Idealize.ShloMosaic Idealize.ShloMosaic.TcCoe Idealize.SL.Sem Idealize.ShloMosaic.ValueIdx

/-- The reference runs to the end and leaves its arguments as they were: its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The specification's three projections as whole arrays of the argument arrays. -/
def specQ (x : Cert.Spec.SX.Idx → EReal) (cb : Cert.Spec.SCb.Idx → EReal) (codes : Cert.Spec.SCq.Idx → BitVec 32)
    (sc : Cert.Spec.SSq.Idx → EReal) : (⟨3, ![4, 2048, 4096]⟩ : Shape).Idx → EReal :=
  fun j => Cert.Spec.outQ x cb codes sc (j 0) (j 1) (j 2)
def specK (x : Cert.Spec.SX.Idx → EReal) (cb : Cert.Spec.SCb.Idx → EReal) (codes : Cert.Spec.SCk.Idx → BitVec 32)
    (sc : Cert.Spec.SSk.Idx → EReal) : (⟨3, ![4, 2048, 1024]⟩ : Shape).Idx → EReal :=
  fun j => Cert.Spec.outK x cb codes sc (j 0) (j 1) (j 2)

/-- With the codes in range, the reference's run ends with its three results at the specification's projections of its
    arguments, the arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg)
    (h1 : ∀ c : Dev Cert.ReferenceIdeal.nD, Cert.Spec.InRange (m ((c.tc : Thread Cert.ReferenceIdeal.nD Cert.ReferenceIdeal.τ).loc Cert.ReferenceIdeal.main_arg1)))
    (h4 : ∀ c : Dev Cert.ReferenceIdeal.nD, Cert.Spec.InRange (m ((c.tc : Thread Cert.ReferenceIdeal.nD Cert.ReferenceIdeal.τ).loc Cert.ReferenceIdeal.main_arg4)))
    (h7 : ∀ c : Dev Cert.ReferenceIdeal.nD, Cert.Spec.InRange (m ((c.tc : Thread Cert.ReferenceIdeal.nD Cert.ReferenceIdeal.τ).loc Cert.ReferenceIdeal.main_arg7))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v40) = specQ (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v42) = specK (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v44) = specK (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) := by
  refine (θ_run Cert.ReferenceIdeal.defs _ _).mono (fun _ h c => ⟨?_, ?_, ?_, (h c).2.2.2⟩)
    (Cert.ReferenceIdeal.Value.run (F := Ideal) m ρ)
  · rw [(h c).1, Cert.ReferenceIdeal.Read.val_main_v40_eq]
    funext j
    rw [eq_ix3 j]
    exact Cert.ReferenceIdeal.RefValue.refQ _ _ _ _ _ _ _ _ _ _ (h1 c) _ _ _
  · rw [(h c).2.1, Cert.ReferenceIdeal.Read.val_main_v42_eq]
    funext j
    rw [eq_ix3 j]
    exact Cert.ReferenceIdeal.RefValue.refK _ _ _ _ _ _ _ _ _ _ (h4 c) _ _ _
  · rw [(h c).2.2.1, Cert.ReferenceIdeal.Read.val_main_v44_eq]
    funext j
    rw [eq_ix3 j]
    exact Cert.ReferenceIdeal.RefValue.refV _ _ _ _ _ _ _ _ _ _ (h7 c) _ _ _

end Cert.Proof.RefClaims

end
-- ==== Proof.lean ====
/-
  A fused projection layer with codebook-quantised weights: the kernel program against its reference.

  The weights of the three projections are stored as integer codes into sixteen-entry codebooks, with one scale per
  row and per group of 128 columns. The kernel program dequantises each matrix in a call of its own (selecting the
  codebook entry by a binary tree on the code's low four bits), stacks the three matrices, and multiplies the
  flattened activations by the stack's transpose in one call that accumulates over four blocks of the 4096 features;
  the reference looks the entries up by a gather, and multiplies in one step. With every code in the codebook's range
  — the precondition — both compute, for each projection, out(b, s, o) = sum over d of x(b, s, d) * codebook(code(o, d))
  * scale(o, d / 128) on the extended reals: the tree picks the entry the gather picks, a change of float format is the
  identity, and a sum over 4096 terms is the sum of its four quarters (associativity of + alone; finiteness of the
  inputs is not used).

  The three frames: each kernel program's four calls are run region by region (each call's body once per grid
  point, the matrix product's accumulator carried from point to point), the host stretches between them in order; the
  reference's frame is its run with the results dropped. The idealization rewrote nothing, so nothing is to be shown
  for it.
-/
import proofs.«431283_j678604833227_3_alg».proof.Defs
import proofs.«431283_j678604833227_3_alg».proof.Proof.Gen.Kernel
import proofs.«431283_j678604833227_3_alg».proof.Proof.Gen.KernelIdeal
import proofs.«431283_j678604833227_3_alg».proof.Proof.Gen.ReferenceIdeal
import proofs.«431283_j678604833227_3_alg».proof.Proof.Gen.Pre_finite_inputs
import proofs.«431283_j678604833227_3_alg».proof.Proof.BKRun
import proofs.«431283_j678604833227_3_alg».proof.Proof.KValue
import proofs.«431283_j678604833227_3_alg».proof.Proof.RefClaims
import Idealize.ShloMosaic.Adequacy
import Idealize.ShloMosaic.Init

noncomputable section

namespace Cert.Proof

open Idealize.ShloMosaic Idealize.ShloMosaic.TcCoe Idealize.SL.Sem Idealize.ShloMosaic.ValueIdx
open Cert.Proof.RefClaims

/-- The word-level kernel program runs to the end and leaves its arguments as they were. -/
theorem frame_k : Cert.frame_Kernel := fun m ρ _ => Cert.Kernel.KRun.frame m ρ

/-- So does the idealized kernel program. -/
theorem frame_ki : Cert.frame_KernelIdeal := fun m ρ _ => Cert.KernelIdeal.KRun.frame m ρ

/-- From memories that agree on the arguments, with the codes in range, both programs end with the three results at
    the specification's projections of the arguments. -/
theorem algebraic : Cert.algebraic_KernelIdeal_ReferenceIdeal := by
  intro m ρ m' ρ' hpre hagree
  have hR := fun c : Dev Cert.KernelIdeal.nD => Cert.PreRange.inRange_of_pre _ _ _ _ _ _ _ _ _ _ (hpre c)
  refine ⟨fun c => specQ (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => specK (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => specK (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · -- the kernel program: every unscoped buffer is read off the last boundary's contents
    refine (θ_run Cert.KernelIdeal.defs _ _).mono (fun r h c => ⟨?_, ?_, ?_, ?_, ?_, ?_, ?_, ?_, ?_, ?_, ?_, ?_, ?_⟩)
      (Cert.KernelIdeal.KRun.run_all m ρ)
    · refine (h c _ (Cert.KernelIdeal.KRun.mem_uc Cert.KernelIdeal.main_v14 (by decide))).trans ?_
      funext j
      rw [eq_ix3 j]
      exact Cert.KernelIdeal.KValue.resQ m ρ c _ _ _
    · refine (h c _ (Cert.KernelIdeal.KRun.mem_uc Cert.KernelIdeal.main_v16 (by decide))).trans ?_
      funext j
      rw [eq_ix3 j]
      exact Cert.KernelIdeal.KValue.resK m ρ c _ _ _
    · refine (h c _ (Cert.KernelIdeal.KRun.mem_uc Cert.KernelIdeal.main_v18 (by decide))).trans ?_
      funext j
      rw [eq_ix3 j]
      exact Cert.KernelIdeal.KValue.resV m ρ c _ _ _
    · exact (h c _ (Cert.KernelIdeal.KRun.mem_uc Cert.KernelIdeal.main_arg0 (by decide))).trans (Cert.KernelIdeal.KRun.W9_main_arg0 m ρ c)
    · exact (h c _ (Cert.KernelIdeal.KRun.mem_uc Cert.KernelIdeal.main_arg1 (by decide))).trans (Cert.KernelIdeal.KRun.W9_main_arg1 m ρ c)
    · exact (h c _ (Cert.KernelIdeal.KRun.mem_uc Cert.KernelIdeal.main_arg2 (by decide))).trans (Cert.KernelIdeal.KRun.W9_main_arg2 m ρ c)
    · exact (h c _ (Cert.KernelIdeal.KRun.mem_uc Cert.KernelIdeal.main_arg3 (by decide))).trans (Cert.KernelIdeal.KRun.W9_main_arg3 m ρ c)
    · exact (h c _ (Cert.KernelIdeal.KRun.mem_uc Cert.KernelIdeal.main_arg4 (by decide))).trans (Cert.KernelIdeal.KRun.W9_main_arg4 m ρ c)
    · exact (h c _ (Cert.KernelIdeal.KRun.mem_uc Cert.KernelIdeal.main_arg5 (by decide))).trans (Cert.KernelIdeal.KRun.W9_main_arg5 m ρ c)
    · exact (h c _ (Cert.KernelIdeal.KRun.mem_uc Cert.KernelIdeal.main_arg6 (by decide))).trans (Cert.KernelIdeal.KRun.W9_main_arg6 m ρ c)
    · exact (h c _ (Cert.KernelIdeal.KRun.mem_uc Cert.KernelIdeal.main_arg7 (by decide))).trans (Cert.KernelIdeal.KRun.W9_main_arg7 m ρ c)
    · exact (h c _ (Cert.KernelIdeal.KRun.mem_uc Cert.KernelIdeal.main_arg8 (by decide))).trans (Cert.KernelIdeal.KRun.W9_main_arg8 m ρ c)
    · exact (h c _ (Cert.KernelIdeal.KRun.mem_uc Cert.KernelIdeal.main_arg9 (by decide))).trans (Cert.KernelIdeal.KRun.W9_main_arg9 m ρ c)
  · -- the reference: its run restated as the specification, its arguments being the kernel program's
    have hrun := run_spec m' ρ'
      (fun c => by rw [(hagree c).2.1]; exact (hR c).1)
      (fun c => by rw [(hagree c).2.2.2.2.1]; exact (hR c).2.1)
      (fun c => by rw [(hagree c).2.2.2.2.2.2.2.1]; exact (hR c).2.2)
    refine (θ_run Cert.ReferenceIdeal.defs _ _).mono (fun r h c => ?_) hrun
    obtain ⟨e0, e1, e2, e3, e4, e5, e6, e7, e8, e9⟩ := hagree c
    refine ⟨(h c).1.trans ?_, (h c).2.1.trans ?_, (h c).2.2.1.trans ?_, (h c).2.2.2⟩
    · rw [e0, e1, e2, e3]
    · rw [e0, e4, e5, e6]
    · rw [e0, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
